-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S2048x1024 : Shape := ⟨2, ![2048, 1024]⟩
abbrev S4096x512 : Shape := ⟨2, ![4096, 512]⟩
abbrev S32 : Shape := ⟨1, ![32]⟩
abbrev S_ : Shape := ⟨0, ![]⟩
abbrev S1 : Shape := ⟨1, ![1]⟩
abbrev S32x512 : Shape := ⟨2, ![32, 512]⟩
abbrev S2048x512 : Shape := ⟨2, ![2048, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x1024, .f32⟩
  | .hbm, ⟨1, _⟩ => ⟨S4096x512, .f32⟩
  | .local _ .vmem, ⟨0, _⟩ => ⟨S2048x1024, .f32⟩
  | .local _ .vmem, ⟨1, _⟩ => ⟨S4096x512, .f32⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v19 : BitVec 32 := Scalar.muli v2 c2048_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_13 : BitVec 32 := 1024#32
  let v20 : BitVec 32 := Scalar.muli v5 c1024_i32_13
  let v21 : BitVec 32 := Scalar.addi v19 v20
  let v22 : BitVec 32 := Scalar.addi v21 c0_i32_14
  let c0_i32_20 : BitVec 32 := 0#32
  ![v22.toNat, 0]
def k0_off2 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v17 : BitVec 32 := Scalar.muli v5 c1024_i32
  let v18 : BitVec 32 := Scalar.addi v17 c0_i32_12
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32 : BitVec 32 := 512#32
  let v23 : BitVec 32 := Scalar.muli v6 c512_i32
  ![v18.toNat, v23.toNat]
def k0_dev3 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v24 : BitVec 32 := Scalar.muli v6 c2_i32_17
  let v25 : BitVec 32 := Scalar.addi c0_i32_18 v24
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v26 : BitVec 32 := Scalar.muli v5 c1_i32_19
  let v27 : BitVec 32 := Scalar.addi v25 v26
  v27.toNat
def k0_dev4 (d0 : Dev nD) : Nat :=
  let c0_i32_29 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_28 : BitVec 32 := 2#32
  let v41 : BitVec 32 := Scalar.muli v6 c2_i32_28
  let v42 : BitVec 32 := Scalar.addi c0_i32_29 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v43 : BitVec 32 := Scalar.muli v5 c1_i32_30
  let v44 : BitVec 32 := Scalar.addi v42 v43
  v44.toNat
def k0_dev5 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v58 : BitVec 32 := Scalar.muli v6 c2_i32_39
  let v59 : BitVec 32 := Scalar.addi c0_i32_40 v58
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v60 : BitVec 32 := Scalar.muli v5 c1_i32_41
  let v61 : BitVec 32 := Scalar.addi v59 v60
  v61.toNat
def k0_dev6 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v75 : BitVec 32 := Scalar.muli v6 c2_i32_49
  let v76 : BitVec 32 := Scalar.addi c0_i32_50 v75
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v77 : BitVec 32 := Scalar.muli v5 c1_i32_51
  let v78 : BitVec 32 := Scalar.addi v76 v77
  v78.toNat
def k0_dev7 (d0 : Dev nD) : Nat :=
  let c0_i32_60 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_59 : BitVec 32 := 2#32
  let v92 : BitVec 32 := Scalar.muli v6 c2_i32_59
  let v93 : BitVec 32 := Scalar.addi c0_i32_60 v92
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_61 : BitVec 32 := 1#32
  let v94 : BitVec 32 := Scalar.muli v5 c1_i32_61
  let v95 : BitVec 32 := Scalar.addi v93 v94
  v95.toNat
def k0_dev8 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v109 : BitVec 32 := Scalar.muli v6 c2_i32_69
  let v110 : BitVec 32 := Scalar.addi c0_i32_70 v109
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v111 : BitVec 32 := Scalar.muli v5 c1_i32_71
  let v112 : BitVec 32 := Scalar.addi v110 v111
  v112.toNat
def k0_dev9 (d0 : Dev nD) : Nat :=
  let c0_i32_80 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_79 : BitVec 32 := 2#32
  let v126 : BitVec 32 := Scalar.muli v6 c2_i32_79
  let v127 : BitVec 32 := Scalar.addi c0_i32_80 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_81 : BitVec 32 := 1#32
  let v128 : BitVec 32 := Scalar.muli v5 c1_i32_81
  let v129 : BitVec 32 := Scalar.addi v127 v128
  v129.toNat
def k0_dev10 (d0 : Dev nD) : Nat :=
  let c0_i32_90 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_89 : BitVec 32 := 2#32
  let v143 : BitVec 32 := Scalar.muli v6 c2_i32_89
  let v144 : BitVec 32 := Scalar.addi c0_i32_90 v143
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_91 : BitVec 32 := 1#32
  let v145 : BitVec 32 := Scalar.muli v5 c1_i32_91
  let v146 : BitVec 32 := Scalar.addi v144 v145
  v146.toNat
def k0_dev11 (d0 : Dev nD) : Nat :=
  let c0_i32_100 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_99 : BitVec 32 := 2#32
  let v160 : BitVec 32 := Scalar.muli v6 c2_i32_99
  let v161 : BitVec 32 := Scalar.addi c0_i32_100 v160
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v162 : BitVec 32 := Scalar.muli v5 c1_i32_101
  let v163 : BitVec 32 := Scalar.addi v161 v162
  v163.toNat
def k0_dev12 (d0 : Dev nD) : Nat :=
  let c0_i32_110 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_109 : BitVec 32 := 2#32
  let v177 : BitVec 32 := Scalar.muli v6 c2_i32_109
  let v178 : BitVec 32 := Scalar.addi c0_i32_110 v177
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v179 : BitVec 32 := Scalar.muli v5 c1_i32_111
  let v180 : BitVec 32 := Scalar.addi v178 v179
  v180.toNat
def k0_dev13 (d0 : Dev nD) : Nat :=
  let c0_i32_120 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_119 : BitVec 32 := 2#32
  let v194 : BitVec 32 := Scalar.muli v6 c2_i32_119
  let v195 : BitVec 32 := Scalar.addi c0_i32_120 v194
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v196 : BitVec 32 := Scalar.muli v5 c1_i32_121
  let v197 : BitVec 32 := Scalar.addi v195 v196
  v197.toNat
def k0_dev14 (d0 : Dev nD) : Nat :=
  let c0_i32_130 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_129 : BitVec 32 := 2#32
  let v211 : BitVec 32 := Scalar.muli v6 c2_i32_129
  let v212 : BitVec 32 := Scalar.addi c0_i32_130 v211
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v213 : BitVec 32 := Scalar.muli v5 c1_i32_131
  let v214 : BitVec 32 := Scalar.addi v212 v213
  v214.toNat
def k0_dev15 (d0 : Dev nD) : Nat :=
  let c0_i32_140 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_139 : BitVec 32 := 2#32
  let v228 : BitVec 32 := Scalar.muli v6 c2_i32_139
  let v229 : BitVec 32 := Scalar.addi c0_i32_140 v228
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_141 : BitVec 32 := 1#32
  let v230 : BitVec 32 := Scalar.muli v5 c1_i32_141
  let v231 : BitVec 32 := Scalar.addi v229 v230
  v231.toNat
def k0_dev16 (d0 : Dev nD) : Nat :=
  let c0_i32_150 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_149 : BitVec 32 := 2#32
  let v245 : BitVec 32 := Scalar.muli v6 c2_i32_149
  let v246 : BitVec 32 := Scalar.addi c0_i32_150 v245
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_151 : BitVec 32 := 1#32
  let v247 : BitVec 32 := Scalar.muli v5 c1_i32_151
  let v248 : BitVec 32 := Scalar.addi v246 v247
  v248.toNat
def k0_dev17 (d0 : Dev nD) : Nat :=
  let c0_i32_160 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_159 : BitVec 32 := 2#32
  let v262 : BitVec 32 := Scalar.muli v6 c2_i32_159
  let v263 : BitVec 32 := Scalar.addi c0_i32_160 v262
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_161 : BitVec 32 := 1#32
  let v264 : BitVec 32 := Scalar.muli v5 c1_i32_161
  let v265 : BitVec 32 := Scalar.addi v263 v264
  v265.toNat
def k0_dev18 (d0 : Dev nD) : Nat :=
  let c0_i32_170 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_169 : BitVec 32 := 2#32
  let v279 : BitVec 32 := Scalar.muli v6 c2_i32_169
  let v280 : BitVec 32 := Scalar.addi c0_i32_170 v279
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_171 : BitVec 32 := 1#32
  let v281 : BitVec 32 := Scalar.muli v5 c1_i32_171
  let v282 : BitVec 32 := Scalar.addi v280 v281
  v282.toNat
def k0_dev19 (d0 : Dev nD) : Nat :=
  let c0_i32_181 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_180 : BitVec 32 := 2#32
  let v296 : BitVec 32 := Scalar.muli v6 c2_i32_180
  let v297 : BitVec 32 := Scalar.addi c0_i32_181 v296
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_182 : BitVec 32 := 1#32
  let v298 : BitVec 32 := Scalar.muli v5 c1_i32_182
  let v299 : BitVec 32 := Scalar.addi v297 v298
  v299.toNat
def k0_dev20 (d0 : Dev nD) : Nat :=
  let c0_i32_191 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_190 : BitVec 32 := 2#32
  let v313 : BitVec 32 := Scalar.muli v6 c2_i32_190
  let v314 : BitVec 32 := Scalar.addi c0_i32_191 v313
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_192 : BitVec 32 := 1#32
  let v315 : BitVec 32 := Scalar.muli v5 c1_i32_192
  let v316 : BitVec 32 := Scalar.addi v314 v315
  v316.toNat
def k0_dev21 (d0 : Dev nD) : Nat :=
  let c0_i32_201 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_200 : BitVec 32 := 2#32
  let v330 : BitVec 32 := Scalar.muli v6 c2_i32_200
  let v331 : BitVec 32 := Scalar.addi c0_i32_201 v330
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_202 : BitVec 32 := 1#32
  let v332 : BitVec 32 := Scalar.muli v5 c1_i32_202
  let v333 : BitVec 32 := Scalar.addi v331 v332
  v333.toNat
def k0_dev22 (d0 : Dev nD) : Nat :=
  let c0_i32_211 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_210 : BitVec 32 := 2#32
  let v347 : BitVec 32 := Scalar.muli v6 c2_i32_210
  let v348 : BitVec 32 := Scalar.addi c0_i32_211 v347
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_212 : BitVec 32 := 1#32
  let v349 : BitVec 32 := Scalar.muli v5 c1_i32_212
  let v350 : BitVec 32 := Scalar.addi v348 v349
  v350.toNat
def k0_dev23 (d0 : Dev nD) : Nat :=
  let c0_i32_221 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_220 : BitVec 32 := 2#32
  let v364 : BitVec 32 := Scalar.muli v6 c2_i32_220
  let v365 : BitVec 32 := Scalar.addi c0_i32_221 v364
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v366 : BitVec 32 := Scalar.muli v5 c1_i32_222
  let v367 : BitVec 32 := Scalar.addi v365 v366
  v367.toNat
def k0_dev24 (d0 : Dev nD) : Nat :=
  let c0_i32_231 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_230 : BitVec 32 := 2#32
  let v381 : BitVec 32 := Scalar.muli v6 c2_i32_230
  let v382 : BitVec 32 := Scalar.addi c0_i32_231 v381
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_232 : BitVec 32 := 1#32
  let v383 : BitVec 32 := Scalar.muli v5 c1_i32_232
  let v384 : BitVec 32 := Scalar.addi v382 v383
  v384.toNat
def k0_dev25 (d0 : Dev nD) : Nat :=
  let c0_i32_241 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_240 : BitVec 32 := 2#32
  let v398 : BitVec 32 := Scalar.muli v6 c2_i32_240
  let v399 : BitVec 32 := Scalar.addi c0_i32_241 v398
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_242 : BitVec 32 := 1#32
  let v400 : BitVec 32 := Scalar.muli v5 c1_i32_242
  let v401 : BitVec 32 := Scalar.addi v399 v400
  v401.toNat
def k0_dev26 (d0 : Dev nD) : Nat :=
  let c0_i32_251 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_250 : BitVec 32 := 2#32
  let v415 : BitVec 32 := Scalar.muli v6 c2_i32_250
  let v416 : BitVec 32 := Scalar.addi c0_i32_251 v415
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v417 : BitVec 32 := Scalar.muli v5 c1_i32_252
  let v418 : BitVec 32 := Scalar.addi v416 v417
  v418.toNat
def k0_dev27 (d0 : Dev nD) : Nat :=
  let c0_i32_261 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_260 : BitVec 32 := 2#32
  let v432 : BitVec 32 := Scalar.muli v6 c2_i32_260
  let v433 : BitVec 32 := Scalar.addi c0_i32_261 v432
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_262 : BitVec 32 := 1#32
  let v434 : BitVec 32 := Scalar.muli v5 c1_i32_262
  let v435 : BitVec 32 := Scalar.addi v433 v434
  v435.toNat
def k0_dev28 (d0 : Dev nD) : Nat :=
  let c0_i32_271 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_270 : BitVec 32 := 2#32
  let v449 : BitVec 32 := Scalar.muli v6 c2_i32_270
  let v450 : BitVec 32 := Scalar.addi c0_i32_271 v449
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_272 : BitVec 32 := 1#32
  let v451 : BitVec 32 := Scalar.muli v5 c1_i32_272
  let v452 : BitVec 32 := Scalar.addi v450 v451
  v452.toNat
def k0_dev29 (d0 : Dev nD) : Nat :=
  let c0_i32_281 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_280 : BitVec 32 := 2#32
  let v466 : BitVec 32 := Scalar.muli v6 c2_i32_280
  let v467 : BitVec 32 := Scalar.addi c0_i32_281 v466
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_282 : BitVec 32 := 1#32
  let v468 : BitVec 32 := Scalar.muli v5 c1_i32_282
  let v469 : BitVec 32 := Scalar.addi v467 v468
  v469.toNat
def k0_dev30 (d0 : Dev nD) : Nat :=
  let c0_i32_291 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_290 : BitVec 32 := 2#32
  let v483 : BitVec 32 := Scalar.muli v6 c2_i32_290
  let v484 : BitVec 32 := Scalar.addi c0_i32_291 v483
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_292 : BitVec 32 := 1#32
  let v485 : BitVec 32 := Scalar.muli v5 c1_i32_292
  let v486 : BitVec 32 := Scalar.addi v484 v485
  v486.toNat
def k0_dev31 (d0 : Dev nD) : Nat :=
  let c0_i32_301 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_300 : BitVec 32 := 2#32
  let v500 : BitVec 32 := Scalar.muli v6 c2_i32_300
  let v501 : BitVec 32 := Scalar.addi c0_i32_301 v500
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_302 : BitVec 32 := 1#32
  let v502 : BitVec 32 := Scalar.muli v5 c1_i32_302
  let v503 : BitVec 32 := Scalar.addi v501 v502
  v503.toNat
def k0_dev32 (d0 : Dev nD) : Nat :=
  let c0_i32_311 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_310 : BitVec 32 := 2#32
  let v517 : BitVec 32 := Scalar.muli v6 c2_i32_310
  let v518 : BitVec 32 := Scalar.addi c0_i32_311 v517
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_312 : BitVec 32 := 1#32
  let v519 : BitVec 32 := Scalar.muli v5 c1_i32_312
  let v520 : BitVec 32 := Scalar.addi v518 v519
  v520.toNat
def k0_dev33 (d0 : Dev nD) : Nat :=
  let c0_i32_321 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_320 : BitVec 32 := 2#32
  let v534 : BitVec 32 := Scalar.muli v6 c2_i32_320
  let v535 : BitVec 32 := Scalar.addi c0_i32_321 v534
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_322 : BitVec 32 := 1#32
  let v536 : BitVec 32 := Scalar.muli v5 c1_i32_322
  let v537 : BitVec 32 := Scalar.addi v535 v536
  v537.toNat
def k0_dev34 (d0 : Dev nD) : Nat :=
  let c0_i32_331 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_330 : BitVec 32 := 2#32
  let v551 : BitVec 32 := Scalar.muli v6 c2_i32_330
  let v552 : BitVec 32 := Scalar.addi c0_i32_331 v551
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_332 : BitVec 32 := 1#32
  let v553 : BitVec 32 := Scalar.muli v5 c1_i32_332
  let v554 : BitVec 32 := Scalar.addi v552 v553
  v554.toNat
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_335 : BitVec 32 := 2048#32
  let v562 : BitVec 32 := Scalar.muli v2 c2048_i32_335
  let c0_i32_336 : BitVec 32 := 0#32
  ![v562.toNat, 0]
def k0_off4 (d0 : Dev nD) : Fin 2 → Nat :=
  let c0_i32_337 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_334 : BitVec 32 := 512#32
  let v561 : BitVec 32 := Scalar.muli v2 c512_i32_334
  ![0, v561.toNat]
def k0_off5 (d0 : Dev nD) (c0_i32_346 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2048_i32_344 : BitVec 32 := 2048#32
  let v573 : BitVec 32 := Scalar.muli v6 c2048_i32_344
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_345 : BitVec 32 := 1024#32
  let v574 : BitVec 32 := Scalar.muli v5 c1024_i32_345
  let v575 : BitVec 32 := Scalar.addi v573 v574
  let v576 : BitVec 32 := Scalar.addi v575 c0_i32_346
  let c0_i32_352 : BitVec 32 := 0#32
  ![v576.toNat, 0]
def k0_dev35 (d0 : Dev nD) : Nat :=
  let c0_i32_350 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_349 : BitVec 32 := 2#32
  let v577 : BitVec 32 := Scalar.muli v2 c2_i32_349
  let v578 : BitVec 32 := Scalar.addi c0_i32_350 v577
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_351 : BitVec 32 := 1#32
  let v579 : BitVec 32 := Scalar.muli v7 c1_i32_351
  let v580 : BitVec 32 := Scalar.addi v578 v579
  v580.toNat
def k0_dev36 (d0 : Dev nD) : Nat :=
  let c0_i32_366 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_365 : BitVec 32 := 2#32
  let v599 : BitVec 32 := Scalar.muli v2 c2_i32_365
  let v600 : BitVec 32 := Scalar.addi c0_i32_366 v599
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_367 : BitVec 32 := 1#32
  let v601 : BitVec 32 := Scalar.muli v7 c1_i32_367
  let v602 : BitVec 32 := Scalar.addi v600 v601
  v602.toNat
def k0_dev37 (d0 : Dev nD) : Nat :=
  let c0_i32_382 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_381 : BitVec 32 := 2#32
  let v621 : BitVec 32 := Scalar.muli v2 c2_i32_381
  let v622 : BitVec 32 := Scalar.addi c0_i32_382 v621
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_383 : BitVec 32 := 1#32
  let v623 : BitVec 32 := Scalar.muli v7 c1_i32_383
  let v624 : BitVec 32 := Scalar.addi v622 v623
  v624.toNat
def k0_dev38 (d0 : Dev nD) : Nat :=
  let c0_i32_398 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_397 : BitVec 32 := 2#32
  let v643 : BitVec 32 := Scalar.muli v2 c2_i32_397
  let v644 : BitVec 32 := Scalar.addi c0_i32_398 v643
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_399 : BitVec 32 := 1#32
  let v645 : BitVec 32 := Scalar.muli v7 c1_i32_399
  let v646 : BitVec 32 := Scalar.addi v644 v645
  v646.toNat
def k0_dev39 (d0 : Dev nD) : Nat :=
  let c0_i32_414 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_413 : BitVec 32 := 2#32
  let v665 : BitVec 32 := Scalar.muli v2 c2_i32_413
  let v666 : BitVec 32 := Scalar.addi c0_i32_414 v665
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_415 : BitVec 32 := 1#32
  let v667 : BitVec 32 := Scalar.muli v7 c1_i32_415
  let v668 : BitVec 32 := Scalar.addi v666 v667
  v668.toNat
def k0_dev40 (d0 : Dev nD) : Nat :=
  let c0_i32_430 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_429 : BitVec 32 := 2#32
  let v687 : BitVec 32 := Scalar.muli v2 c2_i32_429
  let v688 : BitVec 32 := Scalar.addi c0_i32_430 v687
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_431 : BitVec 32 := 1#32
  let v689 : BitVec 32 := Scalar.muli v7 c1_i32_431
  let v690 : BitVec 32 := Scalar.addi v688 v689
  v690.toNat
def k0_dev41 (d0 : Dev nD) : Nat :=
  let c0_i32_446 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_445 : BitVec 32 := 2#32
  let v709 : BitVec 32 := Scalar.muli v2 c2_i32_445
  let v710 : BitVec 32 := Scalar.addi c0_i32_446 v709
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_447 : BitVec 32 := 1#32
  let v711 : BitVec 32 := Scalar.muli v7 c1_i32_447
  let v712 : BitVec 32 := Scalar.addi v710 v711
  v712.toNat
def k0_dev42 (d0 : Dev nD) : Nat :=
  let c0_i32_462 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_461 : BitVec 32 := 2#32
  let v731 : BitVec 32 := Scalar.muli v2 c2_i32_461
  let v732 : BitVec 32 := Scalar.addi c0_i32_462 v731
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_463 : BitVec 32 := 1#32
  let v733 : BitVec 32 := Scalar.muli v7 c1_i32_463
  let v734 : BitVec 32 := Scalar.addi v732 v733
  v734.toNat
def k0_dev43 (d0 : Dev nD) : Nat :=
  let c0_i32_478 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_477 : BitVec 32 := 2#32
  let v753 : BitVec 32 := Scalar.muli v2 c2_i32_477
  let v754 : BitVec 32 := Scalar.addi c0_i32_478 v753
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_479 : BitVec 32 := 1#32
  let v755 : BitVec 32 := Scalar.muli v7 c1_i32_479
  let v756 : BitVec 32 := Scalar.addi v754 v755
  v756.toNat
def k0_dev44 (d0 : Dev nD) : Nat :=
  let c0_i32_494 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_493 : BitVec 32 := 2#32
  let v775 : BitVec 32 := Scalar.muli v2 c2_i32_493
  let v776 : BitVec 32 := Scalar.addi c0_i32_494 v775
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_495 : BitVec 32 := 1#32
  let v777 : BitVec 32 := Scalar.muli v7 c1_i32_495
  let v778 : BitVec 32 := Scalar.addi v776 v777
  v778.toNat
def k0_dev45 (d0 : Dev nD) : Nat :=
  let c0_i32_510 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_509 : BitVec 32 := 2#32
  let v797 : BitVec 32 := Scalar.muli v2 c2_i32_509
  let v798 : BitVec 32 := Scalar.addi c0_i32_510 v797
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_511 : BitVec 32 := 1#32
  let v799 : BitVec 32 := Scalar.muli v7 c1_i32_511
  let v800 : BitVec 32 := Scalar.addi v798 v799
  v800.toNat
def k0_dev46 (d0 : Dev nD) : Nat :=
  let c0_i32_526 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_525 : BitVec 32 := 2#32
  let v819 : BitVec 32 := Scalar.muli v2 c2_i32_525
  let v820 : BitVec 32 := Scalar.addi c0_i32_526 v819
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_527 : BitVec 32 := 1#32
  let v821 : BitVec 32 := Scalar.muli v7 c1_i32_527
  let v822 : BitVec 32 := Scalar.addi v820 v821
  v822.toNat
def k0_dev47 (d0 : Dev nD) : Nat :=
  let c0_i32_542 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_541 : BitVec 32 := 2#32
  let v841 : BitVec 32 := Scalar.muli v2 c2_i32_541
  let v842 : BitVec 32 := Scalar.addi c0_i32_542 v841
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_543 : BitVec 32 := 1#32
  let v843 : BitVec 32 := Scalar.muli v7 c1_i32_543
  let v844 : BitVec 32 := Scalar.addi v842 v843
  v844.toNat
def k0_dev48 (d0 : Dev nD) : Nat :=
  let c0_i32_558 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_557 : BitVec 32 := 2#32
  let v863 : BitVec 32 := Scalar.muli v2 c2_i32_557
  let v864 : BitVec 32 := Scalar.addi c0_i32_558 v863
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_559 : BitVec 32 := 1#32
  let v865 : BitVec 32 := Scalar.muli v7 c1_i32_559
  let v866 : BitVec 32 := Scalar.addi v864 v865
  v866.toNat
def k0_dev49 (d0 : Dev nD) : Nat :=
  let c0_i32_574 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_573 : BitVec 32 := 2#32
  let v885 : BitVec 32 := Scalar.muli v2 c2_i32_573
  let v886 : BitVec 32 := Scalar.addi c0_i32_574 v885
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_575 : BitVec 32 := 1#32
  let v887 : BitVec 32 := Scalar.muli v7 c1_i32_575
  let v888 : BitVec 32 := Scalar.addi v886 v887
  v888.toNat
def k0_dev50 (d0 : Dev nD) : Nat :=
  let c0_i32_590 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_589 : BitVec 32 := 2#32
  let v907 : BitVec 32 := Scalar.muli v2 c2_i32_589
  let v908 : BitVec 32 := Scalar.addi c0_i32_590 v907
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_591 : BitVec 32 := 1#32
  let v909 : BitVec 32 := Scalar.muli v7 c1_i32_591
  let v910 : BitVec 32 := Scalar.addi v908 v909
  v910.toNat
def k0_dev51 (d0 : Dev nD) : Nat :=
  let c0_i32_606 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_605 : BitVec 32 := 2#32
  let v929 : BitVec 32 := Scalar.muli v2 c2_i32_605
  let v930 : BitVec 32 := Scalar.addi c0_i32_606 v929
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_607 : BitVec 32 := 1#32
  let v931 : BitVec 32 := Scalar.muli v7 c1_i32_607
  let v932 : BitVec 32 := Scalar.addi v930 v931
  v932.toNat
def k0_dev52 (d0 : Dev nD) : Nat :=
  let c0_i32_622 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_621 : BitVec 32 := 2#32
  let v951 : BitVec 32 := Scalar.muli v2 c2_i32_621
  let v952 : BitVec 32 := Scalar.addi c0_i32_622 v951
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_623 : BitVec 32 := 1#32
  let v953 : BitVec 32 := Scalar.muli v7 c1_i32_623
  let v954 : BitVec 32 := Scalar.addi v952 v953
  v954.toNat
def k0_dev53 (d0 : Dev nD) : Nat :=
  let c0_i32_638 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_637 : BitVec 32 := 2#32
  let v973 : BitVec 32 := Scalar.muli v2 c2_i32_637
  let v974 : BitVec 32 := Scalar.addi c0_i32_638 v973
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_639 : BitVec 32 := 1#32
  let v975 : BitVec 32 := Scalar.muli v7 c1_i32_639
  let v976 : BitVec 32 := Scalar.addi v974 v975
  v976.toNat
def k0_dev54 (d0 : Dev nD) : Nat :=
  let c0_i32_654 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_653 : BitVec 32 := 2#32
  let v995 : BitVec 32 := Scalar.muli v2 c2_i32_653
  let v996 : BitVec 32 := Scalar.addi c0_i32_654 v995
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_655 : BitVec 32 := 1#32
  let v997 : BitVec 32 := Scalar.muli v7 c1_i32_655
  let v998 : BitVec 32 := Scalar.addi v996 v997
  v998.toNat
def k0_dev55 (d0 : Dev nD) : Nat :=
  let c0_i32_670 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_669 : BitVec 32 := 2#32
  let v1017 : BitVec 32 := Scalar.muli v2 c2_i32_669
  let v1018 : BitVec 32 := Scalar.addi c0_i32_670 v1017
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_671 : BitVec 32 := 1#32
  let v1019 : BitVec 32 := Scalar.muli v7 c1_i32_671
  let v1020 : BitVec 32 := Scalar.addi v1018 v1019
  v1020.toNat
def k0_dev56 (d0 : Dev nD) : Nat :=
  let c0_i32_686 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_685 : BitVec 32 := 2#32
  let v1039 : BitVec 32 := Scalar.muli v2 c2_i32_685
  let v1040 : BitVec 32 := Scalar.addi c0_i32_686 v1039
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_687 : BitVec 32 := 1#32
  let v1041 : BitVec 32 := Scalar.muli v7 c1_i32_687
  let v1042 : BitVec 32 := Scalar.addi v1040 v1041
  v1042.toNat
def k0_dev57 (d0 : Dev nD) : Nat :=
  let c0_i32_702 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_701 : BitVec 32 := 2#32
  let v1061 : BitVec 32 := Scalar.muli v2 c2_i32_701
  let v1062 : BitVec 32 := Scalar.addi c0_i32_702 v1061
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_703 : BitVec 32 := 1#32
  let v1063 : BitVec 32 := Scalar.muli v7 c1_i32_703
  let v1064 : BitVec 32 := Scalar.addi v1062 v1063
  v1064.toNat
def k0_dev58 (d0 : Dev nD) : Nat :=
  let c0_i32_718 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_717 : BitVec 32 := 2#32
  let v1083 : BitVec 32 := Scalar.muli v2 c2_i32_717
  let v1084 : BitVec 32 := Scalar.addi c0_i32_718 v1083
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_719 : BitVec 32 := 1#32
  let v1085 : BitVec 32 := Scalar.muli v7 c1_i32_719
  let v1086 : BitVec 32 := Scalar.addi v1084 v1085
  v1086.toNat
def k0_dev59 (d0 : Dev nD) : Nat :=
  let c0_i32_734 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_733 : BitVec 32 := 2#32
  let v1105 : BitVec 32 := Scalar.muli v2 c2_i32_733
  let v1106 : BitVec 32 := Scalar.addi c0_i32_734 v1105
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_735 : BitVec 32 := 1#32
  let v1107 : BitVec 32 := Scalar.muli v7 c1_i32_735
  let v1108 : BitVec 32 := Scalar.addi v1106 v1107
  v1108.toNat
def k0_dev60 (d0 : Dev nD) : Nat :=
  let c0_i32_750 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_749 : BitVec 32 := 2#32
  let v1127 : BitVec 32 := Scalar.muli v2 c2_i32_749
  let v1128 : BitVec 32 := Scalar.addi c0_i32_750 v1127
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_751 : BitVec 32 := 1#32
  let v1129 : BitVec 32 := Scalar.muli v7 c1_i32_751
  let v1130 : BitVec 32 := Scalar.addi v1128 v1129
  v1130.toNat
def k0_dev61 (d0 : Dev nD) : Nat :=
  let c0_i32_766 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_765 : BitVec 32 := 2#32
  let v1149 : BitVec 32 := Scalar.muli v2 c2_i32_765
  let v1150 : BitVec 32 := Scalar.addi c0_i32_766 v1149
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_767 : BitVec 32 := 1#32
  let v1151 : BitVec 32 := Scalar.muli v7 c1_i32_767
  let v1152 : BitVec 32 := Scalar.addi v1150 v1151
  v1152.toNat
def k0_dev62 (d0 : Dev nD) : Nat :=
  let c0_i32_782 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_781 : BitVec 32 := 2#32
  let v1171 : BitVec 32 := Scalar.muli v2 c2_i32_781
  let v1172 : BitVec 32 := Scalar.addi c0_i32_782 v1171
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_783 : BitVec 32 := 1#32
  let v1173 : BitVec 32 := Scalar.muli v7 c1_i32_783
  let v1174 : BitVec 32 := Scalar.addi v1172 v1173
  v1174.toNat
def k0_dev63 (d0 : Dev nD) : Nat :=
  let c0_i32_798 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_797 : BitVec 32 := 2#32
  let v1193 : BitVec 32 := Scalar.muli v2 c2_i32_797
  let v1194 : BitVec 32 := Scalar.addi c0_i32_798 v1193
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_799 : BitVec 32 := 1#32
  let v1195 : BitVec 32 := Scalar.muli v7 c1_i32_799
  let v1196 : BitVec 32 := Scalar.addi v1194 v1195
  v1196.toNat
def k0_dev64 (d0 : Dev nD) : Nat :=
  let c0_i32_814 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_813 : BitVec 32 := 2#32
  let v1215 : BitVec 32 := Scalar.muli v2 c2_i32_813
  let v1216 : BitVec 32 := Scalar.addi c0_i32_814 v1215
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_815 : BitVec 32 := 1#32
  let v1217 : BitVec 32 := Scalar.muli v7 c1_i32_815
  let v1218 : BitVec 32 := Scalar.addi v1216 v1217
  v1218.toNat
def k0_dev65 (d0 : Dev nD) : Nat :=
  let c0_i32_830 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_829 : BitVec 32 := 2#32
  let v1237 : BitVec 32 := Scalar.muli v2 c2_i32_829
  let v1238 : BitVec 32 := Scalar.addi c0_i32_830 v1237
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_831 : BitVec 32 := 1#32
  let v1239 : BitVec 32 := Scalar.muli v7 c1_i32_831
  let v1240 : BitVec 32 := Scalar.addi v1238 v1239
  v1240.toNat
def k0_dev66 (d0 : Dev nD) : Nat :=
  let c0_i32_846 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_845 : BitVec 32 := 2#32
  let v1259 : BitVec 32 := Scalar.muli v2 c2_i32_845
  let v1260 : BitVec 32 := Scalar.addi c0_i32_846 v1259
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_847 : BitVec 32 := 1#32
  let v1261 : BitVec 32 := Scalar.muli v7 c1_i32_847
  let v1262 : BitVec 32 := Scalar.addi v1260 v1261
  v1262.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S32_S1_1 : ∀ a, (![1] : Fin 1 → Nat) a + S1.size a ≤ S32.size a
  inb_S32_S1_2 : ∀ a, (![2] : Fin 1 → Nat) a + S1.size a ≤ S32.size a
  inb_S32_S1_3 : ∀ a, (![3] : Fin 1 → Nat) a + S1.size a ≤ S32.size a
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S32_S1_9 : ∀ a, (![9] : Fin 1 → Nat) a + S1.size a ≤ S32.size a
  inb_S32_S1_10 : ∀ a, (![10] : Fin 1 → Nat) a + S1.size a ≤ S32.size a
  inb_S32_S1_11 : ∀ a, (![11] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S32_S1_17 : ∀ a, (![17] : Fin 1 → Nat) a + S1.size a ≤ S32.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  hcc0_scratch0 : 2 + S32.numel ≤ 131
  hcc0_scratch1 : 34 + S32.numel ≤ 131
  hcc0_scratch2 : 66 + S32.numel ≤ 131
  hcc0_scratch3 : 98 + S32.numel ≤ 131
  hcc0_scratch4 : 130 + S_.numel ≤ 131
  k0_dev1_lt : ∀ d0 : Dev nD, (k0_dev1 d0) < nD
  k0_dev2_lt : ∀ d0 : Dev nD, (k0_dev2 d0) < nD
  k0_off1_inb : ∀ d0 : Dev nD, ∀ (r : Fin 32), ∀ a, (k0_off1 d0 (BitVec.ofNat 32 (32 * r.val))) a + S32x512.size a ≤ S4096x512.size a
  k0_off2_inb : ∀ d0 : Dev nD, ∀ (r : Fin 32), ∀ a, (k0_off2 d0 (BitVec.ofNat 32 (32 * r.val))) a + S32x512.size a ≤ S2048x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off3_inb : ∀ d0 : Dev nD, ∀ a, (k0_off3 d0) a + S2048x512.size a ≤ S4096x512.size a
  k0_off4_inb : ∀ d0 : Dev nD, ∀ a, (k0_off4 d0) a + S2048x512.size a ≤ S2048x1024.size a
  k0_off5_inb : ∀ d0 : Dev nD, ∀ (r : Fin 32), ∀ a, (k0_off5 d0 (BitVec.ofNat 32 (32 * r.val))) a + S32x512.size a ≤ S4096x512.size a
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  hstage0_0 : ∀ j, (stage0_0 j).IsWhole
  hstage0_1 : ∀ j, (stage0_1 j).IsWhole

variable [Facts₀]

abbrev cc0_scratch0 : DmaSems sig S32 := SemArray.consecutive 2 S32 hcc0_scratch0
abbrev cc0_scratch1 : DmaSems sig S32 := SemArray.consecutive 34 S32 hcc0_scratch1
abbrev cc0_scratch2 : DmaSems sig S32 := SemArray.consecutive 66 S32 hcc0_scratch2
abbrev cc0_scratch3 : DmaSems sig S32 := SemArray.consecutive 98 S32 hcc0_scratch3
abbrev cc0_scratch4 : DmaSems sig S_ := SemArray.consecutive 130 S_ hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Proto.lean ====
import proofs.«900015_g7700000000000016_dist_a2a_v7x_xy2x2_x_m2048_n512_f32_1_alg».proof.Proof.Gen.KernelIdeal
import proofs.«900015_g7700000000000016_dist_a2a_v7x_xy2x2_x_m2048_n512_f32_1_alg».proof.Proof.Gen.KernelIdeal.Skeleton
import proofs.«900015_g7700000000000016_dist_a2a_v7x_xy2x2_x_m2048_n512_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh: device `2·a + b` sits at `(x, y) = (a, b)` -/

/-- The neighbour along x: the other value of `a`. -/
def xn (c : Dev nD) : Dev nD := ⟨(c.val % 2 + 2) - 2 * (c.val / 2), by have := c.isLt; simp only [nD] at *; omega⟩
/-- The neighbour along y: the other value of `b`. -/
def yn (c : Dev nD) : Dev nD := ⟨(2 * (c.val / 2) + 1) - c.val % 2, by have := c.isLt; simp only [nD] at *; omega⟩

theorem xn_xn (c : Dev nD) : xn (xn c) = c := by revert c; decide
theorem yn_yn (c : Dev nD) : yn (yn c) = c := by revert c; decide
theorem xn_yn (c : Dev nD) : xn (yn c) = yn (xn c) := by revert c; decide
theorem xn_ne (c : Dev nD) : xn c ≠ c := by revert c; decide
theorem yn_ne (c : Dev nD) : yn c ≠ c := by revert c; decide
theorem xn_ne_yn (c : Dev nD) : xn c ≠ yn c := by revert c; decide

def xEquiv : Dev nD ≃ Dev nD := ⟨xn, xn, xn_xn, xn_xn⟩
def yEquiv : Dev nD ≃ Dev nD := ⟨yn, yn, yn_yn, yn_yn⟩

/-! ## The two staging buffers and the rectangles the copies move -/

abbrev xM : Memref sig .tc .vmem S2048x1024 .f32 := Memref.whole cc0_stg0_0
abbrev oM : Memref sig .tc .vmem S4096x512 .f32 := Memref.whole cc0_stg1_0

/-- The word the kernel adds for chunk `i`: `32·i`. -/
abbrev cw (i : Fin 32) : BitVec 32 := BitVec.ofNat 32 (32 * i.val)

/-- Source of the x-copy of chunk `i` on device `c`: rows `1024·b + 32·i …`, the other half of the columns. -/
abbrev xsrcM (c : Dev nD) (i : Fin 32) : Memref sig .tc .vmem S32x512 .f32 :=
  xM.slice (Rect.unit (s := S2048x1024) (k0_off2 c (cw i)) S32x512.size (k0_off2_inb c i)) (fun _ => rfl)
/-- Destination of that copy, in the x-neighbour's result buffer: rows `2048·a + 1024·b + 32·i …`. -/
abbrev xdstM (c : Dev nD) (i : Fin 32) : Memref sig .tc .vmem S32x512 .f32 :=
  oM.slice (Rect.unit (s := S4096x512) (k0_off1 c (cw i)) S32x512.size (k0_off1_inb c i)) (fun _ => rfl)
/-- Source (here) and destination (on the y-neighbour) of the y-copy of chunk `i`: rows `2048·(1-a) + 1024·b + 32·i …`. -/
abbrev yM (c : Dev nD) (i : Fin 32) : Memref sig .tc .vmem S32x512 .f32 :=
  oM.slice (Rect.unit (s := S4096x512) (k0_off5 c (cw i)) S32x512.size (k0_off5_inb c i)) (fun _ => rfl)
/-- Source of the local copy: all rows, this device's half of the columns. -/
abbrev lsrcM (c : Dev nD) : Memref sig .tc .vmem S2048x512 .f32 :=
  xM.slice (Rect.unit (s := S2048x1024) (k0_off4 c) S2048x512.size (k0_off4_inb c)) (fun _ => rfl)
/-- Its destination: rows `2048·a …` of the result buffer. -/
abbrev ldstM (c : Dev nD) : Memref sig .tc .vmem S2048x512 .f32 :=
  oM.slice (Rect.unit (s := S4096x512) (k0_off3 c) S2048x512.size (k0_off3_inb c)) (fun _ => rfl)

/-! ## The semaphores and their cells -/

theorem inbS (i : Fin 32) : ∀ a, (![i.val] : Fin 1 → Nat) a + S1.size a ≤ S32.size a := by
  intro a; fin_cases a; simp [S1, S32]; omega

abbrev barS : Sem sig := (SemArray.scalar (sig.barrier 0 rfl) : Sems sig S_).sem
/-- Entry `i` of a 32-entry DMA semaphore array, as the kernel slices it. -/
abbrev semAt (A : DmaSems sig S32) (i : Fin 32) : DmaSem sig :=
  ((A.slice (Rect.unit (s := S32) ![i.val] S1.size (inbS i))).squeeze S_ squeezes_S1_S_).sem
abbrev xsS (i : Fin 32) : DmaSem sig := semAt cc0_scratch0 i
abbrev xrS (i : Fin 32) : DmaSem sig := semAt cc0_scratch1 i
abbrev ysS (i : Fin 32) : DmaSem sig := semAt cc0_scratch2 i
abbrev yrS (i : Fin 32) : DmaSem sig := semAt cc0_scratch3 i
abbrev locS : DmaSem sig := cc0_scratch4.sem

theorem xsS_val (i : Fin 32) : (xsS i).val = 2 + i.val := by revert i; decide
theorem xrS_val (i : Fin 32) : (xrS i).val = 34 + i.val := by revert i; decide
theorem ysS_val (i : Fin 32) : (ysS i).val = 66 + i.val := by revert i; decide
theorem yrS_val (i : Fin 32) : (yrS i).val = 98 + i.val := by revert i; decide
theorem locS_val : (locS : DmaSem sig).val = 130 := by decide

abbrev barCell (c : Dev nD) : GSem nD τ sig := ((c : Thread nD τ), .reg barS)
abbrev xsCell (c : Dev nD) (i : Fin 32) : GSem nD τ sig := ((c : Thread nD τ), .dma (xsS i))
abbrev xrCell (c : Dev nD) (i : Fin 32) : GSem nD τ sig := ((c : Thread nD τ), .dma (xrS i))
abbrev ysCell (c : Dev nD) (i : Fin 32) : GSem nD τ sig := ((c : Thread nD τ), .dma (ysS i))
abbrev yrCell (c : Dev nD) (i : Fin 32) : GSem nD τ sig := ((c : Thread nD τ), .dma (yrS i))
abbrev locCell (c : Dev nD) : GSem nD τ sig := ((c : Thread nD τ), .dma locS)

/-- What a semaphore is for. -/
inductive Role where
  | bar | xs (i : Fin 32) | xr (i : Fin 32) | ys (i : Fin 32) | yr (i : Fin 32) | loc | other
  deriving DecidableEq

def role : SemLoc sig → Role
  | .reg s => if s = barS then .bar else .other
  | .dma q =>
    if h : 2 ≤ q.val ∧ q.val < 34 then .xs ⟨q.val - 2, by omega⟩
    else if h : 34 ≤ q.val ∧ q.val < 66 then .xr ⟨q.val - 34, by omega⟩
    else if h : 66 ≤ q.val ∧ q.val < 98 then .ys ⟨q.val - 66, by omega⟩
    else if h : 98 ≤ q.val ∧ q.val < 130 then .yr ⟨q.val - 98, by omega⟩
    else if q.val = 130 then .loc else .other

theorem role_bar : role (.reg barS : SemLoc sig) = .bar := by decide
theorem role_xs (i : Fin 32) : role (.dma (xsS i) : SemLoc sig) = .xs i := by revert i; decide
theorem role_xr (i : Fin 32) : role (.dma (xrS i) : SemLoc sig) = .xr i := by revert i; decide
theorem role_ys (i : Fin 32) : role (.dma (ysS i) : SemLoc sig) = .ys i := by revert i; decide
theorem role_yr (i : Fin 32) : role (.dma (yrS i) : SemLoc sig) = .yr i := by revert i; decide
theorem role_loc : role (.dma locS : SemLoc sig) = .loc := by decide

/-- The credit of one chunk copy and of the local copy, in the DMA semaphores' units. -/
abbrev NC : ℕ := (yM (0 : Dev nD) (0 : Fin 32)).view.dmaCredit
abbrev NL : ℕ := (ldstM (0 : Dev nD)).view.dmaCredit
theorem NC_pos : 0 < NC := View.dmaCredit_pos _ (by decide)
theorem NL_pos : 0 < NL := View.dmaCredit_pos _ (by decide)

end Cert.KernelIdeal.A2A
end
-- ==== Proof.Sched.lean ====
import proofs.«900015_g7700000000000016_dist_a2a_v7x_xy2x2_x_m2048_n512_f32_1_alg».proof.Proof.Proto
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- What device `c`'s input staging buffer holds during the body: its block of `x`. -/
def xstg (c : Dev nD) : (cc0_stg0_0 : Ref sig .tc).ty.Contents (Elt F) :=
  (win0_0.blk (0 : Fin 1)).view.read (Elt F) ((s₀ m ρ).mem ((c : Thread nD τ).loc main_arg0))

/-- Which device's block row `r` of device `c`'s result comes from: its own rows by the local copy, the
    x-neighbour's by the x-copies, and the rows the y-neighbour forwards came to IT from ITS x-neighbour. -/
def who (c : Dev nD) (r : ℕ) : Dev nD :=
  if r / 2048 = c.val / 2 then c else if (r / 1024) % 2 = c.val % 2 then xn c else xn (yn c)

/-- Where in that block: the same row within the block, this device's half of the columns. -/
def srcIx (c : Dev nD) (idx : S4096x512.Idx) : S2048x1024.Idx :=
  ValueIdx.ix2 (⟨(idx 0).val % 2048, Nat.mod_lt _ (by decide)⟩ : Fin 2048)
    (⟨512 * (c.val / 2) + (idx 1).val, by
      have h1 : (idx 1).val < 512 := (idx 1).isLt
      have h2 := c.isLt; simp only [nD] at h2; omega⟩ : Fin 1024)

/-- What device `c`'s result staging buffer holds when the body ends. -/
def outAt (c : Dev nD) : (cc0_stg1_0 : Ref sig .tc).ty.Contents (Elt F) := fun idx =>
  xstg m ρ (who c (idx 0).val) (srcIx c idx)

/-! ## Ownership of the rectangles -/

/-- Chunk `i`'s source rectangle of `c`'s input buffer, at its block of `x`. -/
def xsPts (c : Dev nD) (i : Fin 32) : sProp 𝕄 :=
  (xsrcM c i).view.loc (c : Thread nD τ) ↦[(xsrcM c i).view.set]{fullShare} xstg m ρ c
/-- The local copy's source rectangle of `c`'s input buffer. -/
def xlPts (c : Dev nD) : sProp 𝕄 :=
  (lsrcM c).view.loc (c : Thread nD τ) ↦[(lsrcM c).view.set]{fullShare} xstg m ρ c
/-- Rectangle `yM c i` of device `t`'s result buffer, at contents `f`. -/
def oPts (t c : Dev nD) (i : Fin 32) (f : Buf (Elt F) ((yM c i).view.loc (t : Thread nD τ))) : sProp 𝕄 :=
  (yM c i).view.loc (t : Thread nD τ) ↦[(yM c i).view.set]{fullShare} f
/-- The local copy's destination rectangle of `c`'s result buffer. -/
def olPts (c : Dev nD) (f : Buf (Elt F) ((ldstM c).view.loc (c : Thread nD τ))) : sProp 𝕄 :=
  (ldstM c).view.loc (c : Thread nD τ) ↦[(ldstM c).view.set]{fullShare} f

/-! ## The schedule: one round; a barrier cell two duties (`false` the x-neighbour's signal, `true` the
    y-neighbour's), every DMA cell one duty `false` -/

/-- The x-neighbour's signal hands `c` the 32 rectangles of the neighbour's buffer that `c`'s x-copies fill. -/
def barPayX (c : Dev nD) : sProp 𝕄 := bigSep Finset.univ fun i : Fin 32 => iprop(∃ f, oPts (xn c) (xn c) i f)
/-- The y-neighbour's signal hands `c` the 32 rectangles of that neighbour's buffer that `c`'s y-copies fill. -/
def barPayY (c : Dev nD) : sProp 𝕄 := bigSep Finset.univ fun i : Fin 32 => iprop(∃ f, oPts (yn c) c i f)
def xsPay (c : Dev nD) (i : Fin 32) : sProp 𝕄 := xsPts m ρ c i
def xrPay (c : Dev nD) (i : Fin 32) : sProp 𝕄 := oPts c c i (outAt m ρ c)
def ysPay (c : Dev nD) (i : Fin 32) : sProp 𝕄 := oPts c c i (outAt m ρ c)
def yrPay (c : Dev nD) (i : Fin 32) : sProp 𝕄 := oPts c (yn c) i (outAt m ρ c)
def locPay (c : Dev nD) : sProp 𝕄 := iprop(olPts c (outAt m ρ c) ∗ xlPts m ρ c)

def sched : Rounds.Schedule (GSem nD τ sig) Bool 𝕄 where
  duties g r := if r = 0 ∧ g.1.2 = .tc then (match role g.2 with | .bar => Finset.univ | .other => ∅ | _ => {false}) else ∅
  unitless _ := False
  amount g _ _ := match role g.2 with | .bar => 1 | .loc => NL | _ => NC
  payload g _ d := match role g.2 with
    | .bar => if d then barPayY g.1.1 else barPayX g.1.1
    | .xs i => xsPay m ρ g.1.1 i
    | .xr i => xrPay m ρ g.1.1 i
    | .ys i => ysPay m ρ g.1.1 i
    | .yr i => yrPay m ρ g.1.1 i
    | .loc => locPay m ρ g.1.1
    | .other => iprop(emp)
  amount_pos g _ _ _ := by
    cases role g.2 <;> first | exact Nat.one_pos | exact NL_pos | exact NC_pos

instance sched_payload_storable (g : GSem nD τ sig) (r : ℕ) (d : Bool) :
    BI.Storable (upEmb : UEmb _ 𝕄) ((sched (F := F) m ρ).payload g r d) := by
  show BI.Storable upEmb (match role g.2 with
    | .bar => if d then barPayY g.1.1 else barPayX g.1.1
    | .xs i => xsPay m ρ g.1.1 i
    | .xr i => xrPay m ρ g.1.1 i
    | .ys i => ysPay m ρ g.1.1 i
    | .yr i => yrPay m ρ g.1.1 i
    | .loc => locPay m ρ g.1.1
    | .other => iprop(emp))
  unfold barPayX barPayY xsPay xrPay ysPay yrPay locPay xsPts xlPts oPts olPts
  (repeat' split) <;> infer_instance

end Cert.KernelIdeal.A2A
end
-- ==== Proof.FinalValue.lean ====
import proofs.«900015_g7700000000000016_dist_a2a_v7x_xy2x2_x_m2048_n512_f32_1_alg».proof.Proof.Sched
import proofs.«900015_g7700000000000016_dist_a2a_v7x_xy2x2_x_m2048_n512_f32_1_alg».proof.Defs
import proofs.«900015_g7700000000000016_dist_a2a_v7x_xy2x2_x_m2048_n512_f32_1_alg».proof.Proof.Gen.ReferenceIdeal
import proofs.«900015_g7700000000000016_dist_a2a_v7x_xy2x2_x_m2048_n512_f32_1_alg».proof.Proof.Gen.Pre_finite_inputs_ReferenceIdeal
import Idealize.ShloMosaic.Lib.Layout
import Idealize.ShloMosaic.Lib.ValueIdx
import Idealize.ShloMosaic.Lib.Tactic
import Idealize.ShloMosaic.Lib.StableHlo.Run

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The value: each device ends holding its block of columns of the whole array

  The body leaves in device `c`'s result buffer, at row `r` and column `j`, the element at row `r % 2048`,
  column `512·a + j` of the argument of device `who c r` (`outAt`). Every device's argument is the block of 2048
  rows of the whole array `X` that its mesh coordinate `x` names, and `who c r` has `x = r / 2048`; so that
  element is `X (r, 512·a + j)`: block `a` of the columns of `X`, which is what the identity reference leaves. -/

/-- The input staging buffer during the body holds the device's argument array: the window is the whole
    array at offset zero, so reading through it is reading the array. -/
theorem xstg_eq (c : Dev nD) : xstg (F := F) m ρ c = m ((c : Thread nD τ).loc main_arg0) := by
  unfold xstg
  exact Memref.read_access_unit_zero (Elt F) main_arg0 (off := fun a => win0_0.index (0 : Fin 1) a * win0_0.size a)
    (funext fun a => Nat.zero_mul _) _ _

/-- Whichever of the three routes brings row `r` to device `c`, the device it started on sits at mesh
    coordinate `x = r / 2048`: its own rows have `r / 2048 = a`, and both other sources are reached through an
    x-neighbour, whose `a` is the other one. -/
theorem who_div (c : Dev nD) (r : ℕ) (hr : r < 4096) : (who c r).val / 2 = r / 2048 := by
  have hc := c.isLt
  simp only [nD] at hc
  unfold who
  split_ifs with h1 h2
  · omega
  · simp only [xn]; omega
  · simp only [xn, yn]; omega

/-- Device `c`'s result is its block of columns of the whole array `X`, when every device's argument is its
    block of rows of `X`: row `r`, column `j` of the result was read at row `r % 2048`, column `512·a + j` of the
    argument of a device whose rows start at `2048·(r / 2048)`. -/
theorem out_eq (X : (⟨2, ![4096, 1024]⟩ : Shape).Idx → Elt F .f32)
    (hag : ∀ c : Dev nD, m ((c : Thread nD τ).loc main_arg0)
      = Layout.blockN ⟨2, ![2048, 1024]⟩ ⟨2, ![4096, 1024]⟩ (Layout.meshBlock [2, 2] ![[0], []] c) X) (c : Dev nD) :
    outAt m ρ c = Layout.blockN ⟨2, ![4096, 512]⟩ ⟨2, ![4096, 1024]⟩ (Layout.meshBlock [2, 2] ![[], [0]] c) X := by
  funext idx
  have hr : (idx 0).val < 4096 := (idx 0).isLt
  have hj : (idx 1).val < 512 := (idx 1).isLt
  have hc := c.isLt
  simp only [nD] at hc
  have hw := who_div c (idx 0).val hr
  show xstg m ρ (who c (idx 0).val) (srcIx c idx) = _
  rw [xstg_eq, hag, Layout.blockN_apply, Layout.blockN_apply]
  congr 1
  funext b
  apply Fin.ext
  rw [Layout.TilesN.idx_val, Layout.TilesN.idx_val]
  match b with
  | ⟨0, _⟩ =>
    show ((who c (idx 0).val).val / 2 % 2 * 1 + 0) * 2048 + (idx 0).val % 2048 = 0 * 4096 + (idx 0).val
    omega
  | ⟨1, _⟩ =>
    show 0 * 1024 + (512 * (c.val / 2) + (idx 1).val) = (c.val / 2 % 2 * 1 + 0) * 512 + (idx 1).val
    omega

/-! ## The value claim's two hypotheses put together, at the ideal instance -/

/-- With the reference's memory `m'`: device `c`'s final result is its block of columns of the reference's
    array, given that each device's argument is its block of rows of it (the value claim's hypothesis as stated). -/
theorem out_eq_ref (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hag : ∀ c : Dev nD, m ((c.tc : Thread nD τ).loc main_arg0)
      = Layout.blockN ⟨2, ![2048, 1024]⟩ ⟨2, ![4096, 1024]⟩ (Layout.meshBlock [2, 2] ![[0], []] c)
          (m' (((0 : Dev Cert.ReferenceIdeal.nD).tc : Thread Cert.ReferenceIdeal.nD Cert.ReferenceIdeal.τ).loc Cert.ReferenceIdeal.main_arg0)))
    (c : Dev nD) :
    outAt (F := Ideal) m ρ c
      = Layout.blockN ⟨2, ![4096, 512]⟩ ⟨2, ![4096, 1024]⟩ (Layout.meshBlock [2, 2] ![[], [0]] c)
          (m' (((0 : Dev Cert.ReferenceIdeal.nD).tc : Thread Cert.ReferenceIdeal.nD Cert.ReferenceIdeal.τ).loc Cert.ReferenceIdeal.main_arg0)) :=
  out_eq m ρ _ hag c

/-! ## The reference: the identity, a program of no operation -/

section Reference
variable [Cert.ReferenceIdeal.Facts]

theorem ref_scopedRefs : (Finset.univ.filter fun b : Ref Cert.ReferenceIdeal.sig .tc => b.isScoped) = ∅ := by decide
theorem ref_scopedSems : (Finset.univ.filter fun sm : SemLoc Cert.ReferenceIdeal.sig => sm.isScoped .tc) = ∅ := by decide

/-- The reference runs and leaves every buffer as launched: its @main is the empty list of operations. -/
theorem ref_run_all (m' : (ℓ : Loc Cert.ReferenceIdeal.nD Cert.ReferenceIdeal.τ Cert.ReferenceIdeal.sig) → Buf (Elt F) ℓ)
    (g' : Dev Cert.ReferenceIdeal.nD → PrngReg) :
    θ_run (Cert.ReferenceIdeal.defs (F := F)) (onTc (τ := Cert.ReferenceIdeal.τ) (Cert.ReferenceIdeal.main (F := F))) ⟨m', fun _ => 0, g'⟩
      (fun r => ∀ (c : Dev Cert.ReferenceIdeal.nD) (b : Ref Cert.ReferenceIdeal.sig .tc),
        r.2.mem ((c.tc : Thread Cert.ReferenceIdeal.nD Cert.ReferenceIdeal.τ).loc b) = m' ((c.tc : Thread Cert.ReferenceIdeal.nD Cert.ReferenceIdeal.τ).loc b)) :=
  StableHlo.run_seq ref_scopedRefs ref_scopedSems Cert.ReferenceIdeal.defs Cert.ReferenceIdeal.main (fun _ => [])
    (fun _ => rfl) (fun _ => trivial) m' g' (fun _ _ h => nomatch h)

/-- At one location. -/
theorem ref_run (m' : (ℓ : Loc Cert.ReferenceIdeal.nD Cert.ReferenceIdeal.τ Cert.ReferenceIdeal.sig) → Buf (Elt F) ℓ)
    (g' : Dev Cert.ReferenceIdeal.nD → PrngReg) (c : Dev Cert.ReferenceIdeal.nD) (b : Ref Cert.ReferenceIdeal.sig .tc) :
    θ_run (Cert.ReferenceIdeal.defs (F := F)) (onTc (τ := Cert.ReferenceIdeal.τ) (Cert.ReferenceIdeal.main (F := F))) ⟨m', fun _ => 0, g'⟩
      (fun r => r.2.mem ((c.tc : Thread Cert.ReferenceIdeal.nD Cert.ReferenceIdeal.τ).loc b) = m' ((c.tc : Thread Cert.ReferenceIdeal.nD Cert.ReferenceIdeal.τ).loc b)) :=
  (θ_run _ _ _).mono (fun _ h => h c b) (ref_run_all m' g')

/-- The reference's conjunct of the value claim, its result being the argument array as launched. -/
theorem ref_run_alg (m' : (ℓ : Loc Cert.ReferenceIdeal.nD Cert.ReferenceIdeal.τ Cert.ReferenceIdeal.sig) → Buf (Elt F) ℓ)
    (g' : Dev Cert.ReferenceIdeal.nD → PrngReg) :
    θ_run (Cert.ReferenceIdeal.defs (F := F)) (onTc (τ := Cert.ReferenceIdeal.τ) (Cert.ReferenceIdeal.main (F := F))) ⟨m', fun _ => 0, g'⟩
      (fun r =>
        r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run _ _ _).mono (fun _ h => ⟨h 0 _, h 0 _⟩) (ref_run_all m' g')

/-- The reference's frame claim. -/
theorem frame_ReferenceIdeal [Cert.Pre_finite_inputs_ReferenceIdeal.Facts] : Cert.frame_ReferenceIdeal :=
  fun m' g' _ => (θ_run _ _ _).mono (fun _ h c => h c _) (ref_run_all (F := Ideal) m' g')

end Reference

end Cert.KernelIdeal.A2A
end
-- ==== Proof.Assemble.lean ====
import proofs.«900015_g7700000000000016_dist_a2a_v7x_xy2x2_x_m2048_n512_f32_1_alg».proof.Proof.FinalValue
import proofs.«900015_g7700000000000016_dist_a2a_v7x_xy2x2_x_m2048_n512_f32_1_alg».proof.Defs
import proofs.«900015_g7700000000000016_dist_a2a_v7x_xy2x2_x_m2048_n512_f32_1_alg».proof.Proof.Gen.KernelIdeal
import proofs.«900015_g7700000000000016_dist_a2a_v7x_xy2x2_x_m2048_n512_f32_1_alg».proof.Proof.Gen.ReferenceIdeal
import proofs.«900015_g7700000000000016_dist_a2a_v7x_xy2x2_x_m2048_n512_f32_1_alg».proof.Proof.Gen.Pre_finite_inputs_Kernel
import Idealize.ShloMosaic.Lib.Tactic

noncomputable section

namespace Cert.KernelIdeal.A2A

open Cert.KernelIdeal Cert.KernelIdeal.Gen
open Idealize.ShloMosaic
open Idealize.ShloMosaic.TcCoe
open Idealize.SL.Sem

/-! # The claims about the idealized kernel, from its run

  The run, taken here as a hypothesis: from any memory with every semaphore at zero, every fair execution of all four
  devices terminates, nothing faulting, with each device's result array at `outAt` and its argument array unchanged.
  The frame claim keeps the second half. The value claim rewrites the first half by `out_eq_ref` (the result is the
  device's block of columns of the reference's array) and pairs it with the reference's own run, the reference's
  result being its argument array as launched. -/

/-- The frame claim of the idealized kernel: the run's post, the value half dropped. -/
theorem frame_KernelIdeal_of
    (hrun : ∀ (m : (ℓ : Loc nD τ sig) → Buf (Elt Ideal) ℓ) (ρ : Dev nD → PrngReg),
      θ_run (defs (F := Ideal)) (onTc (τ := τ) (main (F := Ideal))) ⟨m, fun _ => 0, ρ⟩ (fun r => ∀ c : Dev nD,
        r.2.mem ((c.tc : Thread nD τ).loc main_v1) = outAt (F := Ideal) m ρ c
        ∧ r.2.mem ((c.tc : Thread nD τ).loc main_arg0) = m ((c.tc : Thread nD τ).loc main_arg0))) :
    Cert.frame_KernelIdeal :=
  fun m g _ => (θ_run _ _ _).mono (fun _ h c => (h c).2) (hrun m g)

/-- The value claim: with `v0` the reference's argument array as launched, each device's result is its block of
    columns of `v0`, and the reference ends with its array at `v0`, unchanged. -/
theorem algebraic_of
    (hrun : ∀ (m : (ℓ : Loc nD τ sig) → Buf (Elt Ideal) ℓ) (ρ : Dev nD → PrngReg),
      θ_run (defs (F := Ideal)) (onTc (τ := τ) (main (F := Ideal))) ⟨m, fun _ => 0, ρ⟩ (fun r => ∀ c : Dev nD,
        r.2.mem ((c.tc : Thread nD τ).loc main_v1) = outAt (F := Ideal) m ρ c
        ∧ r.2.mem ((c.tc : Thread nD τ).loc main_arg0) = m ((c.tc : Thread nD τ).loc main_arg0))) :
    Cert.algebraic_KernelIdeal_ReferenceIdeal :=
  fun m g m' g' _ hag =>
    ⟨m' (((0 : Dev Cert.ReferenceIdeal.nD).tc : Thread Cert.ReferenceIdeal.nD Cert.ReferenceIdeal.τ).loc Cert.ReferenceIdeal.main_arg0),
      (θ_run _ _ _).mono (fun _ h c => ⟨(h c).1.trans (out_eq_ref m g m' hag c), (h c).2⟩) (hrun m g),
      ref_run_alg (F := Ideal) m' g'⟩

end Cert.KernelIdeal.A2A
end
-- ==== Proof.AssembleBits.lean ====
import proofs.«900015_g7700000000000016_dist_a2a_v7x_xy2x2_x_m2048_n512_f32_1_alg».proof.Proof.Bits.Sched
import proofs.«900015_g7700000000000016_dist_a2a_v7x_xy2x2_x_m2048_n512_f32_1_alg».proof.Defs
import proofs.«900015_g7700000000000016_dist_a2a_v7x_xy2x2_x_m2048_n512_f32_1_alg».proof.Proof.Gen.Kernel
import proofs.«900015_g7700000000000016_dist_a2a_v7x_xy2x2_x_m2048_n512_f32_1_alg».proof.Proof.Gen.Pre_finite_inputs_Kernel
import Idealize.ShloMosaic.Lib.Tactic

noncomputable section

namespace Cert.Kernel.A2A

open Cert.Kernel Cert.Kernel.Gen
open Idealize.ShloMosaic
open Idealize.ShloMosaic.TcCoe
open Idealize.SL.Sem

/-! # The frame claim of the kernel as printed, from its run

  The same run as the idealized kernel's, read at the word-level instance: each device's result array ends at `outAt`
  and its argument array unchanged. The frame claim keeps the second half. -/

theorem frame_Kernel_of
    (hrunB : ∀ (m : (ℓ : Loc nD τ sig) → Buf (Elt Bits) ℓ) (ρ : Dev nD → PrngReg),
      θ_run (defs (F := Bits)) (onTc (τ := τ) (main (F := Bits))) ⟨m, fun _ => 0, ρ⟩ (fun r => ∀ c : Dev nD,
        r.2.mem ((c.tc : Thread nD τ).loc main_v1) = outAt (F := Bits) m ρ c
        ∧ r.2.mem ((c.tc : Thread nD τ).loc main_arg0) = m ((c.tc : Thread nD τ).loc main_arg0))) :
    Cert.frame_Kernel :=
  fun m g _ => (θ_run _ _ _).mono (fun _ h c => (h c).2) (hrunB m g)

end Cert.Kernel.A2A
end
-- ==== Proof.Owed.lean ====
import proofs.«900015_g7700000000000016_dist_a2a_v7x_xy2x2_x_m2048_n512_f32_1_alg».proof.Proof.Sched
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch, and the levels of the cells -/

/-- What `c` still owes the x-neighbour's receive cells before its x-copy `n`: the credit of the copies `n, n+1, …`. -/
def oX (c : Dev nD) (n : ℕ) : CellTallies nD τ sig Unit :=
  ∑ i ∈ Finset.univ.filter (fun i : Fin 32 => n ≤ i.val), tallyAt (xrCell (xn c) i) () NC
/-- What `c` still owes the y-neighbour's receive cells before its y-copy `n`. -/
def oY (c : Dev nD) (n : ℕ) : CellTallies nD τ sig Unit :=
  ∑ i ∈ Finset.univ.filter (fun i : Fin 32 => n ≤ i.val), tallyAt (yrCell (yn c) i) () NC

/-- After the first signal (to the x-neighbour): the copies' credit and the y-neighbour's barrier unit. -/
def O₁ (c : Dev nD) : CellTallies nD τ sig Unit := oY c 0 + oX c 0 + tallyAt (barCell (yn c)) () 1
/-- At launch. -/
def O₀ (c : Dev nD) : CellTallies nD τ sig Unit := O₁ c + tallyAt (barCell (xn c)) () 1

def L (g : GSem nD τ sig) : Finset Unit := if g.1.2 = .tc then {()} else ∅
/-- Barrier cells at 1, x-receive cells at 2, y-receive cells at 3, everything else (staging, send, local) at 0:
    a device waits on its barrier owing both kinds of receive credit, and on an x-receive cell owing y-receive credit. -/
def lv (g : GSem nD τ sig) (_ : Unit) : ℕ := match role g.2 with | .bar => 1 | .xr _ => 2 | .yr _ => 3 | _ => 0

end Cert.KernelIdeal.A2A
end
-- ==== Proof.State.lean ====
import proofs.«900015_g7700000000000016_dist_a2a_v7x_xy2x2_x_m2048_n512_f32_1_alg».proof.Proof.Owed
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The protocol's cells, numbered per device: 0 the barrier; 1+i, 33+i, 65+i, 97+i the four 32-entry DMA arrays; 129 the local copy's -/

def ksem (k : Fin 130) : SemLoc sig :=
  if k.val = 0 then .reg barS else .dma (⟨k.val + 1, by have := k.isLt; show k.val + 1 < 131; omega⟩ : DmaSem sig)
abbrev kcell (ck : Dev nD × Fin 130) : GSem nD τ sig := ((ck.1 : Thread nD τ), ksem ck.2)

def kbar : Fin 130 := ⟨0, by decide⟩
def kxs (i : Fin 32) : Fin 130 := ⟨1 + i.val, by have := i.isLt; omega⟩
def kxr (i : Fin 32) : Fin 130 := ⟨33 + i.val, by have := i.isLt; omega⟩
def kys (i : Fin 32) : Fin 130 := ⟨65 + i.val, by have := i.isLt; omega⟩
def kyr (i : Fin 32) : Fin 130 := ⟨97 + i.val, by have := i.isLt; omega⟩
def kloc : Fin 130 := ⟨129, by decide⟩

theorem ksem_bar : ksem kbar = .reg barS := by decide
theorem ksem_xs (i : Fin 32) : ksem (kxs i) = .dma (xsS i) := by revert i; decide
theorem ksem_xr (i : Fin 32) : ksem (kxr i) = .dma (xrS i) := by revert i; decide
theorem ksem_ys (i : Fin 32) : ksem (kys i) = .dma (ysS i) := by revert i; decide
theorem ksem_yr (i : Fin 32) : ksem (kyr i) = .dma (yrS i) := by revert i; decide
theorem ksem_loc : ksem kloc = .dma locS := by decide

theorem kcell_bar (c : Dev nD) : kcell (c, kbar) = barCell c := by unfold kcell; rw [ksem_bar]
theorem kcell_xs (c : Dev nD) (i : Fin 32) : kcell (c, kxs i) = xsCell c i := by unfold kcell; rw [ksem_xs]
theorem kcell_xr (c : Dev nD) (i : Fin 32) : kcell (c, kxr i) = xrCell c i := by unfold kcell; rw [ksem_xr]
theorem kcell_ys (c : Dev nD) (i : Fin 32) : kcell (c, kys i) = ysCell c i := by unfold kcell; rw [ksem_ys]
theorem kcell_yr (c : Dev nD) (i : Fin 32) : kcell (c, kyr i) = yrCell c i := by unfold kcell; rw [ksem_yr]
theorem kcell_loc (c : Dev nD) : kcell (c, kloc) = locCell c := by unfold kcell; rw [ksem_loc]

/-! ## The ghost state a device's body starts from -/

/-- Every cell's invariant, at the names `K` the launch allocated them at, and that every cell has reached round 0. -/
def records (K : Dev nD × Fin 130 → ℕ) : sProp 𝕄 :=
  iprop((bigSep Finset.univ fun ck : Dev nD × Fin 130 => cellInv ER (sched m ρ) (K ck) (kcell ck))
    ∗ bigSep Finset.univ fun ck : Dev nD × Fin 130 => reached ER (kcell ck) 0)

instance records_persistent (K : Dev nD × Fin 130 → ℕ) : BI.Persistent (records m ρ K) := by unfold records; infer_instance

/-- The device's positions at round 0 of its own 130 cells. -/
def positions (c : Dev nD) : sProp 𝕄 :=
  iprop(atPos ER (barCell c) 0 ∅ 0
    ∗ (bigSep Finset.univ fun i : Fin 32 => atPos ER (xsCell c i) 0 ∅ 0)
    ∗ (bigSep Finset.univ fun i : Fin 32 => atPos ER (xrCell c i) 0 ∅ 0)
    ∗ (bigSep Finset.univ fun i : Fin 32 => atPos ER (ysCell c i) 0 ∅ 0)
    ∗ (bigSep Finset.univ fun i : Fin 32 => atPos ER (yrCell c i) 0 ∅ 0)
    ∗ atPos ER (locCell c) 0 ∅ 0)

/-- The tokens of the duties the device pays: the x-neighbour's barrier duty `false`, the y-neighbour's barrier duty
    `true`, its own send cells' and the neighbours' receive cells' duties, its local copy's. -/
def payToks (c : Dev nD) : sProp 𝕄 :=
  iprop(dutyTok ER (barCell (xn c)) 0 false ∗ dutyTok ER (barCell (yn c)) 0 true
    ∗ (bigSep Finset.univ fun i : Fin 32 => dutyTok ER (xsCell c i) 0 false)
    ∗ (bigSep Finset.univ fun i : Fin 32 => dutyTok ER (xrCell (xn c) i) 0 false)
    ∗ (bigSep Finset.univ fun i : Fin 32 => dutyTok ER (ysCell c i) 0 false)
    ∗ (bigSep Finset.univ fun i : Fin 32 => dutyTok ER (yrCell (yn c) i) 0 false)
    ∗ dutyTok ER (locCell c) 0 false)

def ghost (K : Dev nD × Fin 130 → ℕ) (c : Dev nD) : sProp 𝕄 := iprop(records m ρ K ∗ positions c ∗ payToks c)

/-- The credit tokens the device is dealt at launch: its barrier's two units and its 64 receive cells' credit. -/
def credsOf (c : Dev nD) : sProp 𝕄 :=
  iprop(cred (tallyAt (barCell c) () 2)
    ∗ (bigSep Finset.univ fun i : Fin 32 => cred (tallyAt (xrCell c i) () NC))
    ∗ (bigSep Finset.univ fun i : Fin 32 => cred (tallyAt (yrCell c i) () NC)))

/-- What device `c`'s body starts from. -/
def start (c : Dev nD) : sProp 𝕄 := iprop((∃ K, ghost m ρ K c) ∗ credsOf c ∗ levAts L lv)

/-- After the body: the device's 129 own DMA cells at zero, closed. -/
def closedSems (c : Dev nD) : sProp 𝕄 :=
  iprop((bigSep Finset.univ fun i : Fin 32 => semVal (xsCell c i) 0)
    ∗ (bigSep Finset.univ fun i : Fin 32 => semVal (xrCell c i) 0)
    ∗ (bigSep Finset.univ fun i : Fin 32 => semVal (ysCell c i) 0)
    ∗ (bigSep Finset.univ fun i : Fin 32 => semVal (yrCell c i) 0)
    ∗ semVal (locCell c) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => start m ρ c
    | ⟨_ + 1, _⟩ => closedSems c
  q _ := fullShare
  owed t := match t with
    | ⟨0, _⟩ => O₀ c
    | ⟨_ + 1, _⟩ => 0

abbrev 𝒱₀ : Variants := Variants.none

/-- A whole buffer at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition, the names of the invariants fixed. -/
def bodyPre (K : Dev nD × Fin 130 → ℕ) (c : Dev nD) : sProp 𝕄 :=
  iprop((ghost m ρ K c ∗ credsOf c ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(closedSems c ∗ (dats m ρ 0 c).owesAt () t₀.succ ∗ stg c cc0_stg0_0 (xstg m ρ c) ∗ stg c cc0_stg1_0 (outAt m ρ c))

end Cert.KernelIdeal.A2A
end
-- ==== Proof.Levels.lean ====
import proofs.«900015_g7700000000000016_dist_a2a_v7x_xy2x2_x_m2048_n512_f32_1_alg».proof.Proof.Owed
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # Telling the cells apart, the levels, where a device may wait, and the launch credit

Device `c` signals its two neighbours' barrier cells and feeds the x-neighbour's 32 x-receive cells and the y-neighbour's 32
y-receive cells. It waits on its barrier cell (level 1) owing receive credit only, on an x-receive cell (level 2) owing
y-receive credit only (level 3), and on everything else owing nothing or, for the staging cells (level 0), anything. -/

/-! ## Telling cells apart -/

theorem ne_of_role {g g' : GSem nD τ sig} (h : role g.2 ≠ role g'.2) : g ≠ g' := fun e => h (e ▸ rfl)

theorem bar_eq_iff {a b : Dev nD} : Iff (barCell a = barCell b) (a = b) :=
  ⟨fun h => Fin.ext (congrArg (fun g : GSem nD τ sig => g.1.1.val) h), fun h => h ▸ rfl⟩

theorem xr_eq_iff {a b : Dev nD} {i j : Fin 32} : Iff (xrCell a i = xrCell b j) (a = b ∧ i = j) :=
  ⟨fun h => ⟨Fin.ext (congrArg (fun g : GSem nD τ sig => g.1.1.val) h), by
      have h2 : role (.dma (xrS i) : SemLoc sig) = role (.dma (xrS j)) := congrArg (fun g : GSem nD τ sig => role g.2) h
      rw [role_xr, role_xr] at h2; exact Role.xr.inj h2⟩,
    fun h => by rw [h.1, h.2]⟩

theorem yr_eq_iff {a b : Dev nD} {i j : Fin 32} : Iff (yrCell a i = yrCell b j) (a = b ∧ i = j) :=
  ⟨fun h => ⟨Fin.ext (congrArg (fun g : GSem nD τ sig => g.1.1.val) h), by
      have h2 : role (.dma (yrS i) : SemLoc sig) = role (.dma (yrS j)) := congrArg (fun g : GSem nD τ sig => role g.2) h
      rw [role_yr, role_yr] at h2; exact Role.yr.inj h2⟩,
    fun h => by rw [h.1, h.2]⟩

theorem xr_ne_bar (a b : Dev nD) (i : Fin 32) : xrCell a i ≠ barCell b :=
  ne_of_role (by show role (.dma (xrS i) : SemLoc sig) ≠ role (.reg barS); rw [role_xr, role_bar]; exact fun h => Role.noConfusion h)
theorem yr_ne_bar (a b : Dev nD) (i : Fin 32) : yrCell a i ≠ barCell b :=
  ne_of_role (by show role (.dma (yrS i) : SemLoc sig) ≠ role (.reg barS); rw [role_yr, role_bar]; exact fun h => Role.noConfusion h)
theorem xr_ne_yr (a b : Dev nD) (i j : Fin 32) : xrCell a i ≠ yrCell b j :=
  ne_of_role (by show role (.dma (xrS i) : SemLoc sig) ≠ role (.dma (yrS j)); rw [role_xr, role_yr]; exact fun h => Role.noConfusion h)

theorem xn_eq_iff {c d : Dev nD} : Iff (xn d = c) (d = xn c) := ⟨fun h => by rw [← h, xn_xn], fun h => by rw [h, xn_xn]⟩
theorem yn_eq_iff {c d : Dev nD} : Iff (yn d = c) (d = yn c) := ⟨fun h => by rw [← h, yn_yn], fun h => by rw [h, yn_yn]⟩

/-! ## The levels of the cells -/

theorem L_of_ne (g : GSem nD τ sig) (h : g.1.2 ≠ .tc) : L g = ∅ := if_neg h
theorem L_tc (c : Dev nD) (sm : SemLoc sig) : L ((c : Thread nD τ), sm) = {()} := if_pos rfl

theorem role_low (q : DmaSem sig) (hq : q.val < 2) : role (.dma q : SemLoc sig) = .other := by
  unfold role
  dsimp only
  rw [dif_neg (by omega), dif_neg (by omega), dif_neg (by omega), dif_neg (by omega), if_neg (by omega)]

theorem lv_bar (c : Dev nD) : lv (barCell c) () = 1 := by
  unfold lv; rw [show role (barCell c).2 = .bar from role_bar]
theorem lv_xr (c : Dev nD) (i : Fin 32) : lv (xrCell c i) () = 2 := by
  unfold lv; rw [show role (xrCell c i).2 = .xr i from role_xr i]
theorem lv_yr (c : Dev nD) (i : Fin 32) : lv (yrCell c i) () = 3 := by
  unfold lv; rw [show role (yrCell c i).2 = .yr i from role_yr i]
theorem lv_low (c : Dev nD) (q : DmaSem sig) (hq : q.val < 2) : lv ((c : Thread nD τ), .dma q) () = 0 := by
  unfold lv; rw [show role (((c : Thread nD τ), SemLoc.dma q) : GSem nD τ sig).2 = .other from role_low q hq]

/-! ## The tallies, read at a cell -/

theorem tallyAt_pos {g g' : GSem nD τ sig} {u u' : Unit} {k : ℕ} (h : 0 < (tallyAt g u k : CellTallies nD τ sig Unit) g' u') : g' = g := by
  by_contra hne
  rw [tallyAt_ne_cell hne] at h
  exact Nat.lt_irrefl 0 h

theorem oX_apply (c : Dev nD) (n : ℕ) (g : GSem nD τ sig) (u : Unit) :
    oX c n g u = ∑ i ∈ Finset.univ.filter (fun i : Fin 32 => n ≤ i.val), (tallyAt (xrCell (xn c) i) () NC : CellTallies nD τ sig Unit) g u := by
  unfold oX; rw [Finset.sum_apply, Finsupp.finsetSum_apply]
theorem oY_apply (c : Dev nD) (n : ℕ) (g : GSem nD τ sig) (u : Unit) :
    oY c n g u = ∑ i ∈ Finset.univ.filter (fun i : Fin 32 => n ≤ i.val), (tallyAt (yrCell (yn c) i) () NC : CellTallies nD τ sig Unit) g u := by
  unfold oY; rw [Finset.sum_apply, Finsupp.finsetSum_apply]

theorem oX_eq_zero {c : Dev nD} {n : ℕ} {g : GSem nD τ sig} (u : Unit) (h : ∀ i : Fin 32, n ≤ i.val → g ≠ xrCell (xn c) i) : oX c n g u = 0 := by
  rw [oX_apply]
  exact Finset.sum_eq_zero fun i hi => by rw [tallyAt_ne_cell (h i (Finset.mem_filter.mp hi).2)]; rfl
theorem oY_eq_zero {c : Dev nD} {n : ℕ} {g : GSem nD τ sig} (u : Unit) (h : ∀ i : Fin 32, n ≤ i.val → g ≠ yrCell (yn c) i) : oY c n g u = 0 := by
  rw [oY_apply]
  exact Finset.sum_eq_zero fun i hi => by rw [tallyAt_ne_cell (h i (Finset.mem_filter.mp hi).2)]; rfl

theorem oX_pos {c : Dev nD} {n : ℕ} {g : GSem nD τ sig} {u : Unit} (h : 0 < oX c n g u) : ∃ i : Fin 32, n ≤ i.val ∧ g = xrCell (xn c) i := by
  by_contra hn
  rw [oX_eq_zero u fun i hi e => hn ⟨i, hi, e⟩] at h
  exact Nat.lt_irrefl 0 h
theorem oY_pos {c : Dev nD} {n : ℕ} {g : GSem nD τ sig} {u : Unit} (h : 0 < oY c n g u) : ∃ i : Fin 32, n ≤ i.val ∧ g = yrCell (yn c) i := by
  by_contra hn
  rw [oY_eq_zero u fun i hi e => hn ⟨i, hi, e⟩] at h
  exact Nat.lt_irrefl 0 h

/-! ## Peeling one copy's credit off what is still owed -/

theorem filter_succ (i : Fin 32) :
    Finset.univ.filter (fun j : Fin 32 => i.val ≤ j.val) = insert i (Finset.univ.filter (fun j : Fin 32 => i.val + 1 ≤ j.val)) := by
  ext j
  rw [Finset.mem_filter, Finset.mem_insert, Finset.mem_filter]
  constructor
  · intro ⟨_, h⟩
    by_cases e : j = i
    · exact Or.inl e
    · exact Or.inr ⟨Finset.mem_univ _, by have : j.val ≠ i.val := fun h' => e (Fin.ext h'); omega⟩
  · rintro (e | ⟨_, h⟩)
    · exact ⟨Finset.mem_univ _, by rw [e]⟩
    · exact ⟨Finset.mem_univ _, by omega⟩

theorem oX_succ (c : Dev nD) (i : Fin 32) : oX c i.val = oX c (i.val + 1) + tallyAt (xrCell (xn c) i) () NC := by
  unfold oX
  rw [filter_succ, Finset.sum_insert (fun h => by have := (Finset.mem_filter.mp h).2; omega), add_comm]
theorem oY_succ (c : Dev nD) (i : Fin 32) : oY c i.val = oY c (i.val + 1) + tallyAt (yrCell (yn c) i) () NC := by
  unfold oY
  rw [filter_succ, Finset.sum_insert (fun h => by have := (Finset.mem_filter.mp h).2; omega), add_comm]

theorem oX_32 (c : Dev nD) : oX c 32 = 0 := by
  unfold oX
  exact Finset.sum_eq_zero fun j hj => absurd (Finset.mem_filter.mp hj).2 (by have := j.isLt; omega)
theorem oY_32 (c : Dev nD) : oY c 32 = 0 := by
  unfold oY
  exact Finset.sum_eq_zero fun j hj => absurd (Finset.mem_filter.mp hj).2 (by have := j.isLt; omega)

/-! ## Where a device may wait -/

theorem O₀_pos {c : Dev nD} {g : GSem nD τ sig} {u : Unit} (h : 0 < O₀ c g u) :
    (∃ i : Fin 32, g = yrCell (yn c) i) ∨ (∃ i : Fin 32, g = xrCell (xn c) i) ∨ g = barCell (yn c) ∨ g = barCell (xn c) := by
  have h' : 0 < oY c 0 g u + oX c 0 g u + (tallyAt (barCell (yn c)) () 1 : CellTallies nD τ sig Unit) g u
      + (tallyAt (barCell (xn c)) () 1 : CellTallies nD τ sig Unit) g u := h
  by_cases h1 : 0 < oY c 0 g u
  · obtain ⟨i, _, e⟩ := oY_pos h1; exact Or.inl ⟨i, e⟩
  by_cases h2 : 0 < oX c 0 g u
  · obtain ⟨i, _, e⟩ := oX_pos h2; exact Or.inr (Or.inl ⟨i, e⟩)
  by_cases h3 : 0 < (tallyAt (barCell (yn c)) () 1 : CellTallies nD τ sig Unit) g u
  · exact Or.inr (Or.inr (Or.inl (tallyAt_pos h3)))
  · have h4 : 0 < (tallyAt (barCell (xn c)) () 1 : CellTallies nD τ sig Unit) g u := by omega
    exact Or.inr (Or.inr (Or.inr (tallyAt_pos h4)))

theorem add_pos_cases {T T' : CellTallies nD τ sig Unit} {g : GSem nD τ sig} {u : Unit} (h : 0 < (T + T') g u) : 0 < T g u ∨ 0 < T' g u := by
  have h' : 0 < T g u + T' g u := h
  omega

omit [FloatOps F] in
/-- A wait on a cell of level 0 (a staging cell) is below everything a device owes at launch. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨i, rfl⟩ | ⟨i, rfl⟩ | rfl | rfl <;> exact Finset.mem_singleton_self _)
      (fun p hp => by rw [Finset.mem_singleton.mp hp, lv_low c q hq])
      (fun g u hg => by
        rcases O₀_pos hg with ⟨i, rfl⟩ | ⟨i, rfl⟩ | rfl | rfl
        · rw [lv_yr]; decide
        · rw [lv_xr]; decide
        · rw [lv_bar]; decide
        · rw [lv_bar]; decide)
  · rw [MayWait_zero]; iintro -; iempintro

omit [FloatOps F] in
/-- At its barrier wait a device owes receive credit only: x-receive and y-receive cells, both above its barrier cell. -/
theorem mayWait_bar (c : Dev nD) :
    (levAts L lv : sProp 𝕄) ⊢ MayWait (c : Thread nD τ) (.reg barS) () (oY c 0 + oX c 0) :=
  MayOwe.of_cut (L := L) (lev := lv) 1 (fun p hp => by rw [Finset.mem_singleton.mp hp, L_tc]; exact Finset.mem_singleton_self _)
    (fun g u hg => by
      rcases add_pos_cases hg with h | h
      · obtain ⟨i, _, rfl⟩ := oY_pos h; exact Finset.mem_singleton_self _
      · obtain ⟨i, _, rfl⟩ := oX_pos h; exact Finset.mem_singleton_self _)
    (fun p hp => by rw [Finset.mem_singleton.mp hp]; exact le_of_eq (lv_bar c))
    (fun g u hg => by
      rcases add_pos_cases hg with h | h
      · obtain ⟨i, _, rfl⟩ := oY_pos h; rw [lv_yr]; decide
      · obtain ⟨i, _, rfl⟩ := oX_pos h; rw [lv_xr]; decide)

omit [FloatOps F] in
/-- At its wait for the x-neighbour's chunk a device owes y-receive credit only, above every x-receive cell. -/
theorem mayWait_xr (c : Dev nD) (i : Fin 32) :
    (levAts L lv : sProp 𝕄) ⊢ MayWait (c : Thread nD τ) (.dma (xrS i)) () (oY c i.val) :=
  MayOwe.of_cut (L := L) (lev := lv) 2 (fun p hp => by rw [Finset.mem_singleton.mp hp, L_tc]; exact Finset.mem_singleton_self _)
    (fun g u hg => by obtain ⟨j, _, rfl⟩ := oY_pos hg; exact Finset.mem_singleton_self _)
    (fun p hp => by rw [Finset.mem_singleton.mp hp]; exact le_of_eq (lv_xr c i))
    (fun g u hg => by obtain ⟨j, _, rfl⟩ := oY_pos hg; rw [lv_yr]; decide)

/-! ## The launch credit -/

theorem oX_at_xr (d c : Dev nD) (i : Fin 32) : oX d 0 (xrCell c i) () = if d = xn c then NC else 0 := by
  by_cases hd : d = xn c
  · subst hd
    rw [if_pos rfl, oX_apply, xn_xn,
      Finset.sum_eq_single i
        (fun j _ hj => by rw [tallyAt_ne_cell (fun e => hj (xr_eq_iff.mp e).2.symm)]; rfl)
        (fun h => absurd (Finset.mem_filter.mpr ⟨Finset.mem_univ i, Nat.zero_le i.val⟩) h),
      tallyAt_self]
  · rw [if_neg hd]
    exact oX_eq_zero () fun j _ e => hd (xn_eq_iff.mp (xr_eq_iff.mp e).1.symm)

theorem oY_at_yr (d c : Dev nD) (i : Fin 32) : oY d 0 (yrCell c i) () = if d = yn c then NC else 0 := by
  by_cases hd : d = yn c
  · subst hd
    rw [if_pos rfl, oY_apply, yn_yn,
      Finset.sum_eq_single i
        (fun j _ hj => by rw [tallyAt_ne_cell (fun e => hj (yr_eq_iff.mp e).2.symm)]; rfl)
        (fun h => absurd (Finset.mem_filter.mpr ⟨Finset.mem_univ i, Nat.zero_le i.val⟩) h),
      tallyAt_self]
  · rw [if_neg hd]
    exact oY_eq_zero () fun j _ e => hd (yn_eq_iff.mp (yr_eq_iff.mp e).1.symm)

theorem O₀_apply (d : Dev nD) (g : GSem nD τ sig) (u : Unit) :
    O₀ d g u = oY d 0 g u + oX d 0 g u + (tallyAt (barCell (yn d)) () 1 : CellTallies nD τ sig Unit) g u
      + (tallyAt (barCell (xn d)) () 1 : CellTallies nD τ sig Unit) g u := rfl

/-- What device `d` owes device `c`'s barrier cell: a unit if it is `c`'s y-neighbour, a unit if it is `c`'s x-neighbour. -/
theorem owed_bar (d c : Dev nD) : O₀ d (barCell c) () = (if d = yn c then 1 else 0) + (if d = xn c then 1 else 0) := by
  rw [O₀_apply, oY_eq_zero () (fun i _ => (yr_ne_bar _ _ i).symm), oX_eq_zero () (fun i _ => (xr_ne_bar _ _ i).symm),
    tallyAt_apply, tallyAt_apply]
  simp only [Nat.zero_add]
  congr 1
  · exact if_congr ⟨fun h => yn_eq_iff.mp (bar_eq_iff.mp h.1).symm, fun h => ⟨bar_eq_iff.mpr (yn_eq_iff.mpr h).symm, trivial⟩⟩ rfl rfl
  · exact if_congr ⟨fun h => xn_eq_iff.mp (bar_eq_iff.mp h.1).symm, fun h => ⟨bar_eq_iff.mpr (xn_eq_iff.mpr h).symm, trivial⟩⟩ rfl rfl

/-- What device `d` owes device `c`'s x-receive cell `i`: one copy's credit if it is `c`'s x-neighbour. -/
theorem owed_xr (d c : Dev nD) (i : Fin 32) : O₀ d (xrCell c i) () = if d = xn c then NC else 0 := by
  rw [O₀_apply, oY_eq_zero () (fun j _ => xr_ne_yr _ _ i j), oX_at_xr, tallyAt_ne_cell (xr_ne_bar _ _ i), tallyAt_ne_cell (xr_ne_bar _ _ i)]
  show (0 + (if d = xn c then NC else 0)) + 0 + 0 = (if d = xn c then NC else 0)
  simp only [Nat.zero_add, Nat.add_zero]

/-- What device `d` owes device `c`'s y-receive cell `i`: one copy's credit if it is `c`'s y-neighbour. -/
theorem owed_yr (d c : Dev nD) (i : Fin 32) : O₀ d (yrCell c i) () = if d = yn c then NC else 0 := by
  rw [O₀_apply, oX_eq_zero () (fun j _ => (xr_ne_yr _ _ j i).symm), oY_at_yr, tallyAt_ne_cell (yr_ne_bar _ _ i), tallyAt_ne_cell (yr_ne_bar _ _ i)]
  show (if d = yn c then NC else 0) + 0 + 0 + 0 = (if d = yn c then NC else 0)
  simp only [Nat.add_zero]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yn c) fun _ => 1, Finset.sum_ite_eq' Finset.univ (xn c) fun _ => 1, if_pos (Finset.mem_univ _), if_pos (Finset.mem_univ _)]

omit [FloatOps F] in
theorem launch_xr (c : Dev nD) (i : Fin 32) :
    tallyOn (xrCell c i) (launchCredit (Pipeline.owing O₀) 0 (xrCell c i)) = (tallyAt (xrCell c i) () NC : CellTallies nD τ sig Unit) := by
  unfold tallyAt; refine congrArg _ (Finsupp.ext fun u => ?_); cases u
  rw [Pipeline.launchCredit_owing, Finsupp.single_eq_same, Finset.sum_congr rfl fun d _ => owed_xr d c i,
    Finset.sum_ite_eq' Finset.univ (xn c) fun _ => NC, if_pos (Finset.mem_univ _)]

omit [FloatOps F] in
theorem launch_yr (c : Dev nD) (i : Fin 32) :
    tallyOn (yrCell c i) (launchCredit (Pipeline.owing O₀) 0 (yrCell c i)) = (tallyAt (yrCell c i) () NC : CellTallies nD τ sig Unit) := by
  unfold tallyAt; refine congrArg _ (Finsupp.ext fun u => ?_); cases u
  rw [Pipeline.launchCredit_owing, Finsupp.single_eq_same, Finset.sum_congr rfl fun d _ => owed_yr d c i,
    Finset.sum_ite_eq' Finset.univ (yn c) fun _ => NC, if_pos (Finset.mem_univ _)]

/-- The x-receive and the y-receive semaphores, as families indexed by the chunk. -/
def xrE : Fin 32 ↪ SemLoc sig := ⟨fun i => .dma (xrS i), fun i j h => by
  have h2 := congrArg role h; rw [role_xr, role_xr] at h2; exact Role.xr.inj h2⟩
def yrE : Fin 32 ↪ SemLoc sig := ⟨fun i => .dma (yrS i), fun i j h => by
  have h2 := congrArg role h; rw [role_yr, role_yr] at h2; exact Role.yr.inj h2⟩

theorem recvE_disjoint : Disjoint (Finset.univ.map xrE) (Finset.univ.map yrE) := by
  rw [Finset.disjoint_left]
  intro sm hx hy
  obtain ⟨i, _, rfl⟩ := Finset.mem_map.mp hx
  obtain ⟨j, _, e⟩ := Finset.mem_map.mp hy
  have h2 : role (.dma (yrS j) : SemLoc sig) = role (.dma (xrS i)) := congrArg role e
  rw [role_xr, role_yr] at h2
  exact Role.noConfusion h2

theorem recvE_subset : Finset.univ.map xrE ∪ Finset.univ.map yrE ⊆ Finset.univ.erase (SemLoc.reg barS : SemLoc sig) := by
  intro sm h
  refine Finset.mem_erase.mpr ⟨?_, Finset.mem_univ _⟩
  rcases Finset.mem_union.mp h with h | h
  · obtain ⟨i, _, rfl⟩ := Finset.mem_map.mp h
    exact fun e => by have e' : (SemLoc.dma (xrS i) : SemLoc sig) = SemLoc.reg barS := e; cases e'
  · obtain ⟨i, _, rfl⟩ := Finset.mem_map.mp h
    exact fun e => by have e' : (SemLoc.dma (yrS i) : SemLoc sig) = SemLoc.reg barS := e; cases e'

omit [FloatOps F] in
/-- The launch credit of device `c`: its barrier cell's two units and one copy's credit on each of its 64 receive cells. -/
theorem creds (c : Dev nD) :
    (Pipeline.launchCred O₀ c : sProp 𝕄) ⊢ iprop(cred (tallyAt (barCell c) () 2)
      ∗ (bigSep Finset.univ fun i : Fin 32 => cred (tallyAt (xrCell c i) () NC))
      ∗ (bigSep Finset.univ fun i : Fin 32 => cred (tallyAt (yrCell c i) () NC))) := by
  unfold Pipeline.launchCred
  rw [bigSep_univ_at _ (SemLoc.reg barS), launch_bar]
  refine sep_mono_right ?_
  refine (bigSep_subset recvE_subset).trans ?_
  rw [bigSep_union recvE_disjoint, bigSep_map, bigSep_map]
  refine (sep_mono_left (Entails.of_eq (bigSep_congr fun i _ => ?_))).trans (sep_mono_right (Entails.of_eq (bigSep_congr fun i _ => ?_)))
  · exact congrArg _ (launch_xr c i)
  · exact congrArg _ (launch_yr c i)

end Cert.KernelIdeal.A2A
end
-- ==== Proof.Launch.lean ====
import proofs.«900015_g7700000000000016_dist_a2a_v7x_xy2x2_x_m2048_n512_f32_1_alg».proof.Proof.State
import proofs.«900015_g7700000000000016_dist_a2a_v7x_xy2x2_x_m2048_n512_f32_1_alg».proof.Proof.Levels
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The duty tokens of device `c`'s own cells as the launch mints them: duty `false` of each of its 130 cells, and its barrier's duty `true`. -/
def toks (c : Dev nD) : sProp 𝕄 :=
  iprop((bigSep Finset.univ fun k : Fin 130 => dutyTok ER (kcell (c, k)) 0 false) ∗ dutyTok ER (barCell c) 0 true)

/-! ## A device's cells, cell kind by cell kind -/

def kEquiv : Unit ⊕ (Fin 32 ⊕ (Fin 32 ⊕ (Fin 32 ⊕ (Fin 32 ⊕ Unit)))) ≃ Fin 130 where
  toFun := Sum.elim (fun _ => kbar) (Sum.elim kxs (Sum.elim kxr (Sum.elim kys (Sum.elim kyr fun _ => kloc))))
  invFun k :=
    if h0 : k.val = 0 then .inl ()
    else if h1 : k.val < 33 then .inr (.inl ⟨k.val - 1, by omega⟩)
    else if h2 : k.val < 65 then .inr (.inr (.inl ⟨k.val - 33, by omega⟩))
    else if h3 : k.val < 97 then .inr (.inr (.inr (.inl ⟨k.val - 65, by omega⟩)))
    else if h4 : k.val < 129 then .inr (.inr (.inr (.inr (.inl ⟨k.val - 97, by have := k.isLt; omega⟩))))
    else .inr (.inr (.inr (.inr (.inr ()))))
  left_inv := by decide +kernel
  right_inv := by decide +kernel

omit [FloatOps F] in
/-- A sum over a device's 130 cells is the barrier cell's summand, the four 32-families' and the local cell's. -/
theorem bigSep_k (Φ : Fin 130 → sProp 𝕄) : bigSep Finset.univ Φ
    = iprop(Φ kbar ∗ (bigSep Finset.univ fun i => Φ (kxs i)) ∗ (bigSep Finset.univ fun i => Φ (kxr i))
        ∗ (bigSep Finset.univ fun i => Φ (kys i)) ∗ (bigSep Finset.univ fun i => Φ (kyr i)) ∗ Φ kloc) := by
  rw [bigSep_univ_equiv kEquiv Φ, bigSep_univ_sum, bigSep_univ_sum, bigSep_univ_sum, bigSep_univ_sum, bigSep_univ_sum,
    bigSep_univ_of_subsingleton (), bigSep_univ_of_subsingleton ()]
  rfl

def jxs (i : Fin 32) : Fin 129 := ⟨i.val, by have := i.isLt; omega⟩
def jxr (i : Fin 32) : Fin 129 := ⟨32 + i.val, by have := i.isLt; omega⟩
def jys (i : Fin 32) : Fin 129 := ⟨64 + i.val, by have := i.isLt; omega⟩
def jyr (i : Fin 32) : Fin 129 := ⟨96 + i.val, by have := i.isLt; omega⟩
def jloc : Fin 129 := ⟨128, by decide⟩

def jEquiv : Fin 32 ⊕ (Fin 32 ⊕ (Fin 32 ⊕ (Fin 32 ⊕ Unit))) ≃ Fin 129 where
  toFun := Sum.elim jxs (Sum.elim jxr (Sum.elim jys (Sum.elim jyr fun _ => jloc)))
  invFun k :=
    if h1 : k.val < 32 then .inl ⟨k.val, h1⟩
    else if h2 : k.val < 64 then .inr (.inl ⟨k.val - 32, by omega⟩)
    else if h3 : k.val < 96 then .inr (.inr (.inl ⟨k.val - 64, by omega⟩))
    else if h4 : k.val < 128 then .inr (.inr (.inr (.inl ⟨k.val - 96, by have := k.isLt; omega⟩)))
    else .inr (.inr (.inr (.inr ())))
  left_inv := by decide +kernel
  right_inv := by decide +kernel

omit [FloatOps F] in
theorem bigSep_j (Φ : Fin 129 → sProp 𝕄) : bigSep Finset.univ Φ
    = iprop((bigSep Finset.univ fun i => Φ (jxs i)) ∗ (bigSep Finset.univ fun i => Φ (jxr i))
        ∗ (bigSep Finset.univ fun i => Φ (jys i)) ∗ (bigSep Finset.univ fun i => Φ (jyr i)) ∗ Φ jloc) := by
  rw [bigSep_univ_equiv jEquiv Φ, bigSep_univ_sum, bigSep_univ_sum, bigSep_univ_sum, bigSep_univ_sum,
    bigSep_univ_of_subsingleton ()]
  rfl

def osem : Fin 129 → SemLoc sig := fun j => .dma (⟨j.val + 2, by have := j.isLt; show j.val + 2 < 131; omega⟩ : DmaSem sig)
theorem osem_xs (i : Fin 32) : osem (jxs i) = .dma (xsS i) := by revert i; decide +kernel
theorem osem_xr (i : Fin 32) : osem (jxr i) = .dma (xrS i) := by revert i; decide +kernel
theorem osem_ys (i : Fin 32) : osem (jys i) = .dma (ysS i) := by revert i; decide +kernel
theorem osem_yr (i : Fin 32) : osem (jyr i) = .dma (yrS i) := by revert i; decide +kernel
theorem osem_loc : osem jloc = .dma locS := by decide +kernel

omit [FloatOps F] in
theorem positions_eq (c : Dev nD) : (bigSep Finset.univ fun k : Fin 130 => (atPos ER (kcell (c, k)) 0 ∅ 0 : sProp 𝕄)) = positions c := by
  rw [bigSep_k]; simp only [kcell_bar, kcell_xs, kcell_xr, kcell_ys, kcell_yr, kcell_loc]; rfl

omit [FloatOps F] in
theorem sems_k_eq (c : Dev nD) : (bigSep Finset.univ fun k : Fin 130 => (semVal (kcell (c, k)) 0 : sProp 𝕄)) = iprop(semVal (barCell c) 0 ∗ closedSems c) := by
  rw [bigSep_k]; simp only [kcell_bar, kcell_xs, kcell_xr, kcell_ys, kcell_yr, kcell_loc]; rfl

omit [FloatOps F] in
theorem toks_eq (c : Dev nD) : (toks c : sProp 𝕄) = iprop((dutyTok ER (barCell c) 0 false
      ∗ (bigSep Finset.univ fun i : Fin 32 => dutyTok ER (xsCell c i) 0 false)
      ∗ (bigSep Finset.univ fun i : Fin 32 => dutyTok ER (xrCell c i) 0 false)
      ∗ (bigSep Finset.univ fun i : Fin 32 => dutyTok ER (ysCell c i) 0 false)
      ∗ (bigSep Finset.univ fun i : Fin 32 => dutyTok ER (yrCell c i) 0 false)
      ∗ dutyTok ER (locCell c) 0 false) ∗ dutyTok ER (barCell c) 0 true) := by
  unfold toks; rw [bigSep_k]; simp only [kcell_bar, kcell_xs, kcell_xr, kcell_ys, kcell_yr, kcell_loc]

omit [FloatOps F] in
/-- The kernel's own semaphores are the four 32-families and the local copy's; -/
theorem ownSems0_eq (c : Dev nD) : (Pipeline.ownSems0 (Ix := Unit) (Name := ℕ) (U := UU) (Lvl := ℕ) (Val := Elt F) (τ := τ) osem c : sProp 𝕄) = closedSems c := by
  unfold Pipeline.ownSems0 closedSems; rw [bigSep_j]; simp only [osem_xs, osem_xr, osem_ys, osem_yr, osem_loc]
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem ksem_injective : Function.Injective (ksem : Fin 130 → SemLoc sig) := by decide +kernel

theorem kcell_injective : Function.Injective (kcell : Dev nD × Fin 130 → GSem nD τ sig) := by
  rintro ⟨c, k⟩ ⟨c', k'⟩ h
  have h1 : c = c' := by have := congrArg (fun g : GSem nD τ sig => g.1.1) h; exact this
  subst h1
  have h2 : ksem k = ksem k' := congrArg Prod.snd h
  have : k = k' := ksem_injective h2
  subst this; rfl
def ringCells : Finset (GSem nD τ sig) := Finset.univ.map ⟨kcell, kcell_injective⟩

/-- A device's own cells' duty tokens as minted: duty `false` of each of its 130 cells, and its barrier's duty `true`. -/
abbrev tokOf (cj : Dev nD × (Fin 130 ⊕ Unit)) : GSem nD τ sig × ℕ × Bool := match cj.2 with
  | .inl k => (kcell (cj.1, k), 0, false) | .inr _ => (barCell cj.1, 0, true)
theorem tokOf_injective : Function.Injective (tokOf : Dev nD × (Fin 130 ⊕ Unit) → GSem nD τ sig × ℕ × Bool) := by
  rintro ⟨c, j⟩ ⟨c', j'⟩ h
  have h1 : c = c' := by
    have := congrArg (fun x : GSem nD τ sig × ℕ × Bool => x.1.1.1) h
    rcases j with k | u <;> rcases j' with k' | u' <;> exact this
  subst h1
  rcases j with k | u <;> rcases j' with k' | u'
  · have h2 : ksem k = ksem k' := congrArg (fun x : GSem nD τ sig × ℕ × Bool => x.1.2) h
    rw [ksem_injective h2]
  · exact absurd (congrArg (fun x : GSem nD τ sig × ℕ × Bool => x.2.2) h) (fun h' => by cases h')
  · exact absurd (congrArg (fun x : GSem nD τ sig × ℕ × Bool => x.2.2) h) (fun h' => by cases h')
  · rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- What the launch element deals device `c`. -/
def G (c : Dev nD) : sProp 𝕄 :=
  iprop((bigSep Finset.univ fun k : Fin 130 => roundState ER (sched m ρ) (kcell (c, k)) 0)
    ∗ (bigSep Finset.univ fun k : Fin 130 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 130 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_of_subsingleton ()]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 130 => semVal (kcell (c, k)) 0 : sProp 𝕄) := by
  rw [ownSems0_eq, unscopedSems0_eq, sems_k_eq]
  iintro ⟨HC, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 130 => iprop(∃ κ : ℕ, cellInv ER (sched m ρ) κ (kcell (c, k))))
          ∗ (bigSep Finset.univ fun k : Fin 130 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 130 => semVal (kcell (c, k)) 0) ∗ bigSep Finset.univ fun k : Fin 130 => roundState ER (sched m ρ) (kcell (c, k)) 0)
      ⊢ (|={Set.univ}=> bigSep Finset.univ fun k : Fin 130 => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c` after the tokens are dealt to their payers: its positions and the tokens of the duties it pays. -/
def linear (c : Dev nD) : sProp 𝕄 :=
  iprop((bigSep Finset.univ fun k : Fin 130 => atPos ER (kcell (c, k)) 0 ∅ 0) ∗ payToks c)

theorem ghost_intro (K : Dev nD × Fin 130 → ℕ) (c : Dev nD) : iprop(records m ρ K ∗ linear c) ⊢ G' m ρ c := by
  unfold linear G' ghost
  rw [positions_eq]
  iintro ⟨HR, Hp, Ht⟩
  iexists K
  isplitl [HR]; · iexact HR
  isplitl [Hp] <;> iassumption

/-- The tokens dealt to their payers: a barrier's `false` token and the x-receive tokens to the x-neighbour, its `true`
    token and the y-receive tokens to the y-neighbour; the send tokens and the local copy's stay. -/
theorem toks_around : (bigSep Finset.univ fun c : Dev nD => (toks c : sProp 𝕄)) ⊢ bigSep Finset.univ fun c : Dev nD => payToks c := by
  simp only [toks_eq]
  unfold payToks
  simp only [bigSep_sep']
  rw [bigSep_univ_equiv xEquiv (fun c : Dev nD => (dutyTok ER (barCell c) 0 false : sProp 𝕄)),
    bigSep_univ_equiv yEquiv (fun c : Dev nD => (dutyTok ER (barCell c) 0 true : sProp 𝕄)),
    bigSep_univ_equiv xEquiv (fun c : Dev nD => (bigSep Finset.univ fun i : Fin 32 => dutyTok ER (xrCell c i) 0 false : sProp 𝕄)),
    bigSep_univ_equiv yEquiv (fun c : Dev nD => (bigSep Finset.univ fun i : Fin 32 => dutyTok ER (yrCell c i) 0 false : sProp 𝕄))]
  iintro ⟨⟨Hbf, Hxs, Hxr, Hys, Hyr, Hloc⟩, Hbt⟩
  isplitl [Hbf]; · iexact Hbf
  isplitl [Hbt]; · iexact Hbt
  isplitl [Hxs]; · iexact Hxs
  isplitl [Hxr]; · iexact Hxr
  isplitl [Hys]; · iexact Hys
  isplitl [Hyr]; · iexact Hyr
  iexact Hloc

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 130 => iprop(∃ κ : ℕ, cellInv ER (sched m ρ) κ (kcell (c, k))))
          ∗ (bigSep Finset.univ fun k : Fin 130 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 130 => iprop(∃ κ : ℕ, cellInv ER (sched m ρ) κ (kcell ck))),
    bigSep_congr (s := Finset.univ) (fun (c : Dev nD) _ => bigSep_sep' Finset.univ (fun k : Fin 130 => (atPos ER (kcell (c, k)) 0 ∅ 0 : sProp 𝕄)) (fun k => reached ER (kcell (c, k)) 0)),
    bigSep_sep', ← bigSep_univ_prod (fun ck : Dev nD × Fin 130 => (reached ER (kcell ck) 0 : sProp 𝕄))]
  iintro ⟨HI, ⟨Hat, #HR⟩, Htok⟩
  ihave HK := (BI.bigSep_exists_pi Finset.univ (fun (ck : Dev nD × Fin 130) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 130 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G' credsOf
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl, scopedRest0_eq]
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = closedSems c from rfl, scopedRest0_eq, ownSems0_eq]
  iintro H
  isplitr; · iempintro
  isplitl; · iexact H
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- At the compiled mesh of four devices, for any float values, from any memory with zero counters: every weakly fair
    execution of @main terminates, and every final state has each device's two arrays at the computed contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ### The final arrays -/

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds what the body left in the result staging buffer: the one write-back
    writes the whole array. -/
theorem finalA_o (c : Dev nD) : finalA m ρ c (1 : Fin 2) = outAt m ρ c := by
  unfold finalA
  have h := (dats (F := F) m ρ 0 c).arrAt_succ (1 : Fin 2) t₀
  rw [if_pos (show (cfg0.win 1).flush t₀ = true from by decide)] at h
  have key : ∀ X : (main_v1 : Ref sig .tc).ty.Contents (Elt F), ((cfg0.win 1).blk t₀).view.read (Elt F) X = X := fun X =>
    Memref.read_access_unit_zero (Elt F) main_v1 (funext fun a => Nat.zero_mul _) _ X
  have hw := View.read_write_univ (v := ((cfg0.win 1).blk t₀).view) (Val := Elt F) ((dats m ρ 0 c).arrAt 1 t₀.val) ((dats m ρ 0 c).flushed 1 t₀)
  rw [key] at hw
  exact h.trans hw

/-! ### The body obligation from a body lemma -/

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The obligation's precondition at the one grid point, the names of the invariants not yet fixed. -/
def bodyPre' (c : Dev nD) : sProp 𝕄 :=
  iprop(start m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 100000 in
/-- The library's body obligation on every core, from a lemma that runs the body from `bodyPre` to `bodyPost`. -/
theorem body_obligation_of
    (h : ∀ (K : Dev nD × Fin 130 → ℕ) (c : Dev nD) (Kt : PUnit → sProp 𝕄), iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3 cc0_scratch4) Kt) :
    ∀ c, BodyObligation (dats (F := F) m ρ 0 c) (defs₀ (F := F)) 𝒱₀ () Set.univ := fun c t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m ρ c)
  unfold bodyPre' start
  iintro ⟨⟨⟨%K, Hg⟩, Hrest⟩, Ho, Hx, Hout⟩
  iapply (h K c fun _ => bodyPost m ρ c)
  unfold bodyPre
  isplitr []
  · isplitl [Hg Hrest]
    · isplitl [Hg]; · iexact Hg
      iexact Hrest
    isplitl [Ho]; · iexact Ho
    isplitl [Hx] <;> iassumption
  · iintro H; iexact H

/-! ### The run, at the two arrays -/

/-- The run in the form the claims read: every final state has each device's result array at `outAt` and its
    input array unchanged. -/
theorem run_vals (hbody : ∀ c, BodyObligation (dats (F := F) m ρ 0 c) (defs₀ (F := F)) 𝒱₀ () Set.univ) :
    θ_run defs (onTc (τ := τ) (main (F := F))) ⟨m, fun _ => 0, ρ⟩
      (fun r => ∀ c : Dev nD, r.2.mem ((c.tc : Thread nD τ).loc main_v1) = outAt m ρ c
        ∧ r.2.mem ((c.tc : Thread nD τ).loc main_arg0) = m ((c.tc : Thread nD τ).loc main_arg0)) :=
  (run_main m ρ hbody).mono fun r hr c =>
    ⟨(hr c (1 : Fin 2)).trans (finalA_o m ρ c), (hr c (0 : Fin 2)).trans (finalA_x m ρ c)⟩

/-- info: 'Cert.KernelIdeal.A2A.run_vals' depends on axioms: [propext, Classical.choice, Quot.sound] -/
#guard_msgs in #print axioms run_vals

/-- info: 'Cert.KernelIdeal.A2A.body_obligation_of' depends on axioms: [propext, Classical.choice, Quot.sound] -/
#guard_msgs in #print axioms body_obligation_of

end Cert.KernelIdeal.A2A
end
-- ==== Proof.Prog.lean ====
import proofs.«900015_g7700000000000016_dist_a2a_v7x_xy2x2_x_m2048_n512_f32_1_alg».proof.Proof.State
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as four uniform stretches over the chunks -/

abbrev PB (F : FTy → Type) [FloatOps F] : Type 1 := Prog (TpuEff nD τ sig (Elt F) Λ₀ .tc) PUnit

/-- `g ⟨32-k, _⟩ (g ⟨32-k+1, _⟩ (… (g 31 rest)))`: one stretch, the chunks in order. -/
def seqFrom (g : Fin 32 → PB F → PB F) (rest : PB F) : (k : ℕ) → k ≤ 32 → PB F
  | 0, _ => rest
  | k + 1, hk => g ⟨32 - (k + 1), by omega⟩ (seqFrom g rest k (by omega))

/-- The device the x-copies (and the first signal) address, and the one the y-copies (and the second signal) address,
    as the kernel computes them. -/
abbrev xnK (c : Dev nD) : Dev nD := ⟨k0_dev3 c, k0_dev3_lt c⟩
abbrev ynK (c : Dev nD) : Dev nD := ⟨k0_dev35 c, k0_dev35_lt c⟩

def xEnq (c : Dev nD) (i : Fin 32) (rest : PB F) : PB F :=
  .op (.enqueueDma (xsrcM c i) (.remote (Dev.tc (xnK c)) (xdstM c i) (.dma (xsS i))) (.dma (xrS i))
    (View.wordExact_bits rfl) (View.wordExact_bits rfl) ⟨⟨rfl, Or.inl rfl⟩, trivial⟩) fun _ => rest

def lEnq (c : Dev nD) (rest : PB F) : PB F :=
  .op (.enqueueDma (lsrcM c) (.here (ldstM c)) (.dma locS) (View.wordExact_bits rfl) (View.wordExact_bits rfl) ⟨Or.inl rfl, trivial⟩) fun _ => rest

def yStep (c : Dev nD) (i : Fin 32) (rest : PB F) : PB F :=
  .op (.waitDma2 (xrS i) (xsrcM c i) (xdstM c i) (View.wordExact_bits rfl) (View.wordExact_bits rfl)) fun _ =>
  .op (.enqueueDma (yM c i) (.remote (Dev.tc (ynK c)) (yM c i) (.dma (ysS i))) (.dma (yrS i))
    (View.wordExact_bits rfl) (View.wordExact_bits rfl) ⟨⟨rfl, Or.inl rfl⟩, trivial⟩) fun _ => rest

def wStep (c : Dev nD) (i : Fin 32) (rest : PB F) : PB F :=
  .op (.waitDma2 (yrS i) (yM c i) (yM c i) (View.wordExact_bits rfl) (View.wordExact_bits rfl)) fun _ =>
  .op (.waitDma2 (xsS i) (xdstM c i) (xsrcM c i) (View.wordExact_bits rfl) (View.wordExact_bits rfl)) fun _ =>
  .op (.waitDma2 (ysS i) (yM c i) (yM c i) (View.wordExact_bits rfl) (View.wordExact_bits rfl)) fun _ => rest

def lWait (c : Dev nD) : PB F :=
  .op (.waitDma2 locS (lsrcM c) (ldstM c) (View.wordExact_bits rfl) (View.wordExact_bits rfl)) fun _ => .ret ⟨⟩

/-- Everything after the barrier wait. -/
def afterBarrier (c : Dev nD) : PB F :=
  seqFrom (xEnq c) (lEnq c (seqFrom (yStep c) (seqFrom (wStep c) (lWait c) 32 le_rfl) 32 le_rfl)) 32 le_rfl

end Cert.KernelIdeal.A2A
end
-- ==== Proof.LibStretch.lean ====
import Idealize.ShloMosaic.Lib.Tactic

/-! # Stretches of a finite index range, peeled in order

`geS N n` is the set of indices `n, n+1, …` of `Fin N`, `ltS N n` the set of indices below `n`. A `bigSep` over the first
loses its least element, one over the second gains it: what a proof that walks `0, 1, …, N-1` in order needs to
take the next resource out of the ones not yet used and to put a result with the ones already produced. -/

namespace Idealize.SL.BI.Stretch

open Idealize.SL Idealize.SL.BI
open scoped Idealize.SL.BI
open Idealize.SL.BI.BIBase

variable {N : ℕ}

/-- The indices from `n` on. -/
def geS (N n : ℕ) : Finset (Fin N) := Finset.univ.filter fun i => n ≤ i.val
/-- The indices below `n`. -/
def ltS (N n : ℕ) : Finset (Fin N) := Finset.univ.filter fun i => i.val < n

theorem geS_zero : geS N 0 = Finset.univ := by ext i; simp [geS]
theorem geS_top : geS N N = ∅ := by ext i; simp [geS]
theorem ltS_zero : ltS N 0 = ∅ := by ext i; simp [ltS]
theorem ltS_top : ltS N N = Finset.univ := by ext i; simp [ltS]

theorem geS_eq_insert (i : Fin N) : geS N i.val = insert i (geS N (i.val + 1)) := by
  ext j; simp only [geS, Finset.mem_filter, Finset.mem_univ, true_and, Finset.mem_insert]
  constructor
  · intro h; by_cases e : j = i
    · exact Or.inl e
    · exact Or.inr (by have : j.val ≠ i.val := fun h' => e (Fin.ext h'); omega)
  · rintro (rfl | h) <;> omega
theorem not_mem_geS_succ (i : Fin N) : i ∉ geS N (i.val + 1) := by simp [geS]

theorem ltS_succ_eq_insert (i : Fin N) : ltS N (i.val + 1) = insert i (ltS N i.val) := by
  ext j; simp only [ltS, Finset.mem_filter, Finset.mem_univ, true_and, Finset.mem_insert]
  constructor
  · intro h; by_cases e : j = i
    · exact Or.inl e
    · exact Or.inr (by have : j.val ≠ i.val := fun h' => e (Fin.ext h'); omega)
  · rintro (rfl | h) <;> omega
theorem not_mem_ltS (i : Fin N) : i ∉ ltS N i.val := by simp [ltS]

variable {M : Type*} [Idealize.SL.RA.URA M]

/-- The resources not yet used, the next one taken out. -/
theorem bigSep_geS_peel (i : Fin N) (Φ : Fin N → sProp M) :
    bigSep (geS N i.val) Φ = iprop(Φ i ∗ bigSep (geS N (i.val + 1)) Φ) := by
  rw [geS_eq_insert i, bigSep_insert (not_mem_geS_succ i)]; rfl

/-- The results so far, one more put with them. -/
theorem bigSep_ltS_push (i : Fin N) (Φ : Fin N → sProp M) :
    bigSep (ltS N (i.val + 1)) Φ = iprop(Φ i ∗ bigSep (ltS N i.val) Φ) := by
  rw [ltS_succ_eq_insert i, bigSep_insert (not_mem_ltS i)]; rfl

end Idealize.SL.BI.Stretch
-- ==== Proof.Seq.lean ====
import proofs.«900015_g7700000000000016_dist_a2a_v7x_xy2x2_x_m2048_n512_f32_1_alg».proof.Proof.Prog
import proofs.«900015_g7700000000000016_dist_a2a_v7x_xy2x2_x_m2048_n512_f32_1_alg».proof.Proof.LibStretch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.SL.BI.Stretch

/-! ## A stretch of the body runs chunk by chunk -/

/-- If every chunk's piece of a stretch takes the state `S i` to `S (i+1)`, the stretch from chunk `32-k` on takes
    `S (32-k)` to `S 32`. -/
theorem seq_wp (c : Dev nD) (S : ℕ → sProp 𝕄) (g : Fin 32 → PB F → PB F)
    (hstep : ∀ (i : Fin 32) (rest : PB F) (Q : PUnit → sProp 𝕄),
      iprop(S i.val ∗ (S (i.val + 1) -∗ wp frame (wpE (defs₀ (F := F)) 𝒱₀ c none) Set.univ rest Q))
        ⊢ wp frame (wpE (defs₀ (F := F)) 𝒱₀ c none) Set.univ (g i rest) Q) :
    ∀ (k : ℕ) (hk : k ≤ 32) (rest : PB F) (Q : PUnit → sProp 𝕄),
      iprop(S (32 - k) ∗ (S 32 -∗ wp frame (wpE (defs₀ (F := F)) 𝒱₀ c none) Set.univ rest Q))
        ⊢ wp frame (wpE (defs₀ (F := F)) 𝒱₀ c none) Set.univ (seqFrom g rest k hk) Q := by
  intro k
  induction k with
  | zero =>
    intro hk rest Q
    show iprop(S 32 ∗ (S 32 -∗ _)) ⊢ wp frame _ Set.univ rest Q
    iintro ⟨HS, Hk⟩
    iapply Hk; iexact HS
  | succ k ih =>
    intro hk rest Q
    show _ ⊢ wp frame _ Set.univ (g ⟨32 - (k + 1), _⟩ (seqFrom g rest k _)) Q
    iintro ⟨HS, Hk⟩
    iapply (hstep ⟨32 - (k + 1), _⟩ (seqFrom g rest k _) Q)
    isplitl [HS]; · iexact HS
    iintro HS'
    iapply (ih _ rest Q)
    isplitl [HS']
    · rw [show 32 - (k + 1) + 1 = 32 - k from by omega]
      iexact HS'
    · iexact Hk

end Cert.KernelIdeal.A2A
end
-- ==== Proof.Access.lean ====
import proofs.«900015_g7700000000000016_dist_a2a_v7x_xy2x2_x_m2048_n512_f32_1_alg».proof.Proof.State
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading one cell's invariant, and that it has reached round 0, out of the records -/

variable (K : Dev nD × Fin 130 → ℕ)

omit [FloatOps F] in
theorem inv_at (ck : Dev nD × Fin 130) : records m ρ K ⊢ cellInv ER (sched m ρ) (K ck) (kcell ck) := by
  unfold records
  exact sep_elim_left.trans (bigSep_elim (Φ := fun ck : Dev nD × Fin 130 => (cellInv ER (sched m ρ) (K ck) (kcell ck) : sProp 𝕄)) (Finset.mem_univ ck))
omit [FloatOps F] in
theorem rch_at (ck : Dev nD × Fin 130) : records m ρ K ⊢ reached ER (kcell ck) 0 := by
  unfold records
  exact sep_elim_right.trans (bigSep_elim (Φ := fun ck : Dev nD × Fin 130 => (reached ER (kcell ck) 0 : sProp 𝕄)) (Finset.mem_univ ck))

omit [FloatOps F] in
theorem inv_bar (c : Dev nD) : records m ρ K ⊢ cellInv ER (sched m ρ) (K (c, kbar)) (barCell c) := by
  have := inv_at m ρ K (c, kbar); rwa [kcell_bar] at this
omit [FloatOps F] in
theorem inv_xs (c : Dev nD) (i : Fin 32) : records m ρ K ⊢ cellInv ER (sched m ρ) (K (c, kxs i)) (xsCell c i) := by
  have := inv_at m ρ K (c, kxs i); rwa [kcell_xs] at this
omit [FloatOps F] in
theorem inv_xr (c : Dev nD) (i : Fin 32) : records m ρ K ⊢ cellInv ER (sched m ρ) (K (c, kxr i)) (xrCell c i) := by
  have := inv_at m ρ K (c, kxr i); rwa [kcell_xr] at this
omit [FloatOps F] in
theorem inv_ys (c : Dev nD) (i : Fin 32) : records m ρ K ⊢ cellInv ER (sched m ρ) (K (c, kys i)) (ysCell c i) := by
  have := inv_at m ρ K (c, kys i); rwa [kcell_ys] at this
omit [FloatOps F] in
theorem inv_yr (c : Dev nD) (i : Fin 32) : records m ρ K ⊢ cellInv ER (sched m ρ) (K (c, kyr i)) (yrCell c i) := by
  have := inv_at m ρ K (c, kyr i); rwa [kcell_yr] at this
omit [FloatOps F] in
theorem inv_loc (c : Dev nD) : records m ρ K ⊢ cellInv ER (sched m ρ) (K (c, kloc)) (locCell c) := by
  have := inv_at m ρ K (c, kloc); rwa [kcell_loc] at this

omit [FloatOps F] in
theorem rch_bar (c : Dev nD) : records m ρ K ⊢ reached ER (barCell c) 0 := by
  have := rch_at m ρ K (c, kbar); rwa [kcell_bar] at this
omit [FloatOps F] in
theorem rch_xs (c : Dev nD) (i : Fin 32) : records m ρ K ⊢ reached ER (xsCell c i) 0 := by
  have := rch_at m ρ K (c, kxs i); rwa [kcell_xs] at this
omit [FloatOps F] in
theorem rch_xr (c : Dev nD) (i : Fin 32) : records m ρ K ⊢ reached ER (xrCell c i) 0 := by
  have := rch_at m ρ K (c, kxr i); rwa [kcell_xr] at this
omit [FloatOps F] in
theorem rch_ys (c : Dev nD) (i : Fin 32) : records m ρ K ⊢ reached ER (ysCell c i) 0 := by
  have := rch_at m ρ K (c, kys i); rwa [kcell_ys] at this
omit [FloatOps F] in
theorem rch_yr (c : Dev nD) (i : Fin 32) : records m ρ K ⊢ reached ER (yrCell c i) 0 := by
  have := rch_at m ρ K (c, kyr i); rwa [kcell_yr] at this
omit [FloatOps F] in
theorem rch_loc (c : Dev nD) : records m ρ K ⊢ reached ER (locCell c) 0 := by
  have := rch_at m ρ K (c, kloc); rwa [kcell_loc] at this

end Cert.KernelIdeal.A2A
end
-- ==== Proof.Values.lean ====
import proofs.«900015_g7700000000000016_dist_a2a_v7x_xy2x2_x_m2048_n512_f32_1_alg».proof.Proof.Sched
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # What each copy lands

For every copy of the body, the destination rectangle rewritten by the copy holds, on its own elements, the final
contents `outAt` of the device that receives it: the entailments into the schedule's payloads. Each is proved per
index of the rectangle: the written element is the source's element at the same local index, and the closed forms of
the two offsets place both in the block `who` names at the index `srcIx` names. -/

/-! ## Where a rectangle's index sits in its buffer, and the offsets in closed form -/

/-- Coordinate `a` of the place of index `y` of a unit-stride rectangle of the input buffer. -/
theorem xM_emb_val (off size : Fin 2 → Nat) (inb : ∀ a, off a + size a ≤ S2048x1024.size a)
    (y : (Rect.unit (s := S2048x1024) off size inb).shape.Idx) (a : Fin 2) :
    (((xM.slice (Rect.unit (s := S2048x1024) off size inb) (fun _ => rfl)).view.emb y) a).val = off a + (y a).val := by
  show off a + 1 * (y a).val = _
  rw [Nat.one_mul]

/-- The same in the result buffer. -/
theorem oM_emb_val (off size : Fin 2 → Nat) (inb : ∀ a, off a + size a ≤ S4096x512.size a)
    (y : (Rect.unit (s := S4096x512) off size inb).shape.Idx) (a : Fin 2) :
    (((oM.slice (Rect.unit (s := S4096x512) off size inb) (fun _ => rfl)).view.emb y) a).val = off a + (y a).val := by
  show off a + 1 * (y a).val = _
  rw [Nat.one_mul]

theorem off1_0 (c : Dev nD) (i : Fin 32) : k0_off1 c (cw i) 0 = 2048 * (c.val / 2) + 1024 * (c.val % 2) + 32 * i.val := by
  rw [k0_off1_eq]; rfl
theorem off1_1 (c : Dev nD) (i : Fin 32) : k0_off1 c (cw i) 1 = 0 := by rw [k0_off1_eq]; rfl
theorem off2_0 (c : Dev nD) (i : Fin 32) : k0_off2 c (cw i) 0 = 1024 * (c.val % 2) + 32 * i.val := by
  rw [k0_off2_eq]; rfl
theorem off2_1 (c : Dev nD) (i : Fin 32) : k0_off2 c (cw i) 1 = 512 - 512 * (c.val / 2) := by rw [k0_off2_eq]; rfl
theorem off3_0 (c : Dev nD) : k0_off3 c 0 = 2048 * (c.val / 2) := by rw [k0_off3_eq]; rfl
theorem off3_1 (c : Dev nD) : k0_off3 c 1 = 0 := by rw [k0_off3_eq]; rfl
theorem off4_0 (c : Dev nD) : k0_off4 c 0 = 0 := by rw [k0_off4_eq]; rfl
theorem off4_1 (c : Dev nD) : k0_off4 c 1 = 512 * (c.val / 2) := by rw [k0_off4_eq]; rfl
theorem off5_0 (c : Dev nD) (i : Fin 32) :
    k0_off5 c (cw i) 0 = (1024 * (c.val % 2) + 32 * i.val + 2048) - 2048 * (c.val / 2) := by rw [k0_off5_eq]; rfl
theorem off5_1 (c : Dev nD) (i : Fin 32) : k0_off5 c (cw i) 1 = 0 := by rw [k0_off5_eq]; rfl

theorem xn_val (c : Dev nD) : (xn c).val = (c.val % 2 + 2) - 2 * (c.val / 2) := rfl
theorem yn_val (c : Dev nD) : (yn c).val = (2 * (c.val / 2) + 1) - c.val % 2 := rfl

/-! ## Reading the final contents at an index -/

/-- A source index is `srcIx` of a result index when its coordinates are. -/
theorem srcIx_eq (c : Dev nD) (idx : S4096x512.Idx) (j : S2048x1024.Idx)
    (h0 : (j 0).val = (idx 0).val % 2048) (h1 : (j 1).val = 512 * (c.val / 2) + (idx 1).val) : srcIx c idx = j := by
  funext a
  match a with
  | ⟨0, _⟩ => exact Fin.ext h0.symm
  | ⟨1, _⟩ => exact Fin.ext h1.symm

/-- The final contents at a result index: the block of the device its row comes from, at the source index. -/
theorem outAt_eq (c c' : Dev nD) (idx : S4096x512.Idx) (j : S2048x1024.Idx)
    (hw : who c (idx 0).val = c') (h0 : (j 0).val = (idx 0).val % 2048)
    (h1 : (j 1).val = 512 * (c.val / 2) + (idx 1).val) : outAt m ρ c idx = xstg m ρ c' j := by
  unfold outAt; rw [hw, srcIx_eq c idx j h0 h1]

/-! ## The x-copies -/

/-- The rectangle an x-copy fills on the x-neighbour is the rectangle that neighbour forwards along y. -/
theorem off1_eq_off5 (c : Dev nD) (i : Fin 32) : k0_off1 c (cw i) = k0_off5 (xn c) (cw i) := by
  have hc := c.isLt; simp only [nD] at hc
  funext a
  match a with
  | ⟨0, _⟩ => show k0_off1 c (cw i) 0 = k0_off5 (xn c) (cw i) 0; rw [off1_0, off5_0, xn_val]; omega
  | ⟨1, _⟩ => show k0_off1 c (cw i) 1 = k0_off5 (xn c) (cw i) 1; rw [off1_1, off5_1]

/-- Unit-stride rectangles of the result buffer at equal offsets have the same elements. -/
theorem oM_set_congr {off off' : Fin 2 → Nat} (h : off = off') (size : Fin 2 → Nat)
    (inb : ∀ a, off a + size a ≤ S4096x512.size a) (inb' : ∀ a, off' a + size a ≤ S4096x512.size a) :
    (oM.slice (Rect.unit (s := S4096x512) off size inb) (fun _ => rfl)).view.set
      = (oM.slice (Rect.unit (s := S4096x512) off' size inb') (fun _ => rfl)).view.set := by
  subst h; rfl

theorem xdst_set (c : Dev nD) (i : Fin 32) : (xdstM c i).view.set = (yM (xn c) i).view.set :=
  oM_set_congr (off1_eq_off5 c i) _ _ _

/-- Row `2048·a + 1024·b + 32·i + y₀` of the x-neighbour's result is row `1024·b + 32·i + y₀` of this device's
    block, the neighbour's half of the columns. -/
theorem land_x_ix (c : Dev nD) (i : Fin 32) (y : S32x512.Idx) :
    outAt m ρ (xn c) ((xdstM c i).view.emb y) = xstg m ρ c ((xsrcM c i).view.emb y) := by
  have hc := c.isLt; simp only [nD] at hc
  have hi := i.isLt
  have hy0 : (y 0).val < 32 := (y 0).isLt
  have hy1 : (y 1).val < 512 := (y 1).isLt
  refine outAt_eq m ρ (xn c) c _ _ ?_ ?_ ?_
  · rw [oM_emb_val, off1_0]; unfold who
    rw [if_neg (by rw [xn_val]; omega), if_pos (by rw [xn_val]; omega), xn_xn]
  · rw [xM_emb_val, oM_emb_val, off1_0, off2_0]; omega
  · rw [xM_emb_val, oM_emb_val, off1_1, off2_1, xn_val]; omega

theorem land_x (c : Dev nD) (i : Fin 32) (fd : Buf (Elt F) ((xdstM c i).view.loc (xn c : Thread nD τ))) :
    ((xdstM c i).view.loc (xn c : Thread nD τ) ↦[(xdstM c i).view.set]{fullShare}
        ((xdstM c i).view.write (Elt F) fd ((xsrcM c i).view.read (Elt F) (xstg m ρ c)) Finset.univ))
    ⊢ xrPay m ρ (xn c) i := by
  unfold xrPay oPts
  refine (Entails.of_eq (pointsTo_congr (g := outAt m ρ (xn c)) fun idx hidx => ?_)).trans ?_
  · obtain ⟨y, rfl⟩ := View.exists_emb_of_mem_set _ hidx
    rw [View.write_emb_of_mem _ _ (Finset.mem_univ y), View.read_apply, land_x_ix, cast_cast, cast_eq]
  · rw [xdst_set]

/-! ## The y-copies -/

/-- Row `2048·(1-a) + 1024·b + 32·i + y₀`: on this device and on its y-neighbour alike it is the row the
    x-neighbour sent, and the two read the same half of the columns. -/
theorem land_y_ix (c : Dev nD) (i : Fin 32) (y : S32x512.Idx) :
    outAt m ρ (yn c) ((yM c i).view.emb y) = outAt m ρ c ((yM c i).view.emb y) := by
  have hc := c.isLt; simp only [nD] at hc
  have hi := i.isLt
  have hy0 : (y 0).val < 32 := (y 0).isLt
  have hy1 : (y 1).val < 512 := (y 1).isLt
  have hwc : who c (((yM c i).view.emb y) 0).val = xn c := by
    rw [oM_emb_val, off5_0]; unfold who
    rw [if_neg (by omega), if_pos (by omega)]
  have hwy : who (yn c) (((yM c i).view.emb y) 0).val = xn c := by
    rw [oM_emb_val, off5_0]; unfold who
    rw [if_neg (by rw [yn_val]; omega), if_neg (by rw [yn_val]; omega), yn_yn]
  rw [outAt_eq m ρ c (xn c) _ (srcIx c ((yM c i).view.emb y)) hwc rfl rfl]
  refine outAt_eq m ρ (yn c) (xn c) _ _ hwy rfl ?_
  show 512 * (c.val / 2) + _ = 512 * ((yn c).val / 2) + _
  rw [yn_val]; omega

theorem land_y (c : Dev nD) (i : Fin 32) (fd : Buf (Elt F) ((yM c i).view.loc (yn c : Thread nD τ))) :
    ((yM c i).view.loc (yn c : Thread nD τ) ↦[(yM c i).view.set]{fullShare}
        ((yM c i).view.write (Elt F) fd ((yM c i).view.read (Elt F) (outAt m ρ c)) Finset.univ))
    ⊢ yrPay m ρ (yn c) i := by
  unfold yrPay oPts
  rw [yn_yn]
  refine Entails.of_eq (pointsTo_congr fun idx hidx => ?_)
  obtain ⟨y, rfl⟩ := View.exists_emb_of_mem_set _ hidx
  rw [View.write_emb_of_mem _ _ (Finset.mem_univ y), View.read_apply, land_y_ix, cast_cast, cast_eq]

/-! ## The local copy -/

/-- Row `2048·a + y₀` of the result is this device's own row `y₀`, its half of the columns. -/
theorem land_l_ix (c : Dev nD) (y : S2048x512.Idx) :
    outAt m ρ c ((ldstM c).view.emb y) = xstg m ρ c ((lsrcM c).view.emb y) := by
  have hc := c.isLt; simp only [nD] at hc
  have hy0 : (y 0).val < 2048 := (y 0).isLt
  have hy1 : (y 1).val < 512 := (y 1).isLt
  refine outAt_eq m ρ c c _ _ ?_ ?_ ?_
  · rw [oM_emb_val, off3_0]; unfold who; rw [if_pos (by omega)]
  · rw [xM_emb_val, oM_emb_val, off3_0, off4_0]; omega
  · rw [xM_emb_val, oM_emb_val, off3_1, off4_1]; omega

theorem land_l (c : Dev nD) (fd : Buf (Elt F) ((ldstM c).view.loc (c : Thread nD τ))) :
    iprop(((ldstM c).view.loc (c : Thread nD τ) ↦[(ldstM c).view.set]{fullShare}
        ((ldstM c).view.write (Elt F) fd ((lsrcM c).view.read (Elt F) (xstg m ρ c)) Finset.univ))
      ∗ ((lsrcM c).view.loc (c : Thread nD τ) ↦[(lsrcM c).view.set]{fullShare} xstg m ρ c))
    ⊢ locPay m ρ c := by
  unfold locPay olPts xlPts
  refine sep_mono_left (Entails.of_eq (pointsTo_congr fun idx hidx => ?_))
  obtain ⟨y, rfl⟩ := View.exists_emb_of_mem_set _ hidx
  rw [View.write_emb_of_mem _ _ (Finset.mem_univ y), View.read_apply, land_l_ix, cast_cast, cast_eq]

end Cert.KernelIdeal.A2A
end
-- ==== Proof.Tables.lean ====
import proofs.«900015_g7700000000000016_dist_a2a_v7x_xy2x2_x_m2048_n512_f32_1_alg».proof.Proof.Sched

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's fields at an arbitrary cell

The fields of `sched` spelt out at an arbitrary cell `g`. Every table lemma below is an instance of one of these
at a particular cell, together with that cell's role. -/

section Fields
variable (g : GSem nD τ sig)

omit [FloatOps F] in
theorem duties_eq (r : ℕ) : (sched (F := F) m ρ).duties g r =
    if r = 0 ∧ g.1.2 = .tc then (match role g.2 with | .bar => Finset.univ | .other => ∅ | _ => {false}) else ∅ := rfl
omit [FloatOps F] in
theorem amount_eq (r : ℕ) (d : Bool) : (sched (F := F) m ρ).amount g r d =
    (match role g.2 with | .bar => 1 | .loc => NL | _ => NC) := rfl
omit [FloatOps F] in
theorem payload_eq (r : ℕ) (d : Bool) : (sched (F := F) m ρ).payload g r d =
    (match role g.2 with
      | .bar => if d then barPayY g.1.1 else barPayX g.1.1
      | .xs i => xsPay m ρ g.1.1 i
      | .xr i => xrPay m ρ g.1.1 i
      | .ys i => ysPay m ρ g.1.1 i
      | .yr i => yrPay m ρ g.1.1 i
      | .loc => locPay m ρ g.1.1
      | .other => iprop(emp)) := rfl
omit [FloatOps F] in
theorem expect_eq (r : ℕ) : (sched (F := F) m ρ).expect g r =
    ∑ d ∈ (sched (F := F) m ρ).duties g r, (sched (F := F) m ρ).amount g r d := rfl

end Fields

/-! ## The schedule's tables, cell by cell

Every cell has one round, round `0`. A barrier cell has two duties of one unit each; a DMA cell has the
single duty `false`, of the credit of the copy that completes on it. -/

section Tables
variable (c : Dev nD) (i : Fin 32)

/-! ### Duties -/

omit [FloatOps F] in
theorem duties_bar : (sched (F := F) m ρ).duties (barCell c) 0 = Finset.univ := by
  have h : role (barCell c).2 = .bar := role_bar
  rw [duties_eq, h, if_pos ⟨rfl, rfl⟩]
omit [FloatOps F] in
theorem duties_xs : (sched (F := F) m ρ).duties (xsCell c i) 0 = {false} := by
  have h : role (xsCell c i).2 = .xs i := role_xs i
  rw [duties_eq, h, if_pos ⟨rfl, rfl⟩]
omit [FloatOps F] in
theorem duties_xr : (sched (F := F) m ρ).duties (xrCell c i) 0 = {false} := by
  have h : role (xrCell c i).2 = .xr i := role_xr i
  rw [duties_eq, h, if_pos ⟨rfl, rfl⟩]
omit [FloatOps F] in
theorem duties_ys : (sched (F := F) m ρ).duties (ysCell c i) 0 = {false} := by
  have h : role (ysCell c i).2 = .ys i := role_ys i
  rw [duties_eq, h, if_pos ⟨rfl, rfl⟩]
omit [FloatOps F] in
theorem duties_yr : (sched (F := F) m ρ).duties (yrCell c i) 0 = {false} := by
  have h : role (yrCell c i).2 = .yr i := role_yr i
  rw [duties_eq, h, if_pos ⟨rfl, rfl⟩]
omit [FloatOps F] in
theorem duties_loc : (sched (F := F) m ρ).duties (locCell c) 0 = {false} := by
  have h : role (locCell c).2 = .loc := role_loc
  rw [duties_eq, h, if_pos ⟨rfl, rfl⟩]
omit [FloatOps F] in
/-- No cell has a round after round `0`. -/
theorem duties_later (g : GSem nD τ sig) : ∀ r, 1 ≤ r → (sched (F := F) m ρ).duties g r = ∅ :=
  fun r hr => by rw [duties_eq, if_neg fun h => by omega]

/-! ### Amounts -/

omit [FloatOps F] in
theorem amount_bar (d : Bool) : (sched (F := F) m ρ).amount (barCell c) 0 d = 1 := by
  have h : role (barCell c).2 = .bar := role_bar
  rw [amount_eq, h]
omit [FloatOps F] in
theorem amount_xs (d : Bool) : (sched (F := F) m ρ).amount (xsCell c i) 0 d = NC := by
  have h : role (xsCell c i).2 = .xs i := role_xs i
  rw [amount_eq, h]
omit [FloatOps F] in
theorem amount_xr (d : Bool) : (sched (F := F) m ρ).amount (xrCell c i) 0 d = NC := by
  have h : role (xrCell c i).2 = .xr i := role_xr i
  rw [amount_eq, h]
omit [FloatOps F] in
theorem amount_ys (d : Bool) : (sched (F := F) m ρ).amount (ysCell c i) 0 d = NC := by
  have h : role (ysCell c i).2 = .ys i := role_ys i
  rw [amount_eq, h]
omit [FloatOps F] in
theorem amount_yr (d : Bool) : (sched (F := F) m ρ).amount (yrCell c i) 0 d = NC := by
  have h : role (yrCell c i).2 = .yr i := role_yr i
  rw [amount_eq, h]
omit [FloatOps F] in
theorem amount_loc (d : Bool) : (sched (F := F) m ρ).amount (locCell c) 0 d = NL := by
  have h : role (locCell c).2 = .loc := role_loc
  rw [amount_eq, h]

/-! ### Units expected in the round -/

omit [FloatOps F] in
theorem expect_bar : (sched (F := F) m ρ).expect (barCell c) 0 = 2 := by
  rw [expect_eq, duties_bar, Finset.sum_congr rfl fun d _ => amount_bar m ρ c d, Finset.sum_const, Finset.card_univ,
    Fintype.card_bool, smul_eq_mul]
omit [FloatOps F] in
theorem expect_xs : (sched (F := F) m ρ).expect (xsCell c i) 0 = NC := by
  rw [expect_eq, duties_xs, Finset.sum_singleton, amount_xs]
omit [FloatOps F] in
theorem expect_xr : (sched (F := F) m ρ).expect (xrCell c i) 0 = NC := by
  rw [expect_eq, duties_xr, Finset.sum_singleton, amount_xr]
omit [FloatOps F] in
theorem expect_ys : (sched (F := F) m ρ).expect (ysCell c i) 0 = NC := by
  rw [expect_eq, duties_ys, Finset.sum_singleton, amount_ys]
omit [FloatOps F] in
theorem expect_yr : (sched (F := F) m ρ).expect (yrCell c i) 0 = NC := by
  rw [expect_eq, duties_yr, Finset.sum_singleton, amount_yr]
omit [FloatOps F] in
theorem expect_loc : (sched (F := F) m ρ).expect (locCell c) 0 = NL := by
  rw [expect_eq, duties_loc, Finset.sum_singleton, amount_loc]

/-! ### Payloads -/

omit [FloatOps F] in
theorem payload_bar_false : (sched (F := F) m ρ).payload (barCell c) 0 false = barPayX c := by
  have h : role (barCell c).2 = .bar := role_bar
  rw [payload_eq, h]
  exact if_neg Bool.false_ne_true
omit [FloatOps F] in
theorem payload_bar_true : (sched (F := F) m ρ).payload (barCell c) 0 true = barPayY c := by
  have h : role (barCell c).2 = .bar := role_bar
  rw [payload_eq, h]
  exact if_pos rfl
omit [FloatOps F] in
theorem payload_xs (d : Bool) : (sched (F := F) m ρ).payload (xsCell c i) 0 d = xsPay m ρ c i := by
  have h : role (xsCell c i).2 = .xs i := role_xs i
  rw [payload_eq, h]
omit [FloatOps F] in
theorem payload_xr (d : Bool) : (sched (F := F) m ρ).payload (xrCell c i) 0 d = xrPay m ρ c i := by
  have h : role (xrCell c i).2 = .xr i := role_xr i
  rw [payload_eq, h]
omit [FloatOps F] in
theorem payload_ys (d : Bool) : (sched (F := F) m ρ).payload (ysCell c i) 0 d = ysPay m ρ c i := by
  have h : role (ysCell c i).2 = .ys i := role_ys i
  rw [payload_eq, h]
omit [FloatOps F] in
theorem payload_yr (d : Bool) : (sched (F := F) m ρ).payload (yrCell c i) 0 d = yrPay m ρ c i := by
  have h : role (yrCell c i).2 = .yr i := role_yr i
  rw [payload_eq, h]
omit [FloatOps F] in
theorem payload_loc (d : Bool) : (sched (F := F) m ρ).payload (locCell c) 0 d = locPay m ρ c := by
  have h : role (locCell c).2 = .loc := role_loc
  rw [payload_eq, h]

/-! ### The rest of the round when no duty's payload has been taken -/

omit [FloatOps F] in
/-- Both neighbours' hand-overs: the x-neighbour's 32 rectangles and the y-neighbour's. -/
theorem rest_bar : bigSep ((sched (F := F) m ρ).duties (barCell c) 0 \ ∅)
    (fun d => (sched (F := F) m ρ).payload (barCell c) 0 d) = iprop(barPayX c ∗ barPayY c) := by
  rw [Finset.sdiff_empty, duties_bar, bigSep_univ_eq_bigSepL [false, true] (by decide) (by decide),
    bigSepL_cons_cons, bigSepL_singleton, payload_bar_false, payload_bar_true]
  rfl
omit [FloatOps F] in
theorem rest_xs : bigSep ((sched (F := F) m ρ).duties (xsCell c i) 0 \ ∅)
    (fun d => (sched (F := F) m ρ).payload (xsCell c i) 0 d) = xsPay m ρ c i := by
  rw [Finset.sdiff_empty, duties_xs, bigSep_singleton, payload_xs]
omit [FloatOps F] in
theorem rest_xr : bigSep ((sched (F := F) m ρ).duties (xrCell c i) 0 \ ∅)
    (fun d => (sched (F := F) m ρ).payload (xrCell c i) 0 d) = xrPay m ρ c i := by
  rw [Finset.sdiff_empty, duties_xr, bigSep_singleton, payload_xr]
omit [FloatOps F] in
theorem rest_ys : bigSep ((sched (F := F) m ρ).duties (ysCell c i) 0 \ ∅)
    (fun d => (sched (F := F) m ρ).payload (ysCell c i) 0 d) = ysPay m ρ c i := by
  rw [Finset.sdiff_empty, duties_ys, bigSep_singleton, payload_ys]
omit [FloatOps F] in
theorem rest_yr : bigSep ((sched (F := F) m ρ).duties (yrCell c i) 0 \ ∅)
    (fun d => (sched (F := F) m ρ).payload (yrCell c i) 0 d) = yrPay m ρ c i := by
  rw [Finset.sdiff_empty, duties_yr, bigSep_singleton, payload_yr]
omit [FloatOps F] in
theorem rest_loc : bigSep ((sched (F := F) m ρ).duties (locCell c) 0 \ ∅)
    (fun d => (sched (F := F) m ρ).payload (locCell c) 0 d) = locPay m ρ c := by
  rw [Finset.sdiff_empty, duties_loc, bigSep_singleton, payload_loc]

end Tables

omit [FloatOps F] in
/-- No cell of the schedule admits a contribution of no unit. -/
theorem not_unitless (g : GSem nD τ sig) : ¬ (sched (F := F) m ρ).unitless g := fun h => h

/-! ## The credit a copy into each destination rectangle adds to a DMA semaphore

The credit of a view is a function of its buffer, its shape and its element type only. A rectangle cut from a
buffer keeps the buffer, so every chunk rectangle of the result buffer carries `NC` and the local copy's
destination `NL`, whatever the offsets. -/

/-- The credit of a unit-stride rectangle of a memref: the memref's buffer at the rectangle's sizes. -/
theorem dmaCredit_unit {s : Shape} {e : EltTy} (M : Memref sig .tc .vmem s e) (off size : Fin s.rank → Nat)
    (inb : ∀ a, off a + size a ≤ s.size a) :
    (M.slice (Rect.unit off size inb) (fun _ => rfl)).view.dmaCredit
      = sig.dmaCredit .tc (Kind.table .tc .vmem) M.view.buf ⟨s.rank, size⟩ e := rfl

theorem amount_yM (c : Dev nD) (i : Fin 32) (q : DmaSem sig) : (yM c i).view.amount (.dma q) = NC :=
  (dmaCredit_unit oM (k0_off5 c (cw i)) S32x512.size (k0_off5_inb c i)).trans
    (dmaCredit_unit oM (k0_off5 (0 : Dev nD) (cw 0)) S32x512.size (k0_off5_inb 0 0)).symm
theorem amount_xdstM (c : Dev nD) (i : Fin 32) (q : DmaSem sig) : (xdstM c i).view.amount (.dma q) = NC :=
  (dmaCredit_unit oM (k0_off1 c (cw i)) S32x512.size (k0_off1_inb c i)).trans
    (dmaCredit_unit oM (k0_off5 (0 : Dev nD) (cw 0)) S32x512.size (k0_off5_inb 0 0)).symm
theorem amount_ldstM (c : Dev nD) (q : DmaSem sig) : (ldstM c).view.amount (.dma q) = NL :=
  (dmaCredit_unit oM (k0_off3 c) S2048x512.size (k0_off3_inb c)).trans
    (dmaCredit_unit oM (k0_off3 (0 : Dev nD)) S2048x512.size (k0_off3_inb 0)).symm

end Cert.KernelIdeal.A2A
end
-- ==== Proof.StepsEnq.lean ====
import proofs.«900015_g7700000000000016_dist_a2a_v7x_xy2x2_x_m2048_n512_f32_1_alg».proof.Proof.Access
import proofs.«900015_g7700000000000016_dist_a2a_v7x_xy2x2_x_m2048_n512_f32_1_alg».proof.Proof.Levels
import proofs.«900015_g7700000000000016_dist_a2a_v7x_xy2x2_x_m2048_n512_f32_1_alg».proof.Proof.Values
import proofs.«900015_g7700000000000016_dist_a2a_v7x_xy2x2_x_m2048_n512_f32_1_alg».proof.Proof.Prog
import proofs.«900015_g7700000000000016_dist_a2a_v7x_xy2x2_x_m2048_n512_f32_1_alg».proof.Proof.Tables
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The three enqueue steps of the body

Each copy the body starts, once at a symbolic chunk: the x-copy of chunk `i` into the x-neighbour's result buffer, the
local copy, and the y-copy of chunk `i` into the y-neighbour's. Each is the library's rule for a transfer whose
destination elements the issuer owns, at this schedule's cells; the payload a landing makes is the value lemma of the
copy, and what the issuer still owes drops by the receive cell's credit. -/

/-! ## The credit of a copy into each destination rectangle -/

theorem credit_yM (c : Dev nD) (i : Fin 32) (q : DmaSem sig) : (yM c i).view.amount (.dma q) = NC := rfl
theorem credit_xdstM (c : Dev nD) (i : Fin 32) (q : DmaSem sig) : (xdstM c i).view.amount (.dma q) = NC := rfl
theorem credit_ldstM (c : Dev nD) (q : DmaSem sig) : (ldstM c).view.amount (.dma q) = NL := rfl

/-! ## The devices the copies address -/

theorem xnK_eq (c : Dev nD) : xnK c = xn c := Fin.ext (k0_dev3_eq c)
theorem ynK_eq (c : Dev nD) : ynK c = yn c := Fin.ext (k0_dev35_eq c)

variable (K : Dev nD × Fin 130 → ℕ)

/-! ## The local copy -/

theorem wp_lenq (c : Dev nD) (fd : Buf (Elt F) ((ldstM c).view.loc (c : Thread nD τ))) (rest : PB F)
    (Q : PUnit → sProp 𝕄) :
    iprop(records m ρ K ∗ xlPts m ρ c ∗ olPts c fd ∗ dutyTok ER (locCell c) 0 false)
      ⊢ iprop((cred (tallyAt (locCell c) () NL) -∗ wp frame (wpE (defs₀ (F := F)) 𝒱₀ (c : Thread nD τ) none) Set.univ rest Q)
          -∗ wp frame (wpE (defs₀ (F := F)) 𝒱₀ (c : Thread nD τ) none) Set.univ (lEnq c rest) Q) := by
  unfold xlPts olPts lEnq
  iintro ⟨#Hrec, Hx, Ho, Htok⟩ Hk
  iapply (wp_copy_pointsTo 𝒱₀ ER (sched m ρ) (c : Thread nD τ) none (src := lsrcM c) (dst := ldstM c)
    (sem := .dma locS) (q := fullShare) (fs := xstg m ρ c) (fd := fd) (r := 0) (d := false) (κ := K (c, kloc))
    (by rw [duties_loc]; exact Finset.mem_singleton_self _) () NL (credit_ldstM c locS) (amount_loc m ρ c false)
    (by rw [payload_loc]; exact land_l m ρ c fd)) $$ [Hx Ho Htok]
  · isplitl []
    · iapply (inv_loc m ρ K c); iexact Hrec
    isplitl [Hx]; · iexact Hx
    isplitl [Ho]; · iexact Ho
    isplitl [Htok]; · iexact Htok
    iapply (rch_loc m ρ K c); iexact Hrec
  iexact Hk

/-! ## The x-copy of chunk `i` -/

/-- The x-neighbour's rectangle that chunk `i` fills, as the copy's destination spells it. -/
theorem oPts_xdst (c : Dev nD) (i : Fin 32) (fn : Buf (Elt F) ((xn c : Thread nD τ).loc cc0_stg1_0)) :
    (oPts (xn c) (xn c) i fn : sProp 𝕄)
      = ((xdstM c i).view.loc (xn c : Thread nD τ) ↦[(xdstM c i).view.set]{fullShare} fn) := by
  unfold oPts; rw [xdst_set]

/-- The x-copy's operation, addressed to the x-neighbour by name. -/
theorem xEnq_eq (c : Dev nD) (i : Fin 32) (rest : PB F) :
    xEnq c i rest = (.op (.enqueueDma (xsrcM c i) (.remote (Dev.tc (xn c)) (xdstM c i) (.dma (xsS i))) (.dma (xrS i))
      (View.wordExact_bits rfl) (View.wordExact_bits rfl) ⟨⟨rfl, Or.inl rfl⟩, trivial⟩) fun _ => rest : PB F) := by
  show (.op (.enqueueDma (xsrcM c i) (.remote (Dev.tc (xnK c)) (xdstM c i) (.dma (xsS i))) (.dma (xrS i))
      (View.wordExact_bits rfl) (View.wordExact_bits rfl) ⟨⟨rfl, Or.inl rfl⟩, trivial⟩) fun _ => rest : PB F) = _
  rw [xnK_eq]

theorem wp_xenq (c : Dev nD) (i : Fin 32) (fn : Buf (Elt F) ((yM (xn c) i).view.loc (xn c : Thread nD τ)))
    (W : Waits sig Unit) (rest : PB F) (Q : PUnit → sProp 𝕄) :
    iprop(records m ρ K ∗ xsPts m ρ c i ∗ oPts (xn c) (xn c) i fn
        ∗ owes (c : Thread nD τ) (oY c 0 + oX c i.val) W
        ∗ dutyTok ER (xsCell c i) 0 false ∗ dutyTok ER (xrCell (xn c) i) 0 false)
      ⊢ iprop(((cred (tallyAt (xsCell c i) () NC) ∗ owes (c : Thread nD τ) (oY c 0 + oX c (i.val + 1)) W)
            -∗ wp frame (wpE (defs₀ (F := F)) 𝒱₀ (c : Thread nD τ) none) Set.univ rest Q)
          -∗ wp frame (wpE (defs₀ (F := F)) 𝒱₀ (c : Thread nD τ) none) Set.univ (xEnq c i rest) Q) := by
  obtain ⟨fn', hfn⟩ : ∃ fn' : Buf (Elt F) ((xn c : Thread nD τ).loc cc0_stg1_0), fn' = fn := ⟨fn, rfl⟩
  subst hfn
  rw [oPts_xdst]
  unfold xsPts
  rw [xEnq_eq]
  iintro ⟨#Hrec, Hx, Ho, Howe, Ht1, Ht2⟩ Hk
  iapply (wp_send_pointsTo 𝒱₀ ER (sched m ρ) (c : Thread nD τ) none (c' := (xn c : Thread nD τ))
    (src := xsrcM c i) (dst := xdstM c i) (sS := .dma (xsS i)) (sem := .dma (xrS i)) (q := fullShare)
    (fs := xstg m ρ c) (fd := fn') (r₁ := 0) (r₂ := 0) (d₁ := false) (d₂ := false)
    (κ₁ := K (c, kxs i)) (κ₂ := K (xn c, kxr i))
    (by rw [duties_xs]; exact Finset.mem_singleton_self _) (by rw [duties_xr]; exact Finset.mem_singleton_self _)
    () () NC (credit_xdstM c i (xrS i)) (amount_xs m ρ c i false) (amount_xr m ρ (xn c) i false)
    (O₀ := oY c 0 + oX c i.val) (oY c 0 + oX c (i.val + 1)) (by rw [oX_succ c i, add_assoc])
    (by rw [payload_xs]; exact Entails.of_eq rfl)
    (by rw [payload_xr]; exact land_x m ρ c i fn')) $$ [Hx Ho Howe Ht1 Ht2]
  · isplitl []
    · iapply (inv_xs m ρ K c i); iexact Hrec
    isplitl []
    · iapply (inv_xr m ρ K (xn c) i); iexact Hrec
    isplitl [Hx]; · iexact Hx
    isplitl [Ho]; · iexact Ho
    isplitl [Howe]; · iexact Howe
    isplitl [Ht1]; · iexact Ht1
    isplitl []
    · iapply (rch_xs m ρ K c i); iexact Hrec
    isplitl [Ht2]; · iexact Ht2
    iapply (rch_xr m ρ K (xn c) i); iexact Hrec
  iexact Hk

/-! ## The y-copy of chunk `i` -/

theorem wp_yenq (c : Dev nD) (i : Fin 32) (fn : Buf (Elt F) ((yM c i).view.loc (yn c : Thread nD τ)))
    (W : Waits sig Unit) (k : PUnit → PB F) (Q : PUnit → sProp 𝕄) :
    iprop(records m ρ K ∗ oPts c c i (outAt m ρ c) ∗ oPts (yn c) c i fn
        ∗ owes (c : Thread nD τ) (oY c i.val) W
        ∗ dutyTok ER (ysCell c i) 0 false ∗ dutyTok ER (yrCell (yn c) i) 0 false)
      ⊢ iprop(((cred (tallyAt (ysCell c i) () NC) ∗ owes (c : Thread nD τ) (oY c (i.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (yM c i) (.remote (Dev.tc (ynK c)) (yM c i) (.dma (ysS i))) (.dma (yrS i))
              (View.wordExact_bits rfl) (View.wordExact_bits rfl) ⟨⟨rfl, Or.inl rfl⟩, trivial⟩) k) Q) := by
  unfold oPts
  rw [ynK_eq]
  iintro ⟨#Hrec, Hx, Ho, Howe, Ht1, Ht2⟩ Hk
  iapply (wp_send_pointsTo 𝒱₀ ER (sched m ρ) (c : Thread nD τ) none (c' := (yn c : Thread nD τ))
    (src := yM c i) (dst := yM c i) (sS := .dma (ysS i)) (sem := .dma (yrS i)) (q := fullShare)
    (fs := outAt m ρ c) (fd := fn) (r₁ := 0) (r₂ := 0) (d₁ := false) (d₂ := false)
    (κ₁ := K (c, kys i)) (κ₂ := K (yn c, kyr i))
    (by rw [duties_ys]; exact Finset.mem_singleton_self _) (by rw [duties_yr]; exact Finset.mem_singleton_self _)
    () () NC (credit_yM c i (yrS i)) (amount_ys m ρ c i false) (amount_yr m ρ (yn c) i false)
    (O₀ := oY c i.val) (oY c (i.val + 1)) (oY_succ c i)
    (by rw [payload_ys]; exact Entails.of_eq rfl)
    (by rw [payload_yr]; exact land_y m ρ c i fn)) $$ [Hx Ho Howe Ht1 Ht2]
  · isplitl []
    · iapply (inv_ys m ρ K c i); iexact Hrec
    isplitl []
    · iapply (inv_yr m ρ K (yn c) i); iexact Hrec
    isplitl [Hx]; · iexact Hx
    isplitl [Ho]; · iexact Ho
    isplitl [Howe]; · iexact Howe
    isplitl [Ht1]; · iexact Ht1
    isplitl []
    · iapply (rch_ys m ρ K c i); iexact Hrec
    isplitl [Ht2]; · iexact Ht2
    iapply (rch_yr m ρ K (yn c) i); iexact Hrec
  iexact Hk

end Cert.KernelIdeal.A2A
end
-- ==== Proof.StepsWait.lean ====
import proofs.«900015_g7700000000000016_dist_a2a_v7x_xy2x2_x_m2048_n512_f32_1_alg».proof.Proof.Prog
import proofs.«900015_g7700000000000016_dist_a2a_v7x_xy2x2_x_m2048_n512_f32_1_alg».proof.Proof.Access
import proofs.«900015_g7700000000000016_dist_a2a_v7x_xy2x2_x_m2048_n512_f32_1_alg».proof.Proof.Tables
import proofs.«900015_g7700000000000016_dist_a2a_v7x_xy2x2_x_m2048_n512_f32_1_alg».proof.Proof.Levels
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The waits, the entry signals, and the closing of the device's own cells

Each wait is stated once, at a symbolic chunk: the device hands in the cell's credit, what it owes (nothing, or credit on
cells above the awaited one) and its position at round 0 of the cell, and comes back at round 1 with the round's payload. -/

variable (K : Dev nD × Fin 130 → ℕ)

/-! ## The credit of the copies, as the waits read it off their destination views -/

theorem waitCredit_xdstM (c : Dev nD) (i : Fin 32) : (xdstM c i).view.dmaCredit = NC := rfl
theorem waitCredit_xsrcM (c : Dev nD) (i : Fin 32) : (xsrcM c i).view.dmaCredit = NC := rfl
theorem waitCredit_yM (c : Dev nD) (i : Fin 32) : (yM c i).view.dmaCredit = NC := rfl
theorem waitCredit_ldstM (c : Dev nD) : (ldstM c).view.dmaCredit = NL := rfl

/-! ## The waits -/

/-- The wait for the x-neighbour's chunk `i`: the device still owes its y-copies `i, i+1, …`, all above this cell; it comes
    back at round 1 of the cell with the rectangle the chunk landed in. -/
theorem wait_xr (c : Dev nD) (i : Fin 32) (W : Waits sig Unit) (k : PUnit → PB F) (Q : PUnit → sProp 𝕄) :
    iprop(records m ρ K ∗ levAts L lv ∗ cred (tallyAt (xrCell c i) () NC) ∗ owes (c : Thread nD τ) (oY c i.val) W ∗ atPos ER (xrCell c i) 0 ∅ 0)
      ⊢ iprop(((owes (c : Thread nD τ) (oY c i.val) (insert (SemLoc.dma (xrS i), ()) W) ∗ atPos ER (xrCell c i) 1 ∅ 0 ∗ xrPay m ρ c i)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (xrS i) (xsrcM c i) (xdstM c i) (View.wordExact_bits rfl) (View.wordExact_bits rfl)) k) Q) := by
  iintro ⟨HR, Hlev, Hc, Ho, Hat⟩ Hk
  iapply (wp_wait_rest_token 𝒱₀ ER (sched m ρ) (c : Thread nD τ) none (wpE_waitDma2_eq 𝒱₀ (c : Thread nD τ) none Set.univ)
      (Set.mem_univ (K (c, kxr i))) () (R := 0) (m := 0) (T := ∅)
      (by rw [waitCredit_xdstM, expect_xr, Nat.zero_add])) $$ [HR Hlev Hc Ho Hat] [Hk]
  · isplitl [HR]; · iapply (inv_xr m ρ K c i); iexact HR
    isplitl [Hc]; · iexact Hc
    isplitl [Ho]; · iexact Ho
    isplitl [Hlev]; · iapply (mayWait_xr c i); iexact Hlev
    iexact Hat
  · iintro ⟨Ho, Hat, -, Hpay⟩
    iapply Hk
    isplitl [Ho]; · iexact Ho
    isplitl [Hat]; · iexact Hat
    iapply (Entails.of_eq (rest_xr m ρ c i)); iexact Hpay

/-- The barrier wait: the device owes receive credit only, all above its barrier cell; it comes back with both neighbours'
    hand-overs. -/
theorem wait_bar (c : Dev nD) (W : Waits sig Unit) (k : PUnit → PB F) (Q : PUnit → sProp 𝕄) :
    iprop(records m ρ K ∗ levAts L lv ∗ cred (tallyAt (barCell c) () 2) ∗ owes (c : Thread nD τ) (oY c 0 + oX c 0) W ∗ atPos ER (barCell c) 0 ∅ 0)
      ⊢ iprop(((owes (c : Thread nD τ) (oY c 0 + oX c 0) (insert (SemLoc.reg barS, ()) W) ∗ atPos ER (barCell c) 1 ∅ 0 ∗ barPayX c ∗ barPayY c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toNat) k) Q) := by
  iintro ⟨HR, Hlev, Hc, Ho, Hat⟩ Hk
  iapply (wp_wait_rest_token 𝒱₀ ER (sched m ρ) (c : Thread nD τ) none (wpE_semWait_eq 𝒱₀ (c : Thread nD τ) none Set.univ)
      (Set.mem_univ (K (c, kbar))) () (R := 0) (m := 0) (T := ∅)
      (by rw [expect_bar]; rfl)) $$ [HR Hlev Hc Ho Hat] [Hk]
  · isplitl [HR]; · iapply (inv_bar m ρ K c); iexact HR
    isplitl [Hc]; · iexact Hc
    isplitl [Ho]; · iexact Ho
    isplitl [Hlev]; · iapply (mayWait_bar c); iexact Hlev
    iexact Hat
  · iintro ⟨Ho, Hat, -, Hpay⟩
    iapply Hk
    isplitl [Ho]; · iexact Ho
    isplitl [Hat]; · iexact Hat
    iapply (Entails.of_eq (rest_bar m ρ c)); iexact Hpay

/-- The wait for the y-neighbour's chunk `i`, owing nothing: the device comes back with the rectangle the chunk landed in. -/
theorem wait_yr (c : Dev nD) (i : Fin 32) (W : Waits sig Unit) (k : PUnit → PB F) (Q : PUnit → sProp 𝕄) :
    iprop(records m ρ K ∗ cred (tallyAt (yrCell c i) () NC) ∗ owes (c : Thread nD τ) 0 W ∗ atPos ER (yrCell c i) 0 ∅ 0)
      ⊢ iprop(((owes (c : Thread nD τ) 0 (insert (SemLoc.dma (yrS i), ()) W) ∗ atPos ER (yrCell c i) 1 ∅ 0 ∗ yrPay m ρ c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (yrS i) (yM c i) (yM c i) (View.wordExact_bits rfl) (View.wordExact_bits rfl)) k) Q) := by
  iintro ⟨HR, Hc, Ho, Hat⟩ Hk
  iapply (wp_wait_rest_token 𝒱₀ ER (sched m ρ) (c : Thread nD τ) none (wpE_waitDma2_eq 𝒱₀ (c : Thread nD τ) none Set.univ)
      (Set.mem_univ (K (c, kyr i))) () (R := 0) (m := 0) (T := ∅)
      (by rw [waitCredit_yM, expect_yr, Nat.zero_add])) $$ [HR Hc Ho Hat] [Hk]
  · isplitl [HR]; · iapply (inv_yr m ρ K c i); iexact HR
    isplitl [Hc]; · iexact Hc
    isplitl [Ho]; · iexact Ho
    isplitr; · rw [MayWait_zero]; iempintro
    iexact Hat
  · iintro ⟨Ho, Hat, -, Hpay⟩
    iapply Hk
    isplitl [Ho]; · iexact Ho
    isplitl [Hat]; · iexact Hat
    iapply (Entails.of_eq (rest_yr m ρ c i)); iexact Hpay

/-- The wait for x-copy `i` to have left, owing nothing: the device gets its source rectangle back. -/
theorem wait_xs (c : Dev nD) (i : Fin 32) (W : Waits sig Unit) (k : PUnit → PB F) (Q : PUnit → sProp 𝕄) :
    iprop(records m ρ K ∗ cred (tallyAt (xsCell c i) () NC) ∗ owes (c : Thread nD τ) 0 W ∗ atPos ER (xsCell c i) 0 ∅ 0)
      ⊢ iprop(((owes (c : Thread nD τ) 0 (insert (SemLoc.dma (xsS i), ()) W) ∗ atPos ER (xsCell c i) 1 ∅ 0 ∗ xsPay m ρ c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (xsS i) (xdstM c i) (xsrcM c i) (View.wordExact_bits rfl) (View.wordExact_bits rfl)) k) Q) := by
  iintro ⟨HR, Hc, Ho, Hat⟩ Hk
  iapply (wp_wait_rest_token 𝒱₀ ER (sched m ρ) (c : Thread nD τ) none (wpE_waitDma2_eq 𝒱₀ (c : Thread nD τ) none Set.univ)
      (Set.mem_univ (K (c, kxs i))) () (R := 0) (m := 0) (T := ∅)
      (by rw [waitCredit_xsrcM, expect_xs, Nat.zero_add])) $$ [HR Hc Ho Hat] [Hk]
  · isplitl [HR]; · iapply (inv_xs m ρ K c i); iexact HR
    isplitl [Hc]; · iexact Hc
    isplitl [Ho]; · iexact Ho
    isplitr; · rw [MayWait_zero]; iempintro
    iexact Hat
  · iintro ⟨Ho, Hat, -, Hpay⟩
    iapply Hk
    isplitl [Ho]; · iexact Ho
    isplitl [Hat]; · iexact Hat
    iapply (Entails.of_eq (rest_xs m ρ c i)); iexact Hpay

/-- The wait for y-copy `i` to have left, owing nothing: the device gets its source rectangle back. -/
theorem wait_ys (c : Dev nD) (i : Fin 32) (W : Waits sig Unit) (k : PUnit → PB F) (Q : PUnit → sProp 𝕄) :
    iprop(records m ρ K ∗ cred (tallyAt (ysCell c i) () NC) ∗ owes (c : Thread nD τ) 0 W ∗ atPos ER (ysCell c i) 0 ∅ 0)
      ⊢ iprop(((owes (c : Thread nD τ) 0 (insert (SemLoc.dma (ysS i), ()) W) ∗ atPos ER (ysCell c i) 1 ∅ 0 ∗ ysPay m ρ c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ysS i) (yM c i) (yM c i) (View.wordExact_bits rfl) (View.wordExact_bits rfl)) k) Q) := by
  iintro ⟨HR, Hc, Ho, Hat⟩ Hk
  iapply (wp_wait_rest_token 𝒱₀ ER (sched m ρ) (c : Thread nD τ) none (wpE_waitDma2_eq 𝒱₀ (c : Thread nD τ) none Set.univ)
      (Set.mem_univ (K (c, kys i))) () (R := 0) (m := 0) (T := ∅)
      (by rw [waitCredit_yM, expect_ys, Nat.zero_add])) $$ [HR Hc Ho Hat] [Hk]
  · isplitl [HR]; · iapply (inv_ys m ρ K c i); iexact HR
    isplitl [Hc]; · iexact Hc
    isplitl [Ho]; · iexact Ho
    isplitr; · rw [MayWait_zero]; iempintro
    iexact Hat
  · iintro ⟨Ho, Hat, -, Hpay⟩
    iapply Hk
    isplitl [Ho]; · iexact Ho
    isplitl [Hat]; · iexact Hat
    iapply (Entails.of_eq (rest_ys m ρ c i)); iexact Hpay

/-- The wait for the local copy, owing nothing: the device gets both of its rectangles back. -/
theorem wait_loc (c : Dev nD) (W : Waits sig Unit) (k : PUnit → PB F) (Q : PUnit → sProp 𝕄) :
    iprop(records m ρ K ∗ cred (tallyAt (locCell c) () NL) ∗ owes (c : Thread nD τ) 0 W ∗ atPos ER (locCell c) 0 ∅ 0)
      ⊢ iprop(((owes (c : Thread nD τ) 0 (insert (SemLoc.dma locS, ()) W) ∗ atPos ER (locCell c) 1 ∅ 0 ∗ locPay m ρ c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 locS (lsrcM c) (ldstM c) (View.wordExact_bits rfl) (View.wordExact_bits rfl)) k) Q) := by
  iintro ⟨HR, Hc, Ho, Hat⟩ Hk
  iapply (wp_wait_rest_token 𝒱₀ ER (sched m ρ) (c : Thread nD τ) none (wpE_waitDma2_eq 𝒱₀ (c : Thread nD τ) none Set.univ)
      (Set.mem_univ (K (c, kloc))) () (R := 0) (m := 0) (T := ∅)
      (by rw [waitCredit_ldstM, expect_loc, Nat.zero_add])) $$ [HR Hc Ho Hat] [Hk]
  · isplitl [HR]; · iapply (inv_loc m ρ K c); iexact HR
    isplitl [Hc]; · iexact Hc
    isplitl [Ho]; · iexact Ho
    isplitr; · rw [MayWait_zero]; iempintro
    iexact Hat
  · iintro ⟨Ho, Hat, -, Hpay⟩
    iapply Hk
    isplitl [Ho]; · iexact Ho
    isplitl [Hat]; · iexact Hat
    iapply (Entails.of_eq (rest_loc m ρ c)); iexact Hpay

/-! ## The two signals of the entry handshake -/

theorem dev1_eq (c : Dev nD) : (⟨k0_dev1 c, k0_dev1_lt c⟩ : Dev nD) = xn c := Fin.ext (k0_dev1_eq c)
theorem dev2_eq (c : Dev nD) : (⟨k0_dev2 c, k0_dev2_lt c⟩ : Dev nD) = yn c := Fin.ext (k0_dev2_eq c)

/-- The first signal, to the x-neighbour: it pays that barrier cell's duty `false` with the 32 rectangles the neighbour's
    x-copies fill, and takes the last summand off what the device owes. -/
theorem sig_x (c : Dev nD) (W : Waits sig Unit) (k : PUnit → PB F) (Q : PUnit → sProp 𝕄) :
    iprop(records m ρ K ∗ owes (c : Thread nD τ) (O₀ c) W ∗ dutyTok ER (barCell (xn c)) 0 false ∗ barPayX (xn c))
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((⟨k0_dev1 c, k0_dev1_lt c⟩ : Dev nD), Proc.tc) barS (1#32).toNat) k) Q) := by
  rw [dev1_eq]
  iintro ⟨#HR, Ho, Htok, Hpay⟩ Hk
  iapply (wp_signal 𝒱₀ ER (sched m ρ) (c : Thread nD τ) none (dst := ((xn c : Dev nD) : Thread nD τ)) (sem := barS) (r := 0) (d := false)
      (κ := K (xn c, kbar)) (by rw [duties_bar]; exact Finset.mem_univ _) (by rw [amount_bar]; rfl) () (O₁ c) rfl) $$ [Ho Htok Hpay] [Hk]
  · isplitr; · iapply (inv_bar m ρ K (xn c)); iexact HR
    isplitl [Ho]; · iexact Ho
    isplitl [Htok]; · iexact Htok
    isplitl [Hpay]; · iapply (Entails.of_eq (payload_bar_false m ρ (xn c)).symm); iexact Hpay
    iapply (rch_bar m ρ K (xn c)); iexact HR
  · iexact Hk

/-- The second signal, to the y-neighbour: duty `true` of that barrier cell, with the 32 rectangles the neighbour's y-copies fill. -/
theorem sig_y (c : Dev nD) (W : Waits sig Unit) (k : PUnit → PB F) (Q : PUnit → sProp 𝕄) :
    iprop(records m ρ K ∗ owes (c : Thread nD τ) (O₁ c) W ∗ dutyTok ER (barCell (yn c)) 0 true ∗ barPayY (yn c))
      ⊢ iprop((owes (c : Thread nD τ) (oY c 0 + oX c 0) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((⟨k0_dev2 c, k0_dev2_lt c⟩ : Dev nD), Proc.tc) barS (1#32).toNat) k) Q) := by
  rw [dev2_eq]
  iintro ⟨#HR, Ho, Htok, Hpay⟩ Hk
  iapply (wp_signal 𝒱₀ ER (sched m ρ) (c : Thread nD τ) none (dst := ((yn c : Dev nD) : Thread nD τ)) (sem := barS) (r := 0) (d := true)
      (κ := K (yn c, kbar)) (by rw [duties_bar]; exact Finset.mem_univ _) (by rw [amount_bar]; rfl) () (oY c 0 + oX c 0) rfl) $$ [Ho Htok Hpay] [Hk]
  · isplitr; · iapply (inv_bar m ρ K (yn c)); iexact HR
    isplitl [Ho]; · iexact Ho
    isplitl [Htok]; · iexact Htok
    isplitl [Hpay]; · iapply (Entails.of_eq (payload_bar_true m ρ (yn c)).symm); iexact Hpay
    iapply (rch_bar m ρ K (yn c)); iexact HR
  · iexact Hk

/-! ## Closing the device's own DMA cells -/

omit [FloatOps F] in
theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans ((Entails.of_eq (bigSep_sep' S (fun _ => R) Φ).symm).trans (bigSep_mono h))

omit [FloatOps F] in
theorem close1_xs (c : Dev nD) (i : Fin 32) : iprop(records m ρ K ∗ atPos ER (xsCell c i) 1 ∅ 0) ⊢ |={Set.univ}=> semVal (xsCell c i) 0 :=
  (sep_mono_left (inv_xs m ρ K c i)).trans
    (cell_close ER (sched m ρ) (Set.mem_univ (K (c, kxs i))) (not_unitless m ρ _) (R := 1) (duties_later m ρ _))
omit [FloatOps F] in
/-- Every cell of the family has no round after round 0, so the owner, at round 1 of each, closes them all. -/
theorem close_xs (c : Dev nD) :
    iprop(records m ρ K ∗ bigSep Finset.univ fun i : Fin 32 => atPos ER (xsCell c i) 1 ∅ 0)
      ⊢ |={Set.univ}=> bigSep Finset.univ fun i : Fin 32 => semVal (xsCell c i) 0 :=
  (bigSep_under fun i _ => close1_xs m ρ K c i).trans (bigSep_fupd _ _)

omit [FloatOps F] in
theorem close1_xr (c : Dev nD) (i : Fin 32) : iprop(records m ρ K ∗ atPos ER (xrCell c i) 1 ∅ 0) ⊢ |={Set.univ}=> semVal (xrCell c i) 0 :=
  (sep_mono_left (inv_xr m ρ K c i)).trans
    (cell_close ER (sched m ρ) (Set.mem_univ (K (c, kxr i))) (not_unitless m ρ _) (R := 1) (duties_later m ρ _))
omit [FloatOps F] in
/-- Every cell of the family has no round after round 0, so the owner, at round 1 of each, closes them all. -/
theorem close_xr (c : Dev nD) :
    iprop(records m ρ K ∗ bigSep Finset.univ fun i : Fin 32 => atPos ER (xrCell c i) 1 ∅ 0)
      ⊢ |={Set.univ}=> bigSep Finset.univ fun i : Fin 32 => semVal (xrCell c i) 0 :=
  (bigSep_under fun i _ => close1_xr m ρ K c i).trans (bigSep_fupd _ _)

omit [FloatOps F] in
theorem close1_ys (c : Dev nD) (i : Fin 32) : iprop(records m ρ K ∗ atPos ER (ysCell c i) 1 ∅ 0) ⊢ |={Set.univ}=> semVal (ysCell c i) 0 :=
  (sep_mono_left (inv_ys m ρ K c i)).trans
    (cell_close ER (sched m ρ) (Set.mem_univ (K (c, kys i))) (not_unitless m ρ _) (R := 1) (duties_later m ρ _))
omit [FloatOps F] in
/-- Every cell of the family has no round after round 0, so the owner, at round 1 of each, closes them all. -/
theorem close_ys (c : Dev nD) :
    iprop(records m ρ K ∗ bigSep Finset.univ fun i : Fin 32 => atPos ER (ysCell c i) 1 ∅ 0)
      ⊢ |={Set.univ}=> bigSep Finset.univ fun i : Fin 32 => semVal (ysCell c i) 0 :=
  (bigSep_under fun i _ => close1_ys m ρ K c i).trans (bigSep_fupd _ _)

omit [FloatOps F] in
theorem close1_yr (c : Dev nD) (i : Fin 32) : iprop(records m ρ K ∗ atPos ER (yrCell c i) 1 ∅ 0) ⊢ |={Set.univ}=> semVal (yrCell c i) 0 :=
  (sep_mono_left (inv_yr m ρ K c i)).trans
    (cell_close ER (sched m ρ) (Set.mem_univ (K (c, kyr i))) (not_unitless m ρ _) (R := 1) (duties_later m ρ _))
omit [FloatOps F] in
/-- Every cell of the family has no round after round 0, so the owner, at round 1 of each, closes them all. -/
theorem close_yr (c : Dev nD) :
    iprop(records m ρ K ∗ bigSep Finset.univ fun i : Fin 32 => atPos ER (yrCell c i) 1 ∅ 0)
      ⊢ |={Set.univ}=> bigSep Finset.univ fun i : Fin 32 => semVal (yrCell c i) 0 :=
  (bigSep_under fun i _ => close1_yr m ρ K c i).trans (bigSep_fupd _ _)

omit [FloatOps F] in
theorem close_loc (c : Dev nD) : iprop(records m ρ K ∗ atPos ER (locCell c) 1 ∅ 0) ⊢ |={Set.univ}=> semVal (locCell c) 0 :=
  (sep_mono_left (inv_loc m ρ K c)).trans
    (cell_close ER (sched m ρ) (Set.mem_univ (K (c, kloc))) (not_unitless m ρ _) (R := 1) (duties_later m ρ _))

end Cert.KernelIdeal.A2A
end
-- ==== Proof.Phases.lean ====
import proofs.«900015_g7700000000000016_dist_a2a_v7x_xy2x2_x_m2048_n512_f32_1_alg».proof.Proof.Seq
import proofs.«900015_g7700000000000016_dist_a2a_v7x_xy2x2_x_m2048_n512_f32_1_alg».proof.Proof.Access
import proofs.«900015_g7700000000000016_dist_a2a_v7x_xy2x2_x_m2048_n512_f32_1_alg».proof.Proof.Levels
import proofs.«900015_g7700000000000016_dist_a2a_v7x_xy2x2_x_m2048_n512_f32_1_alg».proof.Proof.StepsEnq
import proofs.«900015_g7700000000000016_dist_a2a_v7x_xy2x2_x_m2048_n512_f32_1_alg».proof.Proof.StepsWait
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.SL.BI.Stretch

variable (K : Dev nD × Fin 130 → ℕ) (c : Dev nD)

/-! ## The state between the chunks of each stretch

Each is stated over what the stretch still needs (the chunks from `n` on) and what it has produced (the chunks below
`n`); the invariants' records and the level facts are persistent and travel with every state. -/

/-- Before the x-copy of chunk `n`: the source rectangles and the x-neighbour's landing rectangles of the chunks to come
    with the two duty tokens of each; the send cells' credit of the copies already started. -/
def S1 (n : ℕ) : sProp 𝕄 :=
  iprop(records m ρ K
    ∗ (∃ W, owes (c : Thread nD τ) (oY c 0 + oX c n) W)
    ∗ bigSep (geS 32 n) (fun i => iprop(xsPts m ρ c i ∗ (∃ f, oPts (xn c) (xn c) i f)
        ∗ dutyTok ER (xsCell c i) 0 false ∗ dutyTok ER (xrCell (xn c) i) 0 false))
    ∗ bigSep (ltS 32 n) (fun i => cred (tallyAt (xsCell c i) () NC)))

/-- Before the receive wait of chunk `n`: per chunk to come, the receive cell's credit and position, the y-neighbour's
    landing rectangle and the y-copy's two tokens; per chunk done, the receive cell passed and the y-send cell's credit. -/
def S3 (n : ℕ) : sProp 𝕄 :=
  iprop(records m ρ K ∗ levAts L lv
    ∗ (∃ W, owes (c : Thread nD τ) (oY c n) W)
    ∗ bigSep (geS 32 n) (fun i => iprop(cred (tallyAt (xrCell c i) () NC) ∗ atPos ER (xrCell c i) 0 ∅ 0
        ∗ (∃ f, oPts (yn c) c i f) ∗ dutyTok ER (ysCell c i) 0 false ∗ dutyTok ER (yrCell (yn c) i) 0 false))
    ∗ bigSep (ltS 32 n) (fun i => iprop(atPos ER (xrCell c i) 1 ∅ 0 ∗ cred (tallyAt (ysCell c i) () NC))))

/-- Before the three closing waits of chunk `n`: per chunk to come, the three cells' credit and positions; per chunk
    done, the three cells passed, with the y-landing rectangle, the x-source rectangle and the forwarded rectangle back. -/
def S4 (n : ℕ) : sProp 𝕄 :=
  iprop(records m ρ K
    ∗ (∃ W, owes (c : Thread nD τ) 0 W)
    ∗ bigSep (geS 32 n) (fun i => iprop(cred (tallyAt (yrCell c i) () NC) ∗ atPos ER (yrCell c i) 0 ∅ 0
        ∗ cred (tallyAt (xsCell c i) () NC) ∗ atPos ER (xsCell c i) 0 ∅ 0
        ∗ cred (tallyAt (ysCell c i) () NC) ∗ atPos ER (ysCell c i) 0 ∅ 0))
    ∗ bigSep (ltS 32 n) (fun i => iprop(atPos ER (yrCell c i) 1 ∅ 0 ∗ yrPay m ρ c i
        ∗ atPos ER (xsCell c i) 1 ∅ 0 ∗ xsPay m ρ c i
        ∗ atPos ER (ysCell c i) 1 ∅ 0 ∗ ysPay m ρ c i)))

local notation "WP" => wp frame (wpE (defs₀ (F := F)) 𝒱₀ c none) Set.univ

theorem step1 (i : Fin 32) (rest : PB F) (Q : PUnit → sProp 𝕄) :
    iprop(S1 m ρ K c i.val ∗ (S1 m ρ K c (i.val + 1) -∗ WP rest Q)) ⊢ WP (xEnq c i rest) Q := by
  unfold S1
  rw [bigSep_geS_peel i, bigSep_ltS_push i]
  iintro ⟨⟨#HR, ⟨%W, HO⟩, ⟨⟨Hs, ⟨%fn, Hd⟩, Ht1, Ht2⟩, Hrest⟩, Hdone⟩, Hk⟩
  iapply (wp_xenq m ρ K c i fn W rest Q) $$ [HO Hs Hd Ht1 Ht2]
  · isplitr; · iexact HR
    isplitl [Hs]; · iexact Hs
    isplitl [Hd]; · iexact Hd
    isplitl [HO]; · iexact HO
    isplitl [Ht1]; · iexact Ht1
    iexact Ht2
  iintro ⟨Hc, HO⟩
  iapply Hk
  isplitr; · iexact HR
  isplitl [HO]; · iexists W; iexact HO
  isplitl [Hrest]; · iexact Hrest
  isplitl [Hc]; · iexact Hc
  iexact Hdone

theorem step3 (i : Fin 32) (rest : PB F) (Q : PUnit → sProp 𝕄) :
    iprop(S3 m ρ K c i.val ∗ (S3 m ρ K c (i.val + 1) -∗ WP rest Q)) ⊢ WP (yStep c i rest) Q := by
  unfold S3 yStep
  rw [bigSep_geS_peel i, bigSep_ltS_push i]
  iintro ⟨⟨#HR, #Hlev, ⟨%W, HO⟩, ⟨⟨Hc, Hat, ⟨%fn, Hd⟩, Ht1, Ht2⟩, Hrest⟩, Hdone⟩, Hk⟩
  iapply (wait_xr m ρ K c i W _ Q) $$ [Hc HO Hat]
  · isplitr; · iexact HR
    isplitr; · iexact Hlev
    isplitl [Hc]; · iexact Hc
    isplitl [HO]; · iexact HO
    iexact Hat
  iintro ⟨HO, Hat, Hpay⟩
  unfold xrPay
  iapply (wp_yenq m ρ K c i fn _ _ Q) $$ [Hpay Hd HO Ht1 Ht2]
  · isplitr; · iexact HR
    isplitl [Hpay]; · iexact Hpay
    isplitl [Hd]; · iexact Hd
    isplitl [HO]; · iexact HO
    isplitl [Ht1]; · iexact Ht1
    iexact Ht2
  iintro ⟨Hcy, HO⟩
  iapply Hk
  isplitr; · iexact HR
  isplitr; · iexact Hlev
  isplitl [HO]; · iexists _; iexact HO
  isplitl [Hrest]; · iexact Hrest
  isplitl [Hat Hcy]
  · isplitl [Hat]; · iexact Hat
    iexact Hcy
  iexact Hdone

theorem step4 (i : Fin 32) (rest : PB F) (Q : PUnit → sProp 𝕄) :
    iprop(S4 m ρ K c i.val ∗ (S4 m ρ K c (i.val + 1) -∗ WP rest Q)) ⊢ WP (wStep c i rest) Q := by
  unfold S4 wStep
  rw [bigSep_geS_peel i, bigSep_ltS_push i]
  iintro ⟨⟨#HR, ⟨%W, HO⟩, ⟨⟨Hc1, Ha1, Hc2, Ha2, Hc3, Ha3⟩, Hrest⟩, Hdone⟩, Hk⟩
  iapply (wait_yr m ρ K c i W _ Q) $$ [Hc1 HO Ha1]
  · isplitr; · iexact HR
    isplitl [Hc1]; · iexact Hc1
    isplitl [HO]; · iexact HO
    iexact Ha1
  iintro ⟨HO, Ha1, Hp1⟩
  iapply (wait_xs m ρ K c i _ _ Q) $$ [Hc2 HO Ha2]
  · isplitr; · iexact HR
    isplitl [Hc2]; · iexact Hc2
    isplitl [HO]; · iexact HO
    iexact Ha2
  iintro ⟨HO, Ha2, Hp2⟩
  iapply (wait_ys m ρ K c i _ _ Q) $$ [Hc3 HO Ha3]
  · isplitr; · iexact HR
    isplitl [Hc3]; · iexact Hc3
    isplitl [HO]; · iexact HO
    iexact Ha3
  iintro ⟨HO, Ha3, Hp3⟩
  iapply Hk
  isplitr; · iexact HR
  isplitl [HO]; · iexists _; iexact HO
  isplitl [Hrest]; · iexact Hrest
  isplitl [Ha1 Hp1 Ha2 Hp2 Ha3 Hp3]
  · isplitl [Ha1]; · iexact Ha1
    isplitl [Hp1]; · iexact Hp1
    isplitl [Ha2]; · iexact Ha2
    isplitl [Hp2]; · iexact Hp2
    isplitl [Ha3]; · iexact Ha3
    iexact Hp3
  iexact Hdone

end Cert.KernelIdeal.A2A
end
-- ==== Proof.Regions.lean ====
import proofs.«900015_g7700000000000016_dist_a2a_v7x_xy2x2_x_m2048_n512_f32_1_alg».proof.Proof.Sched
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A points-to over a finite family of pairwise disjoint element sets -/

omit [FloatOps F] in
/-- Ownership of a union of pairwise disjoint element sets, indexed by a finite type, is the separating
    conjunction of the ownerships of the sets. -/
theorem pointsTo_iUnion_eq {ι : Type} [Fintype ι] {ℓ : Loc nD τ sig} {q : PosShare TreeShare} (f : Buf (Elt F) ℓ)
    (I : ι → Finset (Idx ℓ)) (h : ∀ j k, j ≠ k → Disjoint (I j) (I k)) :
    (ℓ ↦[Finset.univ.biUnion I]{q} f : sProp 𝕄) = bigSep Finset.univ fun k => ℓ ↦[I k]{q} f :=
  pointsTo_biUnion Finset.univ I fun j _ k _ hjk => h j k hjk

omit [FloatOps F] in
theorem pointsTo_iUnion {ι : Type} [Fintype ι] {ℓ : Loc nD τ sig} {q : PosShare TreeShare} (f : Buf (Elt F) ℓ)
    (I : ι → Finset (Idx ℓ)) (h : ∀ j k, j ≠ k → Disjoint (I j) (I k)) :
    (ℓ ↦[Finset.univ.biUnion I]{q} f : sProp 𝕄) ⊣⊢ bigSep Finset.univ fun k => ℓ ↦[I k]{q} f := by
  rw [pointsTo_iUnion_eq f I h]

omit [FloatOps F] in
theorem pointsTo_union_eq {ℓ : Loc nD τ sig} {I J : Finset (Idx ℓ)} {q : PosShare TreeShare} {f : Buf (Elt F) ℓ}
    (h : Disjoint I J) : (ℓ ↦[I ∪ J]{q} f : sProp 𝕄) = iprop((ℓ ↦[I]{q} f) ∗ ℓ ↦[J]{q} f) :=
  BI.equiv_iff.mp ⟨(pointsTo_union h).1, (pointsTo_union h).2⟩

omit [FloatOps F] in
theorem pointsTo_compl_eq {ℓ : Loc nD τ sig} (I : Finset (Idx ℓ)) {q : PosShare TreeShare} {f : Buf (Elt F) ℓ} :
    (ℓ ↦{q} f : sProp 𝕄) = iprop((ℓ ↦[I]{q} f) ∗ ℓ ↦[Finset.univ \ I]{q} f) :=
  BI.equiv_iff.mp ⟨(pointsTo_split_subset (Finset.subset_univ I)).1, (pointsTo_split_subset (Finset.subset_univ I)).2⟩

/-! ## The x-copy's destination is a rectangle of the receiver's X-landing half -/

theorem off1_eq_off5 (c : Dev nD) (i : Fin 32) : k0_off1 c (cw i) = k0_off5 (xn c) (cw i) := by
  rw [k0_off1_eq c i, k0_off5_eq (xn c) i]
  have hc := c.isLt
  simp only [nD] at hc
  have e : 2048 * (c.val / 2) + 1024 * (c.val % 2) + 32 * i.val
      = (1024 * ((xn c).val % 2) + 32 * i.val + 2048) - 2048 * ((xn c).val / 2) := by
    simp only [xn]; omega
  rw [e]

/-- The destination of device `c`'s x-copy of chunk `i`, a rectangle of the result buffer in the sender's
    coordinates, is rectangle `i` of the half of the x-neighbour's result buffer that the x-copies fill. -/
theorem xdst_eq (c : Dev nD) (i : Fin 32) : xdstM c i = yM (xn c) i :=
  Memref.slice_unit_congr oM (off1_eq_off5 c i) _ _ _ _

/-! ## The rectangles as sets of elements, and membership by row and column -/

/-- Elements of the result buffer under the local copy's destination. -/
def ldstSet (c : Dev nD) : Finset S4096x512.Idx := (ldstM c).view.set
/-- Elements of the result buffer under rectangle `yM c i`. -/
def ySet (c : Dev nD) (i : Fin 32) : Finset S4096x512.Idx := (yM c i).view.set
/-- Elements of the input buffer under the local copy's source. -/
def lsrcSet (c : Dev nD) : Finset S2048x1024.Idx := (lsrcM c).view.set
/-- Elements of the input buffer under the source of x-copy `i`. -/
def xsrcSet (c : Dev nD) (i : Fin 32) : Finset S2048x1024.Idx := (xsrcM c i).view.set

theorem mem_oslice {off size : Fin S4096x512.rank → ℕ} {inb} {hs} {idx : S4096x512.Idx} :
    idx ∈ (oM.slice (Rect.unit (s := S4096x512) off size inb) hs).view.set ↔
      (off 0 ≤ (idx 0).val ∧ (idx 0).val < off 0 + size 0) ∧ (off 1 ≤ (idx 1).val ∧ (idx 1).val < off 1 + size 1) :=
  (Finset.ext_iff.mp (View.set_slice_whole cc0_stg1_0 (Rect.unit (s := S4096x512) off size inb)) idx).trans
    (Rect.mem_set_unit.trans Fin.forall_fin_two)

theorem mem_xslice {off size : Fin S2048x1024.rank → ℕ} {inb} {hs} {idx : S2048x1024.Idx} :
    idx ∈ (xM.slice (Rect.unit (s := S2048x1024) off size inb) hs).view.set ↔
      (off 0 ≤ (idx 0).val ∧ (idx 0).val < off 0 + size 0) ∧ (off 1 ≤ (idx 1).val ∧ (idx 1).val < off 1 + size 1) :=
  (Finset.ext_iff.mp (View.set_slice_whole cc0_stg0_0 (Rect.unit (s := S2048x1024) off size inb)) idx).trans
    (Rect.mem_set_unit.trans Fin.forall_fin_two)

/-- First row of rectangle `yM c i`. -/
def yRow (c : Dev nD) (i : Fin 32) : ℕ := (1024 * (c.val % 2) + 32 * i.val + 2048) - 2048 * (c.val / 2)

theorem mem_ldst (c : Dev nD) (idx : S4096x512.Idx) :
    idx ∈ ldstSet c ↔ 2048 * (c.val / 2) ≤ (idx 0).val ∧ (idx 0).val < 2048 * (c.val / 2) + 2048 := by
  have h1 : (idx 1).val < 512 := (idx 1).isLt
  unfold ldstSet
  rw [mem_oslice, k0_off3_eq c]
  show (2048 * (c.val / 2) ≤ (idx 0).val ∧ (idx 0).val < 2048 * (c.val / 2) + 2048) ∧ (0 ≤ (idx 1).val ∧ (idx 1).val < 0 + 512) ↔ _
  omega

theorem mem_yM (c : Dev nD) (i : Fin 32) (idx : S4096x512.Idx) :
    idx ∈ ySet c i ↔ yRow c i ≤ (idx 0).val ∧ (idx 0).val < yRow c i + 32 := by
  have h1 : (idx 1).val < 512 := (idx 1).isLt
  unfold ySet
  rw [mem_oslice, k0_off5_eq c i]
  show (yRow c i ≤ (idx 0).val ∧ (idx 0).val < yRow c i + 32) ∧ (0 ≤ (idx 1).val ∧ (idx 1).val < 0 + 512) ↔ _
  omega

theorem mem_lsrc (c : Dev nD) (idx : S2048x1024.Idx) :
    idx ∈ lsrcSet c ↔ 512 * (c.val / 2) ≤ (idx 1).val ∧ (idx 1).val < 512 * (c.val / 2) + 512 := by
  have h0 : (idx 0).val < 2048 := (idx 0).isLt
  unfold lsrcSet
  rw [mem_xslice, k0_off4_eq c]
  show (0 ≤ (idx 0).val ∧ (idx 0).val < 0 + 2048) ∧ (512 * (c.val / 2) ≤ (idx 1).val ∧ (idx 1).val < 512 * (c.val / 2) + 512) ↔ _
  omega

theorem mem_xsrc (c : Dev nD) (i : Fin 32) (idx : S2048x1024.Idx) :
    idx ∈ xsrcSet c i ↔
      (1024 * (c.val % 2) + 32 * i.val ≤ (idx 0).val ∧ (idx 0).val < 1024 * (c.val % 2) + 32 * i.val + 32) ∧
      (512 - 512 * (c.val / 2) ≤ (idx 1).val ∧ (idx 1).val < 512 - 512 * (c.val / 2) + 512) := by
  unfold xsrcSet
  rw [mem_xslice, k0_off2_eq c i]
  exact Iff.rfl

/-! ## Disjointness -/

theorem yM_disj (c : Dev nD) (i j : Fin 32) (h : i ≠ j) : Disjoint (ySet c i) (ySet c j) := by
  rw [Finset.disjoint_left]; intro idx hi hj
  rw [mem_yM] at hi hj
  have hc := c.isLt; simp only [nD] at hc
  have hij : i.val ≠ j.val := fun e => h (Fin.ext e)
  simp only [yRow] at hi hj; omega

theorem yM_disj_yn (c : Dev nD) (i j : Fin 32) : Disjoint (ySet c i) (ySet (yn c) j) := by
  rw [Finset.disjoint_left]; intro idx hi hj
  rw [mem_yM] at hi hj
  have hc := c.isLt; simp only [nD] at hc
  simp only [yRow, yn] at hi hj; omega

theorem ldst_disj_yM (c d : Dev nD) (hd : d.val / 2 = c.val / 2) (i : Fin 32) :
    Disjoint (ldstSet c) (ySet d i) := by
  rw [Finset.disjoint_left]; intro idx hi hj
  rw [mem_ldst] at hi; rw [mem_yM] at hj
  have hc := c.isLt; have hd' := d.isLt; simp only [nD] at hc hd'
  simp only [yRow] at hj; omega

theorem xsrc_disj (c : Dev nD) (i j : Fin 32) (h : i ≠ j) : Disjoint (xsrcSet c i) (xsrcSet c j) := by
  rw [Finset.disjoint_left]; intro idx hi hj
  rw [mem_xsrc] at hi hj
  have hij : i.val ≠ j.val := fun e => h (Fin.ext e)
  omega

theorem lsrc_disj_xsrc (c : Dev nD) (i : Fin 32) : Disjoint (lsrcSet c) (xsrcSet c i) := by
  rw [Finset.disjoint_left]; intro idx hi hj
  rw [mem_lsrc] at hi; rw [mem_xsrc] at hj
  have hc := c.isLt; simp only [nD] at hc
  omega

/-! ## The result buffer is its local half and the two families of 32 rectangles -/

theorem out_cover (c : Dev nD) :
    (Finset.univ : Finset S4096x512.Idx) =
      ldstSet c ∪ (Finset.univ.biUnion (ySet c) ∪ Finset.univ.biUnion (ySet (yn c))) := by
  ext idx
  simp only [Finset.mem_univ, Finset.mem_union, Finset.mem_biUnion, true_and, true_iff, mem_ldst, mem_yM]
  have hr : (idx 0).val < 4096 := (idx 0).isLt
  have hc := c.isLt; simp only [nD] at hc
  by_cases hA : 2048 * (c.val / 2) ≤ (idx 0).val ∧ (idx 0).val < 2048 * (c.val / 2) + 2048
  · exact Or.inl hA
  · right
    by_cases hB : ((idx 0).val / 1024) % 2 = c.val % 2
    · left
      exact ⟨⟨((idx 0).val % 1024) / 32, by omega⟩, by simp only [yRow]; omega⟩
    · right
      exact ⟨⟨((idx 0).val % 1024) / 32, by omega⟩, by simp only [yRow, yn]; omega⟩

/-! ## The two splits -/

/-- Device `c`'s result staging buffer and input staging buffer, as locations. -/
abbrev oLoc (c : Dev nD) : Loc nD τ sig := (c : Thread nD τ).loc cc0_stg1_0
abbrev xLoc (c : Dev nD) : Loc nD τ sig := (c : Thread nD τ).loc cc0_stg0_0

omit [FloatOps F] in
theorem out_split_eq (c : Dev nD) (f : Buf (Elt F) ((c : Thread nD τ).loc cc0_stg1_0)) :
    (((c : Thread nD τ).loc cc0_stg1_0 ↦{fullShare} f : sProp 𝕄)) =
      iprop(olPts c f ∗ (bigSep Finset.univ fun i : Fin 32 => oPts c c i f) ∗ (bigSep Finset.univ fun i : Fin 32 => oPts c (yn c) i f)) := by
  have hBC : Disjoint (Finset.univ.biUnion (ySet c)) (Finset.univ.biUnion (ySet (yn c))) := by
    rw [Finset.disjoint_biUnion_left]; intro i _
    rw [Finset.disjoint_biUnion_right]; intro j _
    exact yM_disj_yn c i j
  have hyn : (yn c).val / 2 = c.val / 2 := by
    have hc := c.isLt; simp only [nD] at hc; simp only [yn]; omega
  have hA : Disjoint (ldstSet c) (Finset.univ.biUnion (ySet c) ∪ Finset.univ.biUnion (ySet (yn c))) := by
    rw [Finset.disjoint_union_right, Finset.disjoint_biUnion_right, Finset.disjoint_biUnion_right]
    exact ⟨fun i _ => ldst_disj_yM c c rfl i, fun i _ => ldst_disj_yM c (yn c) hyn i⟩
  calc (oLoc c ↦{fullShare} f : sProp 𝕄)
      = (oLoc c ↦[ldstSet c ∪ (Finset.univ.biUnion (ySet c) ∪ Finset.univ.biUnion (ySet (yn c)))]{fullShare} f) :=
        congrArg (fun S => (oLoc c ↦[S]{fullShare} f : sProp 𝕄)) (out_cover c)
    _ = iprop((oLoc c ↦[ldstSet c]{fullShare} f) ∗
          (oLoc c ↦[Finset.univ.biUnion (ySet c) ∪ Finset.univ.biUnion (ySet (yn c))]{fullShare} f)) :=
        pointsTo_union_eq hA
    _ = iprop((oLoc c ↦[ldstSet c]{fullShare} f) ∗
          (bigSep Finset.univ fun i : Fin 32 => oLoc c ↦[ySet c i]{fullShare} f) ∗
          (bigSep Finset.univ fun i : Fin 32 => oLoc c ↦[ySet (yn c) i]{fullShare} f)) := by
        rw [pointsTo_union_eq hBC, pointsTo_iUnion_eq f (ySet c) (yM_disj c),
          pointsTo_iUnion_eq f (ySet (yn c)) (yM_disj (yn c))]
    _ = _ := rfl

omit [FloatOps F] in
/-- The result staging buffer of device `c`, at any contents, is the destination of its local copy, the 32
    rectangles its x-neighbour's copies fill, and the 32 rectangles its y-neighbour's copies fill. -/
theorem out_split (c : Dev nD) (f : Buf (Elt F) ((c : Thread nD τ).loc cc0_stg1_0)) :
    (((c : Thread nD τ).loc cc0_stg1_0 ↦{fullShare} f : sProp 𝕄)) ⊣⊢
      iprop(olPts c f ∗ (bigSep Finset.univ fun i : Fin 32 => oPts c c i f) ∗ (bigSep Finset.univ fun i : Fin 32 => oPts c (yn c) i f)) := by
  rw [out_split_eq c f]

omit [FloatOps F] in
theorem sep_assoc_eq (P Q R : sProp 𝕄) : iprop((P ∗ Q) ∗ R) = iprop(P ∗ Q ∗ R) := by
  have h : iprop((P ∗ Q) ∗ R) ⊣⊢ iprop(P ∗ Q ∗ R) := sep_assoc
  exact BI.equiv_iff.mp ⟨h.1, h.2⟩

/-- The unused quarter of the input buffer: what neither the local copy nor an x-copy reads. -/
def xrestSet (c : Dev nD) : Finset S2048x1024.Idx :=
  Finset.univ \ (lsrcSet c ∪ Finset.univ.biUnion (xsrcSet c))

/-- Ownership of that quarter of `c`'s input buffer, at its block of `x`. -/
def xrestPts (c : Dev nD) : sProp 𝕄 :=
  (c : Thread nD τ).loc cc0_stg0_0 ↦[xrestSet c]{fullShare} xstg m ρ c

theorem in_split_eq (c : Dev nD) :
    (((c : Thread nD τ).loc cc0_stg0_0 ↦{fullShare} xstg m ρ c : sProp 𝕄)) =
      iprop(xlPts m ρ c ∗ (bigSep Finset.univ fun i : Fin 32 => xsPts m ρ c i) ∗ xrestPts m ρ c) := by
  have hA : Disjoint (lsrcSet c) (Finset.univ.biUnion (xsrcSet c)) := by
    rw [Finset.disjoint_biUnion_right]; exact fun i _ => lsrc_disj_xsrc c i
  calc (xLoc c ↦{fullShare} xstg m ρ c : sProp 𝕄)
      = iprop((xLoc c ↦[lsrcSet c ∪ Finset.univ.biUnion (xsrcSet c)]{fullShare} xstg m ρ c) ∗
          (xLoc c ↦[xrestSet c]{fullShare} xstg m ρ c)) := pointsTo_compl_eq _
    _ = iprop(((xLoc c ↦[lsrcSet c]{fullShare} xstg m ρ c) ∗
          (bigSep Finset.univ fun i : Fin 32 => xLoc c ↦[xsrcSet c i]{fullShare} xstg m ρ c)) ∗
          (xLoc c ↦[xrestSet c]{fullShare} xstg m ρ c)) := by
        rw [pointsTo_union_eq hA, pointsTo_iUnion_eq (ℓ := xLoc c) (xstg m ρ c) (xsrcSet c) (xsrc_disj c)]
    _ = _ := sep_assoc_eq _ _ _

/-- The input staging buffer of device `c`, at its block of `x`, is the local copy's source, the 32 sources of
    its x-copies, and the quarter no copy reads. -/
theorem in_split (c : Dev nD) :
    (((c : Thread nD τ).loc cc0_stg0_0 ↦{fullShare} xstg m ρ c : sProp 𝕄)) ⊣⊢
      iprop(xlPts m ρ c ∗ (bigSep Finset.univ fun i : Fin 32 => xsPts m ρ c i) ∗ xrestPts m ρ c) := by
  rw [in_split_eq m ρ c]

/-! ## `xdst_eq` on element sets -/

theorem xdst_set_eq (c : Dev nD) (i : Fin 32) :
    ((xdstM c i).view.set : Finset S4096x512.Idx) = (yM (xn c) i).view.set := by
  ext idx
  rw [mem_oslice, mem_oslice, off1_eq_off5 c i]

/-! ## Every rectangle of the result buffer lives in the result buffer of the thread that addresses it -/

theorem xdst_loc (c : Dev nD) (i : Fin 32) (t : Dev nD) :
    (xdstM c i).view.loc (t : Thread nD τ) = (t : Thread nD τ).loc cc0_stg1_0 := rfl

theorem yM_loc (c : Dev nD) (i : Fin 32) (t : Dev nD) :
    (yM c i).view.loc (t : Thread nD τ) = (t : Thread nD τ).loc cc0_stg1_0 := rfl

theorem xdst_loc_eq (c : Dev nD) (i : Fin 32) (t : Dev nD) :
    (xdstM c i).view.loc (t : Thread nD τ) = (yM (xn c) i).view.loc (t : Thread nD τ) :=
  (xdst_loc c i t).trans (yM_loc (xn c) i t).symm

/-- Ownership of rectangle `yM c i` of thread `t`'s result buffer, over the element set `ySet c i`. -/
theorem oPts_eq (t c : Dev nD) (i : Fin 32) (f : Buf (Elt F) ((t : Thread nD τ).loc cc0_stg1_0)) :
    oPts (F := F) t c i f = ((t : Thread nD τ).loc cc0_stg1_0 ↦[ySet c i]{fullShare} f) := rfl

end Cert.KernelIdeal.A2A
end
-- ==== Proof.Head.lean ====
import proofs.«900015_g7700000000000016_dist_a2a_v7x_xy2x2_x_m2048_n512_f32_1_alg».proof.Proof.Prog
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's head: the two barrier signals and the barrier wait -/

/-- The first signal: one unit to the barrier semaphore of the device the kernel computes first (the x-neighbour). -/
def sigXOp (c : Dev nD) : TpuEff nD τ sig (Elt F) Λ₀ .tc PUnit :=
  .semSignal ((⟨k0_dev1 c, k0_dev1_lt c⟩ : Dev nD), Proc.tc) barS (1#32 : BitVec 32).toNat
/-- The second signal: one unit to the barrier semaphore of the device it computes second (the y-neighbour). -/
def sigYOp (c : Dev nD) : TpuEff nD τ sig (Elt F) Λ₀ .tc PUnit :=
  .semSignal ((⟨k0_dev2 c, k0_dev2_lt c⟩ : Dev nD), Proc.tc) barS (1#32 : BitVec 32).toNat
/-- The wait for two units on the device's own barrier semaphore. -/
def barWaitOp : TpuEff nD τ sig (Elt F) Λ₀ .tc PUnit := .semWait barS (2#32 : BitVec 32).toNat

/-- The whole body: the three operations of the entry handshake, then everything after the barrier wait. -/
def headProg (c : Dev nD) : PB F :=
  .op (sigXOp c) fun _ => .op (sigYOp c) fun _ => .op barWaitOp fun _ => afterBarrier c

set_option maxRecDepth 65536 in
set_option maxHeartbeats 4000000 in
/-- The printed body is `headProg`: a weakest precondition of the one is a weakest precondition of the other. -/
theorem body_flat (c : Dev nD) (P : sProp 𝕄) (Kt : PUnit → sProp 𝕄)
    (h : P ⊢ wp frame (wpE (defs₀ (F := F)) 𝒱₀ c none) Set.univ (headProg (F := F) c) Kt) :
    P ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4) Kt := by
  simp only [cc0_body_eq_skeleton]; unfold cc0_body_skel
  simp only [k0_part57_eq_skeleton]; unfold k0_part57_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel
  simp only [semSignalWord, semWaitWord, Prog.lift, Prog.bind_op, Prog.bind_ret, Prog.pure_eq_ret, wp_deviceId]
  refine (?_ : _ ⊢ wp frame (wpE (defs₀ (F := F)) 𝒱₀ c none) Set.univ
    (Prog.op (sigXOp c) fun _ => Prog.op (sigYOp c) fun _ => Prog.op barWaitOp fun _ => afterBarrier c) Kt)
  exact h

/-- info: 'Cert.KernelIdeal.A2A.body_flat' depends on axioms: [propext, Classical.choice, Quot.sound] -/
#guard_msgs in #print axioms body_flat

end Cert.KernelIdeal.A2A
end
-- ==== Proof.Body.lean ====
import proofs.«900015_g7700000000000016_dist_a2a_v7x_xy2x2_x_m2048_n512_f32_1_alg».proof.Proof.Phases
import proofs.«900015_g7700000000000016_dist_a2a_v7x_xy2x2_x_m2048_n512_f32_1_alg».proof.Proof.Regions
import proofs.«900015_g7700000000000016_dist_a2a_v7x_xy2x2_x_m2048_n512_f32_1_alg».proof.Proof.Tables
import proofs.«900015_g7700000000000016_dist_a2a_v7x_xy2x2_x_m2048_n512_f32_1_alg».proof.Proof.Head
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.SL.BI.Stretch

variable (K : Dev nD × Fin 130 → ℕ) (c : Dev nD)

local notation "WP" => wp frame (wpE (defs₀ (F := F)) 𝒱₀ c none) Set.univ

omit [FloatOps F] in
theorem bigSep_sep4 (s : Finset (Fin 32)) (A B C D : Fin 32 → sProp 𝕄) :
    bigSep s (fun i => iprop(A i ∗ B i ∗ C i ∗ D i)) = iprop(bigSep s A ∗ bigSep s B ∗ bigSep s C ∗ bigSep s D) := by
  rw [bigSep_sep', bigSep_sep', bigSep_sep']
omit [FloatOps F] in
theorem bigSep_sep5 (s : Finset (Fin 32)) (A B C D E : Fin 32 → sProp 𝕄) :
    bigSep s (fun i => iprop(A i ∗ B i ∗ C i ∗ D i ∗ E i)) = iprop(bigSep s A ∗ bigSep s B ∗ bigSep s C ∗ bigSep s D ∗ bigSep s E) := by
  rw [bigSep_sep', bigSep_sep4]
omit [FloatOps F] in
theorem bigSep_sep6 (s : Finset (Fin 32)) (A B C D E G : Fin 32 → sProp 𝕄) :
    bigSep s (fun i => iprop(A i ∗ B i ∗ C i ∗ D i ∗ E i ∗ G i)) = iprop(bigSep s A ∗ bigSep s B ∗ bigSep s C ∗ bigSep s D ∗ bigSep s E ∗ bigSep s G) := by
  rw [bigSep_sep', bigSep_sep5]

theorem oPts_ex (t d : Dev nD) (i : Fin 32) (f : Buf (Elt F) ((yM d i).view.loc (t : Thread nD τ))) :
    oPts t d i f ⊢ (iprop(∃ f, oPts t d i f) : sProp 𝕄) := by
  iintro H; iexists f; iexact H

/-- The x-landing rectangles of a device's own buffer are what its signal hands its x-neighbour. -/
theorem barPayX_of (f : Buf (Elt F) ((c : Thread nD τ).loc cc0_stg1_0)) :
    (bigSep Finset.univ fun i : Fin 32 => oPts c c i f : sProp 𝕄) ⊢ barPayX (xn c) := by
  unfold barPayX; rw [xn_xn]
  exact bigSep_mono fun i _ => oPts_ex c c i f
/-- The y-landing rectangles are what its signal hands its y-neighbour. -/
theorem barPayY_of (f : Buf (Elt F) ((c : Thread nD τ).loc cc0_stg1_0)) :
    (bigSep Finset.univ fun i : Fin 32 => oPts c (yn c) i f : sProp 𝕄) ⊢ barPayY (yn c) := by
  unfold barPayY; rw [yn_yn]
  exact bigSep_mono fun i _ => oPts_ex c (yn c) i f

theorem fetch_0 (t : Fin cfg0.N) : (cfg0.win (0 : Fin 2)).fetch t = true := by rw [fin_N t]; rfl

set_option maxHeartbeats 4000000 in
/-- One device's body, in its flat form: the handshake, then the four stretches, then the cells closed and the two
    buffers whole again. -/
theorem sound_flat (Kt : PUnit → sProp 𝕄) :
    iprop(bodyPre m ρ K c ∗ (bodyPost m ρ c -∗ Kt ⟨⟩))
      ⊢ wp frame (wpE (defs₀ (F := F)) 𝒱₀ c none) Set.univ (headProg (F := F) c) Kt := by
  unfold headProg sigXOp sigYOp barWaitOp
  unfold bodyPre ghost positions payToks credsOf
  iintro ⟨⟨⟨⟨#HR, ⟨HpB, HpXS, HpXR, HpYS, HpYR, HpL⟩, ⟨HtBX, HtBY, HtXS, HtXR, HtYS, HtYR, HtL⟩⟩, ⟨HcB, HcXR, HcYR⟩, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the two buffers, by rectangles
  ihave Hxs := (in_split m ρ c).1 $$ Hx
  icases Hxs with ⟨HxL, HxS, HxR⟩
  ihave Hos := (out_split c g1).1 $$ Hout
  icases Hos with ⟨HoL, HoX, HoY⟩
  -- the handshake
  iapply (sig_x m ρ K c W _ Kt) $$ [HO HtBX HoX]
  · isplitr; · iexact HR
    isplitl [HO]; · iexact HO
    isplitl [HtBX]; · iexact HtBX
    iapply (barPayX_of c g1); iexact HoX
  iintro HO
  iapply (sig_y m ρ K c W _ Kt) $$ [HO HtBY HoY]
  · isplitr; · iexact HR
    isplitl [HO]; · iexact HO
    isplitl [HtBY]; · iexact HtBY
    iapply (barPayY_of c g1); iexact HoY
  iintro HO
  iapply (wait_bar m ρ K c W _ Kt) $$ [HcB HO HpB]
  · isplitr; · iexact HR
    isplitr; · iexact Hlev
    isplitl [HcB]; · iexact HcB
    isplitl [HO]; · iexact HO
    iexact HpB
  iintro ⟨HO, HpB, HsX, HsY⟩
  unfold barPayX barPayY afterBarrier
  -- the x-copies
  iapply (seq_wp c (S1 m ρ K c) (xEnq c) (step1 m ρ K c) 32 le_rfl _ Kt)
  isplitl [HO HxS HsX HtXS HtXR]
  · unfold S1
    rw [show 32 - 32 = 0 from rfl, geS_zero, ltS_zero, bigSep_empty, bigSep_sep4]
    isplitr; · iexact HR
    isplitl [HO]; · iexists _; iexact HO
    isplitl [HxS HsX HtXS HtXR]
    · isplitl [HxS]; · iexact HxS
      isplitl [HsX]; · iexact HsX
      isplitl [HtXS]; · iexact HtXS
      iexact HtXR
    iempintro
  unfold S1
  rw [geS_top, ltS_top, bigSep_empty, oX_32, add_zero]
  iintro ⟨-, ⟨%W1, HO⟩, -, HcXS⟩
  -- the local copy
  iapply (wp_lenq m ρ K c g1 _ Kt) $$ [HxL HoL HtL]
  · isplitr; · iexact HR
    isplitl [HxL]; · iexact HxL
    isplitl [HoL]; · iexact HoL
    iexact HtL
  iintro HcL
  -- receive, forward
  iapply (seq_wp c (S3 m ρ K c) (yStep c) (step3 m ρ K c) 32 le_rfl _ Kt)
  isplitl [HO HcXR HpXR HsY HtYS HtYR]
  · unfold S3
    rw [show 32 - 32 = 0 from rfl, geS_zero, ltS_zero, bigSep_empty, bigSep_sep5]
    isplitr; · iexact HR
    isplitr; · iexact Hlev
    isplitl [HO]; · iexists _; iexact HO
    isplitl [HcXR HpXR HsY HtYS HtYR]
    · isplitl [HcXR]; · iexact HcXR
      isplitl [HpXR]; · iexact HpXR
      isplitl [HsY]; · iexact HsY
      isplitl [HtYS]; · iexact HtYS
      iexact HtYR
    iempintro
  unfold S3
  rw [geS_top, ltS_top, bigSep_empty, oY_32, bigSep_sep']
  iintro ⟨-, -, ⟨%W3, HO⟩, -, HpXR, HcYS⟩
  -- the closing waits
  iapply (seq_wp c (S4 m ρ K c) (wStep c) (step4 m ρ K c) 32 le_rfl _ Kt)
  isplitl [HO HcYR HpYR HcXS HpXS HcYS HpYS]
  · unfold S4
    rw [show 32 - 32 = 0 from rfl, geS_zero, ltS_zero, bigSep_empty, bigSep_sep6]
    isplitr; · iexact HR
    isplitl [HO]; · iexists _; iexact HO
    isplitl [HcYR HpYR HcXS HpXS HcYS HpYS]
    · isplitl [HcYR]; · iexact HcYR
      isplitl [HpYR]; · iexact HpYR
      isplitl [HcXS]; · iexact HcXS
      isplitl [HpXS]; · iexact HpXS
      isplitl [HcYS]; · iexact HcYS
      iexact HpYS
    iempintro
  unfold S4
  rw [geS_top, ltS_top, bigSep_empty, bigSep_sep6]
  iintro ⟨-, ⟨%W4, HO⟩, -, HpYR, HyR, HpXS, HxS, HpYS, HyS⟩
  unfold lWait
  iapply (wait_loc m ρ K c W4 _ Kt) $$ [HcL HO HpL]
  · isplitr; · iexact HR
    isplitl [HcL]; · iexact HcL
    isplitl [HO]; · iexact HO
    iexact HpL
  iintro ⟨HO, HpL, HlP⟩
  unfold locPay
  icases HlP with ⟨HoL, HxL⟩
  -- the own cells close
  imod (close_xs m ρ K c) $$ [HpXS] with HzXS
  · isplitr; · iexact HR
    iexact HpXS
  imod (close_xr m ρ K c) $$ [HpXR] with HzXR
  · isplitr; · iexact HR
    iexact HpXR
  imod (close_ys m ρ K c) $$ [HpYS] with HzYS
  · isplitr; · iexact HR
    iexact HpYS
  imod (close_yr m ρ K c) $$ [HpYR] with HzYR
  · isplitr; · iexact HR
    iexact HpYR
  imod (close_loc m ρ K c) $$ [HpL] with HzL
  · isplitr; · iexact HR
    iexact HpL
  rw [wp_ret]; imodintro
  iapply Hk
  unfold bodyPost closedSems Dat.owesAt Pipeline.owesWithin
  rw [show (dats m ρ 0 c).owed t₀.succ = 0 from rfl]
  isplitl [HzXS HzXR HzYS HzYR HzL]
  · isplitl [HzXS]; · iexact HzXS
    isplitl [HzXR]; · iexact HzXR
    isplitl [HzYS]; · iexact HzYS
    isplitl [HzYR]; · iexact HzYR
    iexact HzL
  isplitl [HO]
  · iexists (insert (SemLoc.dma locS, ()) W4)
    isplitr; · ipureintro; exact fun _ _ => Or.inl trivial
    iexact HO
  isplitl [HxL HxS HxR]
  · iexists _; isplitr; · (ipureintro; rfl)
    iapply (in_split m ρ c).2
    isplitl [HxL]; · iexact HxL
    isplitl [HxS]; · unfold xsPay; iexact HxS
    iexact HxR
  iexists _; isplitr; · (ipureintro; rfl)
  iapply (out_split c (outAt m ρ c)).2
  isplitl [HoL]; · iexact HoL
  isplitl [HyS]; · unfold ysPay; iexact HyS
  unfold yrPay; iexact HyR

/-- The printed body is that flat form. -/
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3 cc0_scratch4) Kt :=
  body_flat c _ Kt (sound_flat m ρ K c Kt)

end Cert.KernelIdeal.A2A
end
-- ==== Proof.lean ====
/- The proof of `Cert.Claim`: the all-to-all on the 2×2 mesh against the identity.

   Device `2a+b` holds rows `2048a …` of `x`; its result must be columns `512a …` of `x`, all 4096 rows. Its own 2048
   rows come by the local copy; the 1024 rows `2048(1-a)+1024b …` come from the x-neighbour, 32 rows a chunk; the
   remaining 1024 rows the y-neighbour forwards, chunk by chunk, as it receives them from ITS x-neighbour. Before any
   copy a device has heard from both neighbours on the barrier semaphore, so every landing rectangle is handed over by
   its owner; every copy is waited on both cells before the body ends. The frames and the value are one run of the
   body, proved once per kind of step at a symbolic chunk and carried over the 32 chunks by induction; the word-level
   program's frame is the same text at the other instance. The reference returns its argument. -/
import proofs.«900015_g7700000000000016_dist_a2a_v7x_xy2x2_x_m2048_n512_f32_1_alg».proof.Defs
import proofs.«900015_g7700000000000016_dist_a2a_v7x_xy2x2_x_m2048_n512_f32_1_alg».proof.Proof.Gen.Kernel
import proofs.«900015_g7700000000000016_dist_a2a_v7x_xy2x2_x_m2048_n512_f32_1_alg».proof.Proof.Gen.KernelIdeal
import proofs.«900015_g7700000000000016_dist_a2a_v7x_xy2x2_x_m2048_n512_f32_1_alg».proof.Proof.Gen.ReferenceIdeal
import proofs.«900015_g7700000000000016_dist_a2a_v7x_xy2x2_x_m2048_n512_f32_1_alg».proof.Proof.Gen.Pre_finite_inputs_Kernel
import proofs.«900015_g7700000000000016_dist_a2a_v7x_xy2x2_x_m2048_n512_f32_1_alg».proof.Proof.Gen.Pre_finite_inputs_ReferenceIdeal
import proofs.«900015_g7700000000000016_dist_a2a_v7x_xy2x2_x_m2048_n512_f32_1_alg».proof.Proof.Assemble
import proofs.«900015_g7700000000000016_dist_a2a_v7x_xy2x2_x_m2048_n512_f32_1_alg».proof.Proof.AssembleBits
import proofs.«900015_g7700000000000016_dist_a2a_v7x_xy2x2_x_m2048_n512_f32_1_alg».proof.Proof.Launch
import proofs.«900015_g7700000000000016_dist_a2a_v7x_xy2x2_x_m2048_n512_f32_1_alg».proof.Proof.Body
import proofs.«900015_g7700000000000016_dist_a2a_v7x_xy2x2_x_m2048_n512_f32_1_alg».proof.Proof.Bits.Launch
import proofs.«900015_g7700000000000016_dist_a2a_v7x_xy2x2_x_m2048_n512_f32_1_alg».proof.Proof.Bits.Body

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Kernel.A2A.frame_Kernel_of (fun m ρ => Cert.Kernel.A2A.run_vals (F := Bits) m ρ
      (Cert.Kernel.A2A.body_obligation_of m ρ fun K c Kt => Cert.Kernel.A2A.sound_body m ρ K c Kt)),
    Cert.KernelIdeal.A2A.frame_KernelIdeal_of (fun m ρ => Cert.KernelIdeal.A2A.run_vals (F := Ideal) m ρ
      (Cert.KernelIdeal.A2A.body_obligation_of m ρ fun K c Kt => Cert.KernelIdeal.A2A.sound_body m ρ K c Kt)),
    Cert.KernelIdeal.A2A.frame_ReferenceIdeal,
    trivial,
    Cert.KernelIdeal.A2A.algebraic_of (fun m ρ => Cert.KernelIdeal.A2A.run_vals (F := Ideal) m ρ
      (Cert.KernelIdeal.A2A.body_obligation_of m ρ fun K c Kt => Cert.KernelIdeal.A2A.sound_body m ρ K c Kt))⟩

end Cert.Proof

end
